-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S256x20000 : Shape := ⟨2, ![256, 20000]⟩
abbrev S500x20000 : Shape := ⟨2, ![500, 20000]⟩
abbrev S_ : Shape := ⟨0, ![]⟩

class Facts : Prop where
  bcast_S_S256x20000 : S_.BroadcastsInDim S256x20000 (![] : Fin 0 → Fin S256x20000.rank)
  reducesTo_S256x20000_S_d0_1 : S256x20000.ReducesTo [0, 1] S_
  h_S_ : 0 < S_.numel
  bcast_S_S500x20000 : S_.BroadcastsInDim S500x20000 (![] : Fin 0 → Fin S500x20000.rank)
  reducesTo_S500x20000_S_d0_1 : S500x20000.ReducesTo [0, 1] S_

variable [Facts]

def fn {F : FTy → Type} [FloatOps F] (main_arg0 : FVec F S256x20000 .f32) (main_arg1 : FVec F S256x20000 .f32) (main_arg2 : FVec F S500x20000 .f32) : IVec S_ 1 :=
  let main_v0 : FVec F S256x20000 .f32 := Host.absf main_arg0
  let main_cst : FVec F S_ .f32 := constant S_ .f32 0x7F800000#32
  let main_v1 : FVec F S256x20000 .f32 := broadcastInDim S256x20000 ![] bcast_S_S256x20000 main_cst
  let main_v2 : IVec S256x20000 1 := cmpf .olt main_v0 main_v1
  let main_c : IVec S_ 1 := constantI S_ 1 1#1
  let main_v3 : IVec S_ 1 := (fun x v => Host.reduce IntOp.andi x v reducesTo_S256x20000_S_d0_1 h_S_) main_v2 main_c
  let main_v4 : FVec F S256x20000 .f32 := Host.absf main_arg1
  let main_cst_0 : FVec F S_ .f32 := constant S_ .f32 0x7F800000#32
  let main_v5 : FVec F S256x20000 .f32 := broadcastInDim S256x20000 ![] bcast_S_S256x20000 main_cst_0
  let main_v6 : IVec S256x20000 1 := cmpf .olt main_v4 main_v5
  let main_c_1 : IVec S_ 1 := constantI S_ 1 1#1
  let main_v7 : IVec S_ 1 := (fun x v => Host.reduce IntOp.andi x v reducesTo_S256x20000_S_d0_1 h_S_) main_v6 main_c_1
  let main_v8 : IVec S_ 1 := andi main_v3 main_v7
  let main_v9 : FVec F S500x20000 .f32 := Host.absf main_arg2
  let main_cst_2 : FVec F S_ .f32 := constant S_ .f32 0x7F800000#32
  let main_v10 : FVec F S500x20000 .f32 := broadcastInDim S500x20000 ![] bcast_S_S500x20000 main_cst_2
  let main_v11 : IVec S500x20000 1 := cmpf .olt main_v9 main_v10
  let main_c_3 : IVec S_ 1 := constantI S_ 1 1#1
  let main_v12 : IVec S_ 1 := (fun x v => Host.reduce IntOp.andi x v reducesTo_S500x20000_S_d0_1 h_S_) main_v11 main_c_3
  let main_v13 : IVec S_ 1 := andi main_v8 main_v12
  main_v13
-- ==== Kernel.lean ====
abbrev S256x20000 : Shape := ⟨2, ![256, 20000]⟩
abbrev S500x20000 : Shape := ⟨2, ![500, 20000]⟩
abbrev S20000x256 : Shape := ⟨2, ![20000, 256]⟩
abbrev S1x1 : Shape := ⟨2, ![1, 1]⟩
abbrev S2048x256 : Shape := ⟨2, ![2048, 256]⟩
abbrev S500x2048 : Shape := ⟨2, ![500, 2048]⟩
abbrev S500x256 : Shape := ⟨2, ![500, 256]⟩
abbrev S500x8 : Shape := ⟨2, ![500, 8]⟩
abbrev S2048x8 : Shape := ⟨2, ![2048, 8]⟩
abbrev S500x1 : Shape := ⟨2, ![500, 1]⟩
abbrev S500 : Shape := ⟨1, ![500]⟩
abbrev S1x500x1 : Shape := ⟨3, ![1, 500, 1]⟩
abbrev S1 : Shape := ⟨1, ![1]⟩
abbrev S1x1x1 : Shape := ⟨3, ![1, 1, 1]⟩
abbrev S_ : Shape := ⟨0, ![]⟩

abbrev nBuf : Space → Nat
  | .hbm => 7
  | .vmem => 9
  | .smem => 0
  | _ => 0

abbrev bufTy : (tb : Table) → Fin (tcTables nBuf tb) → BufTy
  | .hbm, ⟨0, _⟩ => ⟨S256x20000, .f32⟩
  | .hbm, ⟨1, _⟩ => ⟨S256x20000, .f32⟩
  | .hbm, ⟨2, _⟩ => ⟨S500x20000, .f32⟩
  | .hbm, ⟨3, _⟩ => ⟨S20000x256, .f32⟩
  | .hbm, ⟨4, _⟩ => ⟨S20000x256, .f32⟩
  | .hbm, ⟨5, _⟩ => ⟨S1x1, .f32⟩
  | .hbm, ⟨6, _⟩ => ⟨S_, .f32⟩
  | .local _ .vmem, ⟨0, _⟩ => ⟨S2048x256, .f32⟩
  | .local _ .vmem, ⟨1, _⟩ => ⟨S2048x256, .f32⟩
  | .local _ .vmem, ⟨2, _⟩ => ⟨S2048x256, .f32⟩
  | .local _ .vmem, ⟨3, _⟩ => ⟨S2048x256, .f32⟩
  | .local _ .vmem, ⟨4, _⟩ => ⟨S500x2048, .f32⟩
  | .local _ .vmem, ⟨5, _⟩ => ⟨S500x2048, .f32⟩
  | .local _ .vmem, ⟨6, _⟩ => ⟨S1x1, .f32⟩
  | .local _ .vmem, ⟨7, _⟩ => ⟨S500x256, .f32⟩
  | .local _ .vmem, ⟨8, _⟩ => ⟨S500x8, .f32⟩
  | _, _ => ⟨S256x20000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_scratch0 : Ref sig .tc := ⟨.vmem, 7, rfl⟩
abbrev cc0_scratch1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6

abbrev nD : Nat := 1
abbrev τ : Topo := Topo.v7x

variable {F : FTy → Type} [FloatOps F]

abbrev grid0 : Pipeline.Grid := ⟨1, ![10], ![false]⟩

def k0_cond2 (i : grid0.Coords) : BitVec 1 :=
  let arg0 : BitVec 32 := BitVec.ofNat 32 (i 0).val
  let c9_i32 : BitVec 32 := 9#32
  let v34 : BitVec 1 := Scalar.cmpi .eq arg0 c9_i32
  let v35 : BitVec 32 := Scalar.extui v34
  let c0_i32_18 : BitVec 32 := 0#32
  let v36 : BitVec 1 := Scalar.cmpi .ne v35 c0_i32_18
  v36

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S500x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

class Facts₀ : Prop where
  transposes_S256x20000_S20000x256_1_0 : S256x20000.Transposes [1, 0] S20000x256
  inb_S500x256_S500x256_0_0 : ∀ a, (![0, 0] : Fin 2 → Nat) a + S500x256.size a ≤ S500x256.size a
  h_S500x256 : 0 < S500x256.numel
  shapeCasts_S500x256_S500x256 : S500x256.ShapeCasts S500x256
  inb_S500x8_S500x8_0_0 : ∀ a, (![0, 0] : Fin 2 → Nat) a + S500x8.size a ≤ S500x8.size a
  h_S500x8 : 0 < S500x8.numel
  shapeCasts_S500x8_S500x8 : S500x8.ShapeCasts S500x8
  iota_S2048x256_d0_w32 : S2048x256.Iotas .tc 32 [0]
  iota_S500x2048_d1_w32 : S500x2048.Iotas .tc 32 [1]
  inb_S2048x256_S2048x256_0_0 : ∀ a, (![0, 0] : Fin 2 → Nat) a + S2048x256.size a ≤ S2048x256.size a
  h_S2048x256 : 0 < S2048x256.numel
  shapeCasts_S2048x256_S2048x256 : S2048x256.ShapeCasts S2048x256
  inb_S500x2048_S500x2048_0_0 : ∀ a, (![0, 0] : Fin 2 → Nat) a + S500x2048.size a ≤ S500x2048.size a
  h_S500x2048 : 0 < S500x2048.numel
  inb_S500x8_S500x1_0_0 : ∀ a, (![0, 0] : Fin 2 → Nat) a + S500x1.size a ≤ S500x8.size a
  h_S500x1 : 0 < S500x1.numel
  broadcasts_S500x1_S500x256 : S500x1.Broadcasts S500x256
  reduces_S500x256_S500 : S500x256.Reduces [1] S500
  shapeCasts_S500_S500x1 : S500.ShapeCasts S500x1
  natLt_1_32 : 1 < 32
  shapeCasts_S500x1_S1x500x1 : S500x1.ShapeCasts S1x500x1
  reduces_S1x500x1_S1 : S1x500x1.Reduces [1, 2] S1
  shapeCasts_S1_S1x1x1 : S1.ShapeCasts S1x1x1
  inpos_S1x1x1_p0_0_0 : ∀ a, (![0, 0, 0] : Fin 3 → Nat) a < S1x1x1.size a
  inb_S1x1_S1x1_0_0 : ∀ a, (![0, 0] : Fin 2 → Nat) a + S1x1.size a ≤ S1x1.size a
  h_S1x1 : 0 < S1x1.numel
  shapeCasts_S1x1_S_ : S1x1.ShapeCasts S_
  dot_S500x2048_S2048x256_S500x256_1_0_0_1_n_n_wf : DotDims.WF S500x2048 S2048x256 S500x256 [1] [0] [0] [1] [] []
  dot_S500x2048_S2048x8_S500x8_1_0_0_1_n_n_wf : DotDims.WF S500x2048 S2048x8 S500x8 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hstart0_0 : ∀ (i : grid0.Coords) a, cc0_transform_0 i a * S2048x256.size a < S20000x256.size a
  hwx0_0 : ∀ i : grid0.Coords, EltTy.bits .f32 = 32 ∨ (Rect.unit (s := S20000x256) (fun a => cc0_transform_0 i a * S2048x256.size a) (fun a => (Pipeline.Clip.of (cc0_transform_0 i a) (S2048x256.size a) (S20000x256.size a)).extent (S2048x256.size a)) fun a => Pipeline.Clip.inb (Pipeline.Clip.ok_of (hstart0_0 i a))).WholeWords (EltTy.packing .f32)
  hwxs0_0 : ∀ i : grid0.Coords, EltTy.bits .f32 = 32 ∨ (Rect.unit (s := S2048x256) (fun _ => 0) (fun a => (Pipeline.Clip.of (cc0_transform_0 i a) (S2048x256.size a) (S20000x256.size a)).extent (S2048x256.size a)) fun a => (Nat.zero_add _).trans_le (Pipeline.Clip.extent_le (Pipeline.Clip.ok_of (hstart0_0 i a)))).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hstart0_1 : ∀ (i : grid0.Coords) a, cc0_transform_1 i a * S2048x256.size a < S20000x256.size a
  hwx0_1 : ∀ i : grid0.Coords, EltTy.bits .f32 = 32 ∨ (Rect.unit (s := S20000x256) (fun a => cc0_transform_1 i a * S2048x256.size a) (fun a => (Pipeline.Clip.of (cc0_transform_1 i a) (S2048x256.size a) (S20000x256.size a)).extent (S2048x256.size a)) fun a => Pipeline.Clip.inb (Pipeline.Clip.ok_of (hstart0_1 i a))).WholeWords (EltTy.packing .f32)
  hwxs0_1 : ∀ i : grid0.Coords, EltTy.bits .f32 = 32 ∨ (Rect.unit (s := S2048x256) (fun _ => 0) (fun a => (Pipeline.Clip.of (cc0_transform_1 i a) (S2048x256.size a) (S20000x256.size a)).extent (S2048x256.size a)) fun a => (Nat.zero_add _).trans_le (Pipeline.Clip.extent_le (Pipeline.Clip.ok_of (hstart0_1 i a)))).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hstart0_2 : ∀ (i : grid0.Coords) a, cc0_transform_2 i a * S500x2048.size a < S500x20000.size a
  hwx0_2 : ∀ i : grid0.Coords, EltTy.bits .f32 = 32 ∨ (Rect.unit (s := S500x20000) (fun a => cc0_transform_2 i a * S500x2048.size a) (fun a => (Pipeline.Clip.of (cc0_transform_2 i a) (S500x2048.size a) (S500x20000.size a)).extent (S500x2048.size a)) fun a => Pipeline.Clip.inb (Pipeline.Clip.ok_of (hstart0_2 i a))).WholeWords (EltTy.packing .f32)
  hwxs0_2 : ∀ i : grid0.Coords, EltTy.bits .f32 = 32 ∨ (Rect.unit (s := S500x2048) (fun _ => 0) (fun a => (Pipeline.Clip.of (cc0_transform_2 i a) (S500x2048.size a) (S500x20000.size a)).extent (S500x2048.size a)) fun a => (Nat.zero_add _).trans_le (Pipeline.Clip.extent_le (Pipeline.Clip.ok_of (hstart0_2 i a)))).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1.size a ≤ S1x1.size a
  hwx0_3 : ∀ i : grid0.Coords, EltTy.bits .f32 = 32 ∨ (Rect.block (s := S1x1) S1x1.size (cc0_transform_3 i) (hinb0_3 i)).WholeWords (EltTy.packing .f32)

variable [Facts₀]

def dot_S500x2048_S2048x256_S500x256_1_0_0_1_n_n : DotDims S500x2048 S2048x256 S500x256 where
  lhsContracting := [1]
  rhsContracting := [0]
  lhsNonContracting := [0]
  rhsNonContracting := [1]
  lhsBatch := []
  rhsBatch := []
  wf := dot_S500x2048_S2048x256_S500x256_1_0_0_1_n_n_wf
def dot_S500x2048_S2048x8_S500x8_1_0_0_1_n_n : DotDims S500x2048 S2048x8 S500x8 where
  lhsContracting := [1]
  rhsContracting := [0]
  lhsNonContracting := [0]
  rhsNonContracting := [1]
  lhsBatch := []
  rhsBatch := []
  wf := dot_S500x2048_S2048x8_S500x8_1_0_0_1_n_n_wf

abbrev win0_0 : Pipeline.Window sig grid0 :=
  Pipeline.Window.ofSpecClip (Memref.whole main_v0) S2048x256.size cc0_transform_0 reads0_0 false false 2 stage0_0 sem0_0
    hrank0 hreads0_0 hstart0_0 nbuf0_0 (Memref.isWhole_whole _) hwx0_0 hwxs0_0 hstage0_0

abbrev win0_1 : Pipeline.Window sig grid0 :=
  Pipeline.Window.ofSpecClip (Memref.whole main_v1) S2048x256.size cc0_transform_1 reads0_1 false false 2 stage0_1 sem0_1
    hrank0 hreads0_1 hstart0_1 nbuf0_1 (Memref.isWhole_whole _) hwx0_1 hwxs0_1 hstage0_1

abbrev win0_2 : Pipeline.Window sig grid0 :=
  Pipeline.Window.ofSpecClip (Memref.whole main_arg2) S500x2048.size cc0_transform_2 reads0_2 false false 2 stage0_2 sem0_2
    hrank0 hreads0_2 hstart0_2 nbuf0_2 (Memref.isWhole_whole _) hwx0_2 hwxs0_2 hstage0_2

abbrev win0_3 : Pipeline.Window sig grid0 :=
  Pipeline.Window.ofSpec (Memref.whole main_v2) S1x1.size cc0_transform_3 reads0_3 true true 1 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S256x20000 : Shape := ⟨2, ![256, 20000]⟩
abbrev S500x20000 : Shape := ⟨2, ![500, 20000]⟩
abbrev S_ : Shape := ⟨0, ![]⟩
abbrev S500 : Shape := ⟨1, ![500]⟩
abbrev S20000x500 : Shape := ⟨2, ![20000, 500]⟩
abbrev S256x500 : Shape := ⟨2, ![256, 500]⟩
abbrev S1x500 : Shape := ⟨2, ![1, 500]⟩

abbrev nBuf : Space → Nat
  | .hbm => 44
  | .vmem => 0
  | .smem => 0
  | _ => 0

abbrev bufTy : (tb : Table) → Fin (tcTables nBuf tb) → BufTy
  | .hbm, ⟨0, _⟩ => ⟨S256x20000, .f32⟩
  | .hbm, ⟨1, _⟩ => ⟨S256x20000, .f32⟩
  | .hbm, ⟨2, _⟩ => ⟨S500x20000, .f32⟩
  | .hbm, ⟨3, _⟩ => ⟨S_, .f32⟩
  | .hbm, ⟨4, _⟩ => ⟨S500, .f32⟩
  | .hbm, ⟨5, _⟩ => ⟨S_, .f32⟩
  | .hbm, ⟨6, _⟩ => ⟨S500, .f32⟩
  | .hbm, ⟨7, _⟩ => ⟨S500, .i1⟩
  | .hbm, ⟨8, _⟩ => ⟨S_, .f32⟩
  | .hbm, ⟨9, _⟩ => ⟨S500, .f32⟩
  | .hbm, ⟨10, _⟩ => ⟨S500, .f32⟩
  | .hbm, ⟨11, _⟩ => ⟨S20000x500, .f32⟩
  | .hbm, ⟨12, _⟩ => ⟨S256x500, .f32⟩
  | .hbm, ⟨13, _⟩ => ⟨S1x500, .f32⟩
  | .hbm, ⟨14, _⟩ => ⟨S256x500, .f32⟩
  | .hbm, ⟨15, _⟩ => ⟨S256x500, .f32⟩
  | .hbm, ⟨16, _⟩ => ⟨S20000x500, .f32⟩
  | .hbm, ⟨17, _⟩ => ⟨S256x500, .f32⟩
  | .hbm, ⟨18, _⟩ => ⟨S1x500, .f32⟩
  | .hbm, ⟨19, _⟩ => ⟨S256x500, .f32⟩
  | .hbm, ⟨20, _⟩ => ⟨S256x500, .f32⟩
  | .hbm, ⟨21, _⟩ => ⟨S256x500, .f32⟩
  | .hbm, ⟨22, _⟩ => ⟨S256x500, .f32⟩
  | .hbm, ⟨23, _⟩ => ⟨S_, .f32⟩
  | .hbm, ⟨24, _⟩ => ⟨S500, .f32⟩
  | .hbm, ⟨25, _⟩ => ⟨S_, .f32⟩
  | .hbm, ⟨26, _⟩ => ⟨S500, .f32⟩
  | .hbm, ⟨27, _⟩ => ⟨S500, .f32⟩
  | .hbm, ⟨28, _⟩ => ⟨S500, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S500, .f32⟩
  | .hbm, ⟨34, _⟩ => ⟨S500, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .i1⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | _, _ => ⟨S256x20000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_cst_1 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_2 : Ref sig .tc := ⟨.hbm, 23, rfl⟩
abbrev main_v17 : Ref sig .tc := ⟨.hbm, 24, rfl⟩
abbrev main_cst_3 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_4 : Ref sig .tc := ⟨.hbm, 29, rfl⟩
abbrev main_v21 : Ref sig .tc := ⟨.hbm, 30, rfl⟩
abbrev main_cst_5 : Ref sig .tc := ⟨.hbm, 31, rfl⟩
abbrev main_call0_v0 : Ref sig .tc := ⟨.hbm, 32, rfl⟩
abbrev main_call0_v1 : Ref sig .tc := ⟨.hbm, 33, rfl⟩
abbrev main_v22 : Ref sig .tc := ⟨.hbm, 34, rfl⟩
abbrev main_cst_6 : Ref sig .tc := ⟨.hbm, 35, rfl⟩
abbrev main_v23 : Ref sig .tc := ⟨.hbm, 36, rfl⟩
abbrev main_cst_7 : Ref sig .tc := ⟨.hbm, 37, rfl⟩
abbrev main_v24 : Ref sig .tc := ⟨.hbm, 38, rfl⟩
abbrev main_cst_8 : Ref sig .tc := ⟨.hbm, 39, rfl⟩
abbrev main_v25 : Ref sig .tc := ⟨.hbm, 40, rfl⟩
abbrev main_v26 : Ref sig .tc := ⟨.hbm, 41, rfl⟩
abbrev main_cst_9 : Ref sig .tc := ⟨.hbm, 42, rfl⟩
abbrev main_v27 : Ref sig .tc := ⟨.hbm, 43, rfl⟩

abbrev nD : Nat := 1
abbrev τ : Topo := Topo.v7x

variable {F : FTy → Type} [FloatOps F]

class Facts₀ : Prop where
  reducesTo_S500x20000_S500_d1 : S500x20000.ReducesTo [1] S500
  h_S_ : 0 < S_.numel
  bcast_S_S500 : S_.BroadcastsInDim S500 (![] : Fin 0 → Fin S500.rank)
  transposes_S500x20000_S20000x500_1_0 : S500x20000.Transposes [1, 0] S20000x500
  bcast_S500_S1x500_1 : S500.BroadcastsInDim S1x500 (![1] : Fin 1 → Fin S1x500.rank)
  bcast_S1x500_S256x500_0_1 : S1x500.BroadcastsInDim S256x500 (![0, 1] : Fin 2 → Fin S256x500.rank)
  reducesTo_S256x500_S500_d0 : S256x500.ReducesTo [0] S500
  reducesTo_S500_S_d0 : S500.ReducesTo [0] S_
  dot_S256x20000_S20000x500_S256x500_1_0_0_1_n_n_wf : DotDims.WF S256x20000 S20000x500 S256x500 [1] [0] [0] [1] [] []

variable [Facts₀]

def dot_S256x20000_S20000x500_S256x500_1_0_0_1_n_n : DotDims S256x20000 S20000x500 S256x500 where
  lhsContracting := [1]
  rhsContracting := [0]
  lhsNonContracting := [0]
  rhsNonContracting := [1]
  lhsBatch := []
  rhsBatch := []
  wf := dot_S256x20000_S20000x500_S256x500_1_0_0_1_n_n_wf

class Facts : Prop extends Facts₀ where

variable [Facts]
-- ==== Proof.Kernel.Acc.lean ====
import proofs.«142297_g66838281060554_cont_sun_c4_581_18_alg».proof.Proof.Gen.Kernel.Frame
import proofs.«142297_g66838281060554_cont_sun_c4_581_18_alg».proof.Proof.Gen.Kernel.Skeleton

/-!
# What the two accumulators hold after each grid point

The kernel walks the 20000 genes in ten chunks of 2048 (the last one holds 1568 genes; the rest of its staging
buffers is past the arrays' end). It keeps two accumulators between grid points: `acc` (pathway × sample) and
`cnt` (pathway × 8 equal columns). Point 0 starts both from zero; every point adds its chunk's masked product;
the last point turns them into the one number it stores.

Here the contents of the two accumulators after point `n` are defined by recursion on `n`, from the three input
blocks of the points up to `n`, each block taken with ZERO past the array's end. (The body masks everything past
the array's end before using it, so what a staging buffer really holds there does not matter.)
-/

noncomputable section

namespace Cert.Kernel.Acc

open Cert.Kernel Cert.Kernel.Gen
open Idealize.ShloMosaic Idealize.ShloMosaic.TcCoe Idealize.SL.Sem

variable {F : FTy → Type} [FloatOps F]
variable (m : (ℓ : Loc nD τ sig) → Buf (Elt F) ℓ)

/-! ## The body's two branches

The body resets the accumulators when the grid coordinate is 0 and finishes when it is 9. -/

/-- The reset branch's condition, as the body computes it from the grid coordinate. -/
abbrev cond1 (i : grid0.Coords) : Prop :=
  (Scalar.cmpi .ne (Scalar.extui (Scalar.cmpi .eq (BitVec.ofNat 32 (i 0).val) 0#32)) 0#32) = 1#1
/-- The finishing branch's. -/
abbrev cond2 (i : grid0.Coords) : Prop := k0_cond2 i = 1#1

/-- The reset branch is taken at point 0 only (decided over the ten points). -/
theorem hcond1 : ∀ t : Fin cfg0.N, cond1 (grid0.coords t) ↔ t.val = 0 :=
  (by decide +kernel : ∀ t : Fin grid0.N, cond1 (grid0.coords t) ↔ t.val = 0)
/-- The finishing branch at point 9 only. -/
theorem hcond2 : ∀ t : Fin cfg0.N, cond2 (grid0.coords t) ↔ t.val = 9 :=
  (by decide +kernel : ∀ t : Fin grid0.N, cond2 (grid0.coords t) ↔ t.val = 9)

/-! ## The accumulators -/

/-- The zero word everywhere: the filler past an array's end. -/
def pad (S : Shape) : S.Idx → Elt F .f32 := fun _ => Scalar.ofBits .f32 0x00000000#32

/-- The expression window's staging buffer at point `t`: its block of the (gene, sample) array on the rows inside
    the array, `d` on the rows past its end. -/
def stg0 (c : Dev nD) (t : Fin cfg0.N) (d : S2048x256.Idx → Elt F .f32) : Vec F S2048x256 .f32 :=
  win0_0.fill (grid0.coords t) d (iblk m c 0 t)
/-- The predicted window's likewise. -/
def stg1 (c : Dev nD) (t : Fin cfg0.N) (d : S2048x256.Idx → Elt F .f32) : Vec F S2048x256 .f32 :=
  win0_1.fill (grid0.coords t) d (iblk m c 1 t)
/-- The membership window's: its block of the (pathway, gene) array on the columns inside the array. -/
def stg2 (c : Dev nD) (t : Fin cfg0.N) (d : S500x2048.Idx → Elt F .f32) : Vec F S500x2048 .f32 :=
  win0_2.fill (grid0.coords t) d (iblk m c 2 t)

/-- What one point adds: the new `acc` and the new `cnt` from the old ones and the point's three blocks. -/
def step (c : Dev nD) (t : Fin cfg0.N) (a : Vec F S500x256 .f32) (s : Vec F S500x8 .f32) : Vec F S500x256 .f32 × Vec F S500x8 .f32 :=
  (k0_pay5 (grid0.coords t) (stg1 m c t (pad S2048x256)) (stg0 m c t (pad S2048x256)) (stg2 m c t (pad S500x2048)) a,
   k0_pay6 (grid0.coords t) (stg2 m c t (pad S500x2048)) s)

/-- THE ACCUMULATION: `acc` and `cnt` after the body at point `n`. Point 0 steps from the zero fills, every later point
    from what the point before left. -/
def scAt (c : Dev nD) : (n : ℕ) → n < cfg0.N → Vec F S500x256 .f32 × Vec F S500x8 .f32
  | 0, hn => step m c ⟨0, hn⟩ (k0_pay2 (F := F)) (k0_pay3 (F := F))
  | n + 1, hn => step m c ⟨n + 1, hn⟩ (scAt c n (Nat.lt_of_succ_lt hn)).1 (scAt c n (Nat.lt_of_succ_lt hn)).2

theorem scAt_zero (c : Dev nD) (hn : 0 < cfg0.N) :
    scAt m c 0 hn = step m c ⟨0, hn⟩ (k0_pay2 (F := F)) (k0_pay3 (F := F)) := rfl

theorem scAt_succ (c : Dev nD) (n : ℕ) (hn : n + 1 < cfg0.N) :
    scAt m c (n + 1) hn = step m c ⟨n + 1, hn⟩ (scAt m c n (Nat.lt_of_succ_lt hn)).1 (scAt m c n (Nat.lt_of_succ_lt hn)).2 := rfl

/-- The first column of `cnt`, as the last point's load of it reads it. -/
def col0 (s : Vec F S500x8 .f32) : Vec F S500x1 .f32 :=
  View.ld s (Rect.unit (s := S500x8) ![0, 0] S500x1.size Facts₀.inb_S500x8_S500x1_0_0)

/-- The one number the last point stores, as a block of the (1, 1) result: from the accumulators after the last point. -/
def outBlk (c : Dev nD) : Vec F S1x1 .f32 :=
  k0_pay1 (col0 (scAt m c 9 (by decide)).2) (scAt m c 9 (by decide)).1

end Cert.Kernel.Acc

end
-- ==== Proof.Kernel.Masks.lean ====
import proofs.«142297_g66838281060554_cont_sun_c4_581_18_alg».proof.Proof.Gen.Kernel.Frame
import proofs.«142297_g66838281060554_cont_sun_c4_581_18_alg».proof.Proof.Gen.Kernel.Skeleton

/-!
# The body's masks cut exactly at the arrays' end

At grid point `t` the body compares a position `j` of its 2048-gene chunk with the word `20000 - 2048 t` (signed,
32 bits) and replaces by zero every entry of the two difference blocks and of the membership block whose position is
not below it. Over the ten grid points that word is between 1568 and 20000, so the comparison holds exactly when gene
`2048 t + j` exists: exactly on the part of each block that lies inside its array. Hence what a staging buffer holds
past the array's end never reaches the accumulators: the body's three payloads take the same value whatever fills
that part.
-/

noncomputable section

namespace Cert.Kernel.Masks

open Cert.Kernel Cert.Kernel.Gen
open Idealize.ShloMosaic Idealize.ShloMosaic.TcCoe Idealize.SL.Sem

variable {F : FTy → Type} [FloatOps F]

/-- The word the body compares positions with at grid coordinates `i`: 20000 minus 2048 times the coordinate. -/
def limit (i : grid0.Coords) : BitVec 32 :=
  Scalar.subi 20000#32 (Scalar.muli (BitVec.ofNat 32 (i 0).val) 2048#32)

/-- Over the ten grid points the limit word, read as a signed integer, is `20000 - 2048 t`: between 1568 and 20000,
    so neither the product nor the difference wraps. -/
theorem limit_toInt : ∀ t : Fin grid0.N, (limit (grid0.coords t)).toInt = 20000 - 2048 * (t.val : Int) := by
  decide +kernel

/-- A truth value written as one bit is the bit 1 exactly when it is true. -/
theorem ofBool_eq_one (b : Bool) : BitVec.ofBool b = 1#1 ↔ b = true := by
  cases b <;> decide

/-- A position of the chunk is below the limit word exactly when its gene exists. -/
theorem mask_iff (t : Fin cfg0.N) (j : ℕ) (hj : j < 2048) :
    IntOp.cmpi .slt (BitVec.ofNat 32 j) (limit (grid0.coords t)) = 1#1 ↔ 2048 * t.val + j < 20000 := by
  have hL : (limit (grid0.coords t)).toInt = 20000 - 2048 * (t.val : Int) := limit_toInt t
  -- a position below 2048 is its own signed reading
  have hJ : (BitVec.ofNat 32 j).toInt = (j : Int) := by
    rw [BitVec.toInt_eq_toNat_cond, BitVec.toNat_ofNat]
    have : j % 2 ^ 32 = j := Nat.mod_eq_of_lt (by omega)
    rw [this]; split <;> omega
  -- the signed comparison is the comparison of the two signed readings: `j < 20000 - 2048 t`
  show BitVec.ofBool ((BitVec.ofNat 32 j).slt (limit (grid0.coords t))) = 1#1 ↔ _
  rw [ofBool_eq_one, BitVec.slt, decide_eq_true_iff, hL, hJ]
  omega

/-! ## What each fetch moves

A block of 2048 genes at block index `t` is cut at gene 20000: the fetch moves its first `min 2048 (20000 - 2048 t)`
positions on the gene axis and all of the other axis. -/

theorem xsize0 : ∀ t : Fin grid0.N,
    win0_0.xsize (grid0.coords t) 0 = min 2048 (20000 - 2048 * t.val) ∧ win0_0.xsize (grid0.coords t) 1 = 256 := by
  decide +kernel
theorem xsize1 : ∀ t : Fin grid0.N,
    win0_1.xsize (grid0.coords t) 0 = min 2048 (20000 - 2048 * t.val) ∧ win0_1.xsize (grid0.coords t) 1 = 256 := by
  decide +kernel
theorem xsize2 : ∀ t : Fin grid0.N,
    win0_2.xsize (grid0.coords t) 0 = 500 ∧ win0_2.xsize (grid0.coords t) 1 = min 2048 (20000 - 2048 * t.val) := by
  decide +kernel

/-- The expression window's fetch at point `t` moves exactly the rows whose gene exists. -/
theorem moved0_iff (t : Fin cfg0.N) (j : S2048x256.Idx) :
    win0_0.moved (grid0.coords t) j = true ↔ 2048 * t.val + (j 0).val < 20000 := by
  have h0 : (j 0).val < 2048 := (j 0).isLt
  have h1 : (j 1).val < 256 := (j 1).isLt
  obtain ⟨e0, e1⟩ := xsize0 t
  rw [win0_0.moved_iff]
  constructor
  · intro h; have := h 0; rw [e0] at this; omega
  · intro h
    exact Fin.forall_fin_two.2 ⟨Nat.lt_of_lt_of_eq (by omega : (j 0).val < min 2048 (20000 - 2048 * t.val)) e0.symm,
      Nat.lt_of_lt_of_eq h1 e1.symm⟩
/-- The predicted window's likewise. -/
theorem moved1_iff (t : Fin cfg0.N) (j : S2048x256.Idx) :
    win0_1.moved (grid0.coords t) j = true ↔ 2048 * t.val + (j 0).val < 20000 := by
  have h0 : (j 0).val < 2048 := (j 0).isLt
  have h1 : (j 1).val < 256 := (j 1).isLt
  obtain ⟨e0, e1⟩ := xsize1 t
  rw [win0_1.moved_iff]
  constructor
  · intro h; have := h 0; rw [e0] at this; omega
  · intro h
    exact Fin.forall_fin_two.2 ⟨Nat.lt_of_lt_of_eq (by omega : (j 0).val < min 2048 (20000 - 2048 * t.val)) e0.symm,
      Nat.lt_of_lt_of_eq h1 e1.symm⟩
/-- The membership window's fetch moves exactly the columns whose gene exists. -/
theorem moved2_iff (t : Fin cfg0.N) (j : S500x2048.Idx) :
    win0_2.moved (grid0.coords t) j = true ↔ 2048 * t.val + (j 1).val < 20000 := by
  have h0 : (j 0).val < 500 := (j 0).isLt
  have h1 : (j 1).val < 2048 := (j 1).isLt
  obtain ⟨e0, e1⟩ := xsize2 t
  rw [win0_2.moved_iff]
  constructor
  · intro h; have := h 1; rw [e1] at this; omega
  · intro h
    exact Fin.forall_fin_two.2 ⟨Nat.lt_of_lt_of_eq h0 e0.symm,
      Nat.lt_of_lt_of_eq (by omega : (j 1).val < min 2048 (20000 - 2048 * t.val)) e1.symm⟩

/-- Two fillings of a block with the same fetched part agree wherever the fetch moves. -/
theorem fill_congr_moved {G : Pipeline.Grid} (w : Pipeline.Window sig G) {α : Type} (i : G.Coords) (d d' : w.block.Idx → α)
    (g : (w.xblock i).Idx → α) (j : w.block.Idx) (h : w.moved i j = true) : w.fill i d g j = w.fill i d' g j := by
  unfold Pipeline.Window.fill
  rw [dif_pos h, dif_pos h]

/-! ## The masked membership block -/

/-- Entry `j` of the masked membership block: the block's entry where column `j 1` is below the limit word, zero elsewhere. -/
theorem pay4_apply (i : grid0.Coords) (w : Vec F S500x2048 .f32) (j : S500x2048.Idx) :
    k0_pay4 i w j = if IntOp.cmpi .slt (BitVec.ofNat 32 (j 1).val) (limit i) = 1#1 then w j else Scalar.ofBits .f32 0x00000000#32 := by
  unfold k0_pay4
  simp only [select, Scalar.select, cmpi, iota, broadcast, List.foldl, limit, Nat.zero_mul, Nat.zero_add]
  rfl

/-- Blocks that agree on the columns below the limit word have the same masked block. -/
theorem pay4_congr (i : grid0.Coords) (v v' : Vec F S500x2048 .f32)
    (h : ∀ j : S500x2048.Idx, IntOp.cmpi .slt (BitVec.ofNat 32 (j 1).val) (limit i) = 1#1 → v j = v' j) :
    k0_pay4 i v = k0_pay4 i v' := by
  funext j
  rw [pay4_apply, pay4_apply]
  split
  · next hm => exact h j hm
  · rfl

/-- The masked membership block does not depend on what fills the block past the array's end. -/
theorem pay4_fill (t : Fin cfg0.N) (d d' : S500x2048.Idx → Elt F .f32) (b : (win0_2.xblock (grid0.coords t)).Idx → Elt F .f32) :
    k0_pay4 (grid0.coords t) (win0_2.fill (grid0.coords t) d b) = k0_pay4 (grid0.coords t) (win0_2.fill (grid0.coords t) d' b) :=
  -- a column below the limit word is a gene that exists, hence a column the fetch moves: there both fillings are the fetched entry
  pay4_congr (grid0.coords t) _ _ fun j hm =>
    fill_congr_moved win0_2 (grid0.coords t) d d' b j ((moved2_iff t j).2 ((mask_iff t (j 1).val (j 1).isLt).1 hm))

/-- The count accumulator's update reads the membership block through its masked block only. -/
theorem pay6_congr (i : grid0.Coords) (v v' : Vec F S500x2048 .f32) (s : Vec F S500x8 .f32)
    (h : k0_pay4 i v = k0_pay4 i v') : k0_pay6 i v s = k0_pay6 i v' s := by
  unfold k0_pay6
  rw [h]

/-- The count accumulator's update does not depend on it either. -/
theorem pay6_fill (t : Fin cfg0.N) (d d' : S500x2048.Idx → Elt F .f32) (b : (win0_2.xblock (grid0.coords t)).Idx → Elt F .f32)
    (s : Vec F S500x8 .f32) :
    k0_pay6 (grid0.coords t) (win0_2.fill (grid0.coords t) d b) s = k0_pay6 (grid0.coords t) (win0_2.fill (grid0.coords t) d' b) s :=
  pay6_congr (grid0.coords t) _ _ s (pay4_fill t d d' b)

/-! ## The masked difference block -/

/-- The difference of two blocks of 2048 genes with every row not below the limit word replaced by zero. -/
def maskedDiff (i : grid0.Coords) (v9 v11 : Vec F S2048x256 .f32) : FVec F S2048x256 .f32 :=
  select (cmpi .slt (iota .tc S2048x256 32 [0] iota_S2048x256_d0_w32) (broadcast S2048x256 (limit i)))
    (subf (shapeCast S2048x256 v9 shapeCasts_S2048x256_S2048x256) (shapeCast S2048x256 v11 shapeCasts_S2048x256_S2048x256))
    (broadcast S2048x256 (Scalar.ofBits .f32 0x00000000#32))

/-- The difference accumulator's update is the accumulator plus the product of the masked membership block with the masked
    difference block: it reads its three blocks through those two only. -/
theorem pay5_eq (i : grid0.Coords) (v9 v11 : Vec F S2048x256 .f32) (v18 : Vec F S500x2048 .f32) (a : Vec F S500x256 .f32) :
    k0_pay5 i v9 v11 v18 a = shapeCast S500x256 (addf a (matmul dot_S500x2048_S2048x256_S500x256_1_0_0_1_n_n none (k0_pay4 i v18)
      (maskedDiff i v9 v11) (constant S500x256 .f32 0x00000000#32))) shapeCasts_S500x256_S500x256 := rfl

/-- Reshaping a vector to its own shape changes nothing. -/
theorem shapeCast_same {s : Shape} {α : Type} (v : s.Idx → α) (h : s.ShapeCasts s) : shapeCast s v h = v :=
  funext fun i => congrArg v (Shape.reshapeEquiv_self _ i)

/-- Entry `j` of the masked difference block: the difference of the two entries where row `j 0` is below the limit word,
    zero elsewhere. -/
theorem maskedDiff_apply (i : grid0.Coords) (v9 v11 : Vec F S2048x256 .f32) (j : S2048x256.Idx) :
    maskedDiff i v9 v11 j
      = if IntOp.cmpi .slt (BitVec.ofNat 32 (j 0).val) (limit i) = 1#1 then FloatOps.subf (v9 j) (v11 j) else Scalar.ofBits .f32 0x00000000#32 := by
  unfold maskedDiff
  rw [shapeCast_same, shapeCast_same]
  simp only [select, Scalar.select, cmpi, iota, broadcast, List.foldl, subf, Nat.zero_mul, Nat.zero_add]
  rfl

/-- Pairs of blocks that agree on the rows below the limit word have the same masked difference. -/
theorem maskedDiff_congr (i : grid0.Coords) (v9 v9' v11 v11' : Vec F S2048x256 .f32)
    (h : ∀ j : S2048x256.Idx, IntOp.cmpi .slt (BitVec.ofNat 32 (j 0).val) (limit i) = 1#1 → v9 j = v9' j ∧ v11 j = v11' j) :
    maskedDiff i v9 v11 = maskedDiff i v9' v11' := by
  funext j
  rw [maskedDiff_apply, maskedDiff_apply]
  split
  · next hm => rw [(h j hm).1, (h j hm).2]
  · rfl

/-- Equal masked membership blocks and equal masked differences give equal updates of the difference accumulator. -/
theorem pay5_congr (i : grid0.Coords) (v9 v9' v11 v11' : Vec F S2048x256 .f32) (v18 v18' : Vec F S500x2048 .f32) (a : Vec F S500x256 .f32)
    (h4 : k0_pay4 i v18 = k0_pay4 i v18') (hd : maskedDiff i v9 v11 = maskedDiff i v9' v11') :
    k0_pay5 i v9 v11 v18 a = k0_pay5 i v9' v11' v18' a := by
  rw [pay5_eq, pay5_eq, h4, hd]

/-- Nor does the difference accumulator's, in any of its three blocks. -/
theorem pay5_fill (t : Fin cfg0.N) (d0 d0' d1 d1' : S2048x256.Idx → Elt F .f32) (d2 d2' : S500x2048.Idx → Elt F .f32)
    (b0 : (win0_0.xblock (grid0.coords t)).Idx → Elt F .f32) (b1 : (win0_1.xblock (grid0.coords t)).Idx → Elt F .f32)
    (b2 : (win0_2.xblock (grid0.coords t)).Idx → Elt F .f32) (a : Vec F S500x256 .f32) :
    k0_pay5 (grid0.coords t) (win0_1.fill (grid0.coords t) d1 b1) (win0_0.fill (grid0.coords t) d0 b0) (win0_2.fill (grid0.coords t) d2 b2) a
      = k0_pay5 (grid0.coords t) (win0_1.fill (grid0.coords t) d1' b1) (win0_0.fill (grid0.coords t) d0' b0) (win0_2.fill (grid0.coords t) d2' b2) a :=
  -- a row below the limit word is a gene that exists, hence a row both fetches move: there each filling is the fetched entry
  pay5_congr (grid0.coords t) _ _ _ _ _ _ a (pay4_fill t d2 d2' b2)
    (maskedDiff_congr (grid0.coords t) _ _ _ _ fun j hm =>
      have hg : 2048 * t.val + (j 0).val < 20000 := (mask_iff t (j 0).val (j 0).isLt).1 hm
      ⟨fill_congr_moved win0_1 (grid0.coords t) d1 d1' b1 j ((moved1_iff t j).2 hg),
       fill_congr_moved win0_0 (grid0.coords t) d0 d0' b0 j ((moved0_iff t j).2 hg)⟩)

end Cert.Kernel.Masks

end
-- ==== Proof.Kernel.RunA.lean ====
import proofs.«142297_g66838281060554_cont_sun_c4_581_18_alg».proof.Proof.Kernel.Acc
import Idealize.ShloMosaic.Lib.Pipeline.FrameBody
import Idealize.ShloMosaic.Lib.Pipeline.Value
import Idealize.ShloMosaic.Lib.Tactic

/-!
# The body at the first grid point

The reset branch is taken: both accumulators are first filled with zero, then the body goes on as at any point, so
what it stores is one step from the zero fills, whatever the accumulators held before.
-/

set_option maxRecDepth 16384

noncomputable section

namespace Cert.Kernel.RunA

open Cert.Kernel Cert.Kernel.Gen Cert.Kernel.Acc
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ (UR sig nD τ) ℕ

/-- The zero offsets of a whole-buffer access, however spelt. -/
theorem hz : (![0, 0] : Fin 2 → Nat) = fun _ => 0 := funext fun a => by fin_cases a <;> rfl

set_option maxHeartbeats 4000000 in
/-- At the point that resets, on whole memrefs holding `x0 x1 x2 o a s`: the body runs, and leaves the accumulators at
    one step from the zero fills; the result block as it was. -/
theorem run (c : Dev nD) (i : grid0.Coords)
    (arg1 : Memref sig .tc .vmem S2048x256 .f32) (harg1 : arg1.IsWhole) (arg2 : Memref sig .tc .vmem S2048x256 .f32) (harg2 : arg2.IsWhole)
    (arg3 : Memref sig .tc .vmem S500x2048 .f32) (harg3 : arg3.IsWhole) (arg4 : Memref sig .tc .vmem S1x1 .f32) (harg4 : arg4.IsWhole)
    (arg5 : Memref sig .tc .vmem S500x256 .f32) (harg5 : arg5.IsWhole) (arg6 : Memref sig .tc .vmem S500x8 .f32) (harg6 : arg6.IsWhole)
    (hc1 : cond1 i) (hc2 : ¬cond2 i)
    (x0 x1 : Vec F S2048x256 .f32) (x2 : Vec F S500x2048 .f32) (o : Vec F S1x1 .f32) (a : Vec F S500x256 .f32) (s : Vec F S500x8 .f32)
    (E : Set ℕ) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare o ∗ owns (c : Thread nD τ) arg5 fullShare a ∗ owns (c : Thread nD τ) arg6 fullShare s
        ∗ (iprop(owns (c : Thread nD τ) arg1 fullShare x0 ∗ owns (c : Thread nD τ) arg2 fullShare x1 ∗ owns (c : Thread nD τ) arg3 fullShare x2
            ∗ owns (c : Thread nD τ) arg4 fullShare o ∗ owns (c : Thread nD τ) arg5 fullShare (k0_pay5 i x1 x0 x2 (k0_pay2 (F := F)))
            ∗ owns (c : Thread nD τ) arg6 fullShare (k0_pay6 i x2 (k0_pay3 (F := F)))) -∗ K ⟨⟩))
      ⊢ wp frame (wpE (defs₀ (F := F)) Variants.none c none) E
          (cc0__pcl_body i arg1 harg1 arg2 harg2 arg3 harg3 arg4 harg4 arg5 harg5 arg6 harg6) K := by
  simp only [cc0__pcl_body_eq_skeleton]; unfold cc0__pcl_body_skel
  simp only [k0_part1_eq_skeleton]; unfold k0_part1_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, Hk⟩
  obtain rfl := harg1.eq_unread hf1; obtain rfl := harg2.eq_unread hf2; obtain rfl := harg3.eq_unread hf3
  obtain rfl := harg4.eq_unread hf4; obtain rfl := harg5.eq_unread hf5; obtain rfl := harg6.eq_unread hf6
  sl_exec (disch := first | exact hc1 | exact hc2)
  sl_step
  sl_unfold_run_names
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr
    swap; · iexact H5
    ipureintro
    rw [View.read_writes_eq_canon _ _ _ (fun y => ⟨_, List.mem_cons_self, View.mem_set_unit_zero hz Facts₀.inb_S500x256_S500x256_0_0 y⟩),
      View.canon_cons_unit_zero hz]
    simp only [View.readAt_eq_ld, harg1.read_unread, harg2.read_unread, harg3.read_unread, harg5.read_unread, harg6.read_unread,
      View.ld_unit_zero (S := S2048x256) hz, View.ld_unit_zero (S := S500x2048) hz, View.ld_unit_zero (S := S500x256) hz,
      View.ld_unit_zero (S := S500x8) hz,
      View.readCov_unit_zero (S := S500x256) _ hz, View.readCov_unit_zero (S := S500x8) _ hz]
  · iexists _; isplitr
    swap; · iexact H6
    ipureintro
    rw [View.read_writes_eq_canon _ _ _ (fun y => ⟨_, List.mem_cons_self, View.mem_set_unit_zero hz Facts₀.inb_S500x8_S500x8_0_0 y⟩),
      View.canon_cons_unit_zero hz]
    simp only [View.readAt_eq_ld, harg1.read_unread, harg2.read_unread, harg3.read_unread, harg5.read_unread, harg6.read_unread,
      View.ld_unit_zero (S := S2048x256) hz, View.ld_unit_zero (S := S500x2048) hz, View.ld_unit_zero (S := S500x256) hz,
      View.ld_unit_zero (S := S500x8) hz,
      View.readCov_unit_zero (S := S500x256) _ hz, View.readCov_unit_zero (S := S500x8) _ hz]

end Cert.Kernel.RunA

end
-- ==== Proof.Kernel.RunB.lean ====
import proofs.«142297_g66838281060554_cont_sun_c4_581_18_alg».proof.Proof.Kernel.Acc
import Idealize.ShloMosaic.Lib.Pipeline.FrameBody
import Idealize.ShloMosaic.Lib.Pipeline.Value
import Idealize.ShloMosaic.Lib.Tactic

/-!
# The body at a middle grid point

Neither branch is taken: the body loads its three input blocks and both accumulators, adds the chunk's masked
products, and stores both accumulators back. The result block is not touched.
-/

set_option maxRecDepth 16384

noncomputable section

namespace Cert.Kernel.RunB

open Cert.Kernel Cert.Kernel.Gen Cert.Kernel.Acc
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ (UR sig nD τ) ℕ

/-- The zero offsets of a whole-buffer access, however spelt. -/
theorem hz : (![0, 0] : Fin 2 → Nat) = fun _ => 0 := funext fun a => by fin_cases a <;> rfl

set_option maxHeartbeats 4000000 in
/-- At a point that neither resets nor finishes, on whole memrefs holding `x0 x1 x2 o a s`: the body runs, and leaves
    the accumulators at one step from `a` and `s`, everything else as it was. -/
theorem run (c : Dev nD) (i : grid0.Coords)
    (arg1 : Memref sig .tc .vmem S2048x256 .f32) (harg1 : arg1.IsWhole) (arg2 : Memref sig .tc .vmem S2048x256 .f32) (harg2 : arg2.IsWhole)
    (arg3 : Memref sig .tc .vmem S500x2048 .f32) (harg3 : arg3.IsWhole) (arg4 : Memref sig .tc .vmem S1x1 .f32) (harg4 : arg4.IsWhole)
    (arg5 : Memref sig .tc .vmem S500x256 .f32) (harg5 : arg5.IsWhole) (arg6 : Memref sig .tc .vmem S500x8 .f32) (harg6 : arg6.IsWhole)
    (hc1 : ¬cond1 i) (hc2 : ¬cond2 i)
    (x0 x1 : Vec F S2048x256 .f32) (x2 : Vec F S500x2048 .f32) (o : Vec F S1x1 .f32) (a : Vec F S500x256 .f32) (s : Vec F S500x8 .f32)
    (E : Set ℕ) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare o ∗ owns (c : Thread nD τ) arg5 fullShare a ∗ owns (c : Thread nD τ) arg6 fullShare s
        ∗ (iprop(owns (c : Thread nD τ) arg1 fullShare x0 ∗ owns (c : Thread nD τ) arg2 fullShare x1 ∗ owns (c : Thread nD τ) arg3 fullShare x2
            ∗ owns (c : Thread nD τ) arg4 fullShare o ∗ owns (c : Thread nD τ) arg5 fullShare (k0_pay5 i x1 x0 x2 a)
            ∗ owns (c : Thread nD τ) arg6 fullShare (k0_pay6 i x2 s)) -∗ K ⟨⟩))
      ⊢ wp frame (wpE (defs₀ (F := F)) Variants.none c none) E
          (cc0__pcl_body i arg1 harg1 arg2 harg2 arg3 harg3 arg4 harg4 arg5 harg5 arg6 harg6) K := by
  simp only [cc0__pcl_body_eq_skeleton]; unfold cc0__pcl_body_skel
  simp only [k0_part1_eq_skeleton]; unfold k0_part1_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, Hk⟩
  obtain rfl := harg1.eq_unread hf1; obtain rfl := harg2.eq_unread hf2; obtain rfl := harg3.eq_unread hf3
  obtain rfl := harg4.eq_unread hf4; obtain rfl := harg5.eq_unread hf5; obtain rfl := harg6.eq_unread hf6
  sl_exec (disch := first | exact hc1 | exact hc2)
  sl_step
  sl_unfold_run_names
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr
    swap; · iexact H5
    ipureintro
    rw [View.read_writes_eq_canon _ _ _ (fun y => ⟨_, List.mem_singleton_self _, View.mem_set_unit_zero hz Facts₀.inb_S500x256_S500x256_0_0 y⟩),
      View.canon_unit_zero hz]
    simp only [View.readAt_eq_ld, harg1.read_unread, harg2.read_unread, harg3.read_unread, harg5.read_unread, harg6.read_unread,
      View.ld_unit_zero (S := S2048x256) hz, View.ld_unit_zero (S := S500x2048) hz, View.ld_unit_zero (S := S500x256) hz,
      View.ld_unit_zero (S := S500x8) hz]
  · iexists _; isplitr
    swap; · iexact H6
    ipureintro
    rw [View.read_writes_eq_canon _ _ _ (fun y => ⟨_, List.mem_singleton_self _, View.mem_set_unit_zero hz Facts₀.inb_S500x8_S500x8_0_0 y⟩),
      View.canon_unit_zero hz]
    simp only [View.readAt_eq_ld, harg1.read_unread, harg2.read_unread, harg3.read_unread, harg5.read_unread, harg6.read_unread,
      View.ld_unit_zero (S := S2048x256) hz, View.ld_unit_zero (S := S500x2048) hz, View.ld_unit_zero (S := S500x256) hz,
      View.ld_unit_zero (S := S500x8) hz]

end Cert.Kernel.RunB

end
-- ==== Proof.Kernel.RunC.lean ====
import proofs.«142297_g66838281060554_cont_sun_c4_581_18_alg».proof.Proof.Kernel.Acc
import Idealize.ShloMosaic.Lib.Pipeline.FrameBody
import Idealize.ShloMosaic.Lib.Pipeline.Value
import Idealize.ShloMosaic.Lib.Tactic

/-!
# The body at the last grid point

The finishing branch is taken: after the step the body loads the first column of the count accumulator and the whole
difference accumulator back, computes the loss from them, and stores it into the (1, 1) result block.
-/

set_option maxRecDepth 16384

noncomputable section

namespace Cert.Kernel.RunC

open Cert.Kernel Cert.Kernel.Gen Cert.Kernel.Acc
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ (UR sig nD τ) ℕ

/-- The zero offsets of a whole-buffer access, however spelt. -/
theorem hz : (![0, 0] : Fin 2 → Nat) = fun _ => 0 := funext fun a => by fin_cases a <;> rfl

set_option maxHeartbeats 4000000 in
/-- At the point that finishes, on whole memrefs holding `x0 x1 x2 o a s`: the body runs, and leaves the accumulators
    at one step from `a` and `s` and the result block at the loss computed from them. -/
theorem run (c : Dev nD) (i : grid0.Coords)
    (arg1 : Memref sig .tc .vmem S2048x256 .f32) (harg1 : arg1.IsWhole) (arg2 : Memref sig .tc .vmem S2048x256 .f32) (harg2 : arg2.IsWhole)
    (arg3 : Memref sig .tc .vmem S500x2048 .f32) (harg3 : arg3.IsWhole) (arg4 : Memref sig .tc .vmem S1x1 .f32) (harg4 : arg4.IsWhole)
    (arg5 : Memref sig .tc .vmem S500x256 .f32) (harg5 : arg5.IsWhole) (arg6 : Memref sig .tc .vmem S500x8 .f32) (harg6 : arg6.IsWhole)
    (hc1 : ¬cond1 i) (hc2 : cond2 i)
    (x0 x1 : Vec F S2048x256 .f32) (x2 : Vec F S500x2048 .f32) (o : Vec F S1x1 .f32) (a : Vec F S500x256 .f32) (s : Vec F S500x8 .f32)
    (E : Set ℕ) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare o ∗ owns (c : Thread nD τ) arg5 fullShare a ∗ owns (c : Thread nD τ) arg6 fullShare s
        ∗ (iprop(owns (c : Thread nD τ) arg1 fullShare x0 ∗ owns (c : Thread nD τ) arg2 fullShare x1 ∗ owns (c : Thread nD τ) arg3 fullShare x2
            ∗ owns (c : Thread nD τ) arg4 fullShare (k0_pay1 (col0 (k0_pay6 i x2 s)) (k0_pay5 i x1 x0 x2 a)) ∗ owns (c : Thread nD τ) arg5 fullShare (k0_pay5 i x1 x0 x2 a)
            ∗ owns (c : Thread nD τ) arg6 fullShare (k0_pay6 i x2 s)) -∗ K ⟨⟩))
      ⊢ wp frame (wpE (defs₀ (F := F)) Variants.none c none) E
          (cc0__pcl_body i arg1 harg1 arg2 harg2 arg3 harg3 arg4 harg4 arg5 harg5 arg6 harg6) K := by
  simp only [cc0__pcl_body_eq_skeleton]; unfold cc0__pcl_body_skel
  simp only [k0_part1_eq_skeleton]; unfold k0_part1_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, Hk⟩
  obtain rfl := harg1.eq_unread hf1; obtain rfl := harg2.eq_unread hf2; obtain rfl := harg3.eq_unread hf3
  obtain rfl := harg4.eq_unread hf4; obtain rfl := harg5.eq_unread hf5; obtain rfl := harg6.eq_unread hf6
  sl_exec (disch := first | exact hc1 | exact hc2)
  sl_step
  sl_unfold_run_names
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr
    swap; · iexact H4
    ipureintro
    rw [View.read_writes_eq_canon _ _ _ (fun y => ⟨_, List.mem_singleton_self _, View.mem_set_unit_zero hz Facts₀.inb_S1x1_S1x1_0_0 y⟩),
      View.canon_unit_zero hz]
    simp only [View.readCov_unit_zero (S := S500x256) _ hz]
    rw [View.readCov_eq_canon_ld _ _ _ (fun y => ⟨_, List.mem_singleton_self _, View.mem_set_unit_zero hz Facts₀.inb_S500x8_S500x8_0_0 y⟩),
      View.canon_unit_zero hz]
    simp only [View.readAt_eq_ld, harg1.read_unread, harg2.read_unread, harg3.read_unread, harg5.read_unread, harg6.read_unread,
      View.ld_unit_zero (S := S2048x256) hz, View.ld_unit_zero (S := S500x2048) hz, View.ld_unit_zero (S := S500x256) hz,
      View.ld_unit_zero (S := S500x8) hz]
    rfl
  isplitl [H5]
  · iexists _; isplitr
    swap; · iexact H5
    ipureintro
    rw [View.read_writes_eq_canon _ _ _ (fun y => ⟨_, List.mem_singleton_self _, View.mem_set_unit_zero hz Facts₀.inb_S500x256_S500x256_0_0 y⟩),
      View.canon_unit_zero hz]
    simp only [View.readAt_eq_ld, harg1.read_unread, harg2.read_unread, harg3.read_unread, harg5.read_unread, harg6.read_unread,
      View.ld_unit_zero (S := S2048x256) hz, View.ld_unit_zero (S := S500x2048) hz, View.ld_unit_zero (S := S500x256) hz,
      View.ld_unit_zero (S := S500x8) hz]
  · iexists _; isplitr
    swap; · iexact H6
    ipureintro
    rw [View.read_writes_eq_canon _ _ _ (fun y => ⟨_, List.mem_singleton_self _, View.mem_set_unit_zero hz Facts₀.inb_S500x8_S500x8_0_0 y⟩),
      View.canon_unit_zero hz]
    simp only [View.readAt_eq_ld, harg1.read_unread, harg2.read_unread, harg3.read_unread, harg5.read_unread, harg6.read_unread,
      View.ld_unit_zero (S := S2048x256) hz, View.ld_unit_zero (S := S500x2048) hz, View.ld_unit_zero (S := S500x256) hz,
      View.ld_unit_zero (S := S500x8) hz]

end Cert.Kernel.RunC

end
-- ==== Proof.Kernel.Body.lean ====
import proofs.«142297_g66838281060554_cont_sun_c4_581_18_alg».proof.Proof.Kernel.Acc
import proofs.«142297_g66838281060554_cont_sun_c4_581_18_alg».proof.Proof.Kernel.Masks
import proofs.«142297_g66838281060554_cont_sun_c4_581_18_alg».proof.Proof.Kernel.RunA
import proofs.«142297_g66838281060554_cont_sun_c4_581_18_alg».proof.Proof.Kernel.RunB
import proofs.«142297_g66838281060554_cont_sun_c4_581_18_alg».proof.Proof.Kernel.RunC
import Idealize.ShloMosaic.Lib.Pipeline.FrameBody
import Idealize.ShloMosaic.Lib.Pipeline.FrameSuffix
import Idealize.ShloMosaic.Lib.Tactic

/-!
# The kernel runs: the pipeline's proof data and the body's obligation

The pipeline fetches, at each of the ten grid points, one block of each of the three input windows; the last block of
each overhangs its array, and what the staging buffer holds past the array's end is not named. The body is handed the
two accumulators at what the point before left (at anything, at the first point), leaves them one step further, and at
the last point stores the one number of the result block, which the pipeline then writes back.

The proof data: after the body an input's staging buffer holds its block (zero past the array's end: only the part inside
the array is stated), the result's holds the loss block; the invariant between points is the two accumulators at
`Acc.scAt`. The obligation at a point is the body's run in the case the point is in (first, middle, last), the steps
made independent of what lies past the arrays' end by the masks.
-/

set_option maxRecDepth 16384

noncomputable section

namespace Cert.Kernel.Body

open Cert.Kernel Cert.Kernel.Gen Cert.Kernel.Acc
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The accumulators as memrefs, and the invariant between points -/

/-- The difference accumulator and the count accumulator: whole scratch buffers of the kernel's own. -/
abbrev scA : Memref sig .tc .vmem S500x256 .f32 := Memref.whole cc0_scratch0
abbrev scC : Memref sig .tc .vmem S500x8 .f32 := Memref.whole cc0_scratch1

/-- What the region hands the body before the first point: both accumulators at some contents, and the generator
    register at some state. -/
theorem PhiA0_eq (c : Dev nD) :
    (Pipeline.ΦA spec0 c : sProp 𝕄)
      = iprop(iprop((∃ d, owns (c : Thread nD τ) scA fullShare d) ∗ (∃ d, owns (c : Thread nD τ) scC fullShare d)) ∗ (∃ r, prngReg c r)) := by
  unfold Pipeline.ΦA; rw [scopedRest0_eq]; simp only [scA, scC, owns_whole]; try rfl

/-- The invariant before position `n`: before the first point the region's own; afterwards both accumulators at what the
    point before left. -/
def PhiS (c : Dev nD) : (n : ℕ) → n ≤ cfg0.N → sProp 𝕄
  | 0, _ => Pipeline.ΦA spec0 c
  | n + 1, hn => iprop(iprop(owns (c : Thread nD τ) scA fullShare ((scAt m c n hn).1) ∗ owns (c : Thread nD τ) scC fullShare ((scAt m c n hn).2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scA fullShare ((scAt m c n hn).1) ∗ owns (c : Thread nD τ) scC fullShare ((scAt m c n hn).2)) ∗ (∃ r, prngReg c r)) := rfl

theorem PhiS_pos (c : Dev nD) (n : ℕ) (h : n ≤ cfg0.N) (hz : n ≠ 0) :
    PhiS m c n h = iprop(iprop(owns (c : Thread nD τ) scA fullShare ((scAt m c (n - 1) (by omega)).1) ∗ owns (c : Thread nD τ) scC fullShare ((scAt m c (n - 1) (by omega)).2)) ∗ (∃ r, prngReg c r)) := by
  cases n with
  | zero => exact absurd rfl hz
  | succ n => rfl

/-! ## The proof data -/

/-- The proof data of the one pipeline on core `c`: the arrays as the region finds them; after the body each input's
    buffer at its block with zero past the array's end, the result's at the loss block; between points the accumulators at
    `scAt`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => stg0 m c t (pad S2048x256)
    | ⟨1, _⟩ => stg1 m c t (pad S2048x256)
    | ⟨2, _⟩ => stg2 m c t (pad S500x2048)
    | ⟨3, _⟩ => outBlk m c
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = stg0 m c t (pad S2048x256) := by dsimp only [dats]
theorem after0_1 (c : Dev nD) (t : Fin cfg0.N) : (dats m 0 c).after 1 t = stg1 m c t (pad S2048x256) := by dsimp only [dats]
theorem after0_2 (c : Dev nD) (t : Fin cfg0.N) : (dats m 0 c).after 2 t = stg2 m c t (pad S500x2048) := by dsimp only [dats]
theorem after0_3 (c : Dev nD) (t : Fin cfg0.N) : (dats m 0 c).after 3 t = outBlk m c := by dsimp only [dats]

/-- An input window is fetched at every point: its buffer holds the block, and `d` past the array's end. -/
theorem before0_0 (c : Dev nD) (t : Fin cfg0.N) (d) : (dats m 0 c).before 0 t d = stg0 m c t d := by
  unfold Dat.before; rw [if_pos (fetch0_0 t)]; rfl
theorem before0_1 (c : Dev nD) (t : Fin cfg0.N) (d) : (dats m 0 c).before 1 t d = stg1 m c t d := by
  unfold Dat.before; rw [if_pos (fetch0_1 t)]; rfl
theorem before0_2 (c : Dev nD) (t : Fin cfg0.N) (d) : (dats m 0 c).before 2 t d = stg2 m c t d := by
  unfold Dat.before; rw [if_pos (fetch0_2 t)]; rfl

/-! ## Where the result's window is idle -/

theorem idle0_3 : ∀ t : Fin cfg0.N, t.val ≠ 9 → cfg0.idle 3 (grid0.coords t) = true := by decide +kernel
theorem live0_3 : ∀ t : Fin cfg0.N, t.val = 9 → cfg0.idle 3 (grid0.coords t) = false := by decide +kernel
theorem noFlush0_3 : ∀ t : Fin cfg0.N, t.val ≠ 9 → (cfg0.win 3).flush t = false := by decide +kernel

/-! ## The steps do not depend on what lies past the arrays' end -/

theorem step_eq (c : Dev nD) (t : Fin cfg0.N) (d0 d1 : S2048x256.Idx → Elt F .f32) (d2 : S500x2048.Idx → Elt F .f32)
    (a : Vec F S500x256 .f32) (s : Vec F S500x8 .f32) :
    (k0_pay5 (grid0.coords t) (stg1 m c t d1) (stg0 m c t d0) (stg2 m c t d2) a, k0_pay6 (grid0.coords t) (stg2 m c t d2) s)
      = step m c t a s := by
  unfold step stg0 stg1 stg2
  rw [Masks.pay5_fill t d0 (pad S2048x256) d1 (pad S2048x256) d2 (pad S500x2048), Masks.pay6_fill t d2 (pad S500x2048)]

theorem scAt_first (c : Dev nD) (t : Fin cfg0.N) (h0 : t.val = 0) :
    scAt m c t.val t.isLt = step m c t (k0_pay2 (F := F)) (k0_pay3 (F := F)) := by
  obtain ⟨n, hn⟩ := t
  cases n with
  | zero => rfl
  | succ n => exact absurd h0 (Nat.succ_ne_zero n)

theorem scAt_next (c : Dev nD) (t : Fin cfg0.N) (h0 : t.val ≠ 0) :
    scAt m c t.val t.isLt = step m c t (scAt m c (t.val - 1) (by omega)).1 (scAt m c (t.val - 1) (by omega)).2 := by
  obtain ⟨n, hn⟩ := t
  cases n with
  | zero => exact absurd rfl h0
  | succ n => rfl

/-- The loss block, stated at the last point's own position. -/
theorem outBlk_at (c : Dev nD) (t : Fin cfg0.N) (h9 : t.val = 9) :
    outBlk m c = k0_pay1 (col0 (scAt m c t.val t.isLt).2) (scAt m c t.val t.isLt).1 := by
  obtain ⟨n, hn⟩ := t
  simp only at h9
  subst h9
  rfl

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ (dats m 0 c).leaves 0 t
    ∗ (dats m 0 c).leaves 1 t
    ∗ (dats m 0 c).leaves 2 t
    ∗ (dats m 0 c).leaves 3 t)

/-- An input window's post: its buffer at the block on the part inside the array, anything past it. -/
theorem leaves0_0 (c : Dev nD) (t : Fin cfg0.N) :
    (dats m 0 c).leaves 0 t = iprop(∃ d, owns (c : Thread nD τ) (st0_0 t) fullShare (stg0 m c t d)) := by
  show iprop(∃ d, owns (c : Thread nD τ) (st0_0 t) fullShare (win0_0.fill (grid0.coords t) d (win0_0.cut (grid0.coords t) ((dats m 0 c).after 0 t)))) = _
  rw [after0_0]; unfold stg0; simp only [Window.cut_fill]; rfl
theorem leaves0_1 (c : Dev nD) (t : Fin cfg0.N) :
    (dats m 0 c).leaves 1 t = iprop(∃ d, owns (c : Thread nD τ) (st0_1 t) fullShare (stg1 m c t d)) := by
  show iprop(∃ d, owns (c : Thread nD τ) (st0_1 t) fullShare (win0_1.fill (grid0.coords t) d (win0_1.cut (grid0.coords t) ((dats m 0 c).after 1 t)))) = _
  rw [after0_1]; unfold stg1; simp only [Window.cut_fill]; rfl
theorem leaves0_2 (c : Dev nD) (t : Fin cfg0.N) :
    (dats m 0 c).leaves 2 t = iprop(∃ d, owns (c : Thread nD τ) (st0_2 t) fullShare (stg2 m c t d)) := by
  show iprop(∃ d, owns (c : Thread nD τ) (st0_2 t) fullShare (win0_2.fill (grid0.coords t) d (win0_2.cut (grid0.coords t) ((dats m 0 c).after 2 t)))) = _
  rw [after0_2]; unfold stg2; simp only [Window.cut_fill]; rfl

/-- The result window's post at a point that does not finish: its buffer as it was found. -/
theorem leaves0_3_idle (c : Dev nD) (t : Fin cfg0.N) (h : t.val ≠ 9) :
    (dats m 0 c).leaves 3 t = iprop(∃ d, owns (c : Thread nD τ) (st0_3 t) fullShare ((dats m 0 c).before 3 t d)) :=
  Dat.leaves_idle (dats m 0 c) 3 t (idle0_3 t h) (noFlush0_3 t h)

/-- At the point that finishes: its buffer at the loss block. -/
theorem leaves0_3_last (c : Dev nD) (t : Fin cfg0.N) (h : t.val = 9) :
    (dats m 0 c).leaves 3 t = owns (c : Thread nD τ) (st0_3 t) fullShare (outBlk m c) := by
  unfold Dat.leaves; rw [live0_3 t h, after0_3]

set_option maxHeartbeats 4000000 in
/-- The body at any point, by the case the point is in. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [leaves0_0, leaves0_1, leaves0_2]
  rw [show (dats m 0 c).owesAt () t.succ = (dats m 0 c).owesAt () t.castSucc from rfl]
  rw [show (dats m 0 c).Φ t.succ = PhiS m c (t.val + 1) t.isLt from rfl, PhiS_succ]
  have hN : t.val < 10 := lt_of_lt_of_eq t.isLt (show cfg0.N = 10 from N_0)
  by_cases h0 : t.val = 0
  · have hc1 : cond1 (grid0.coords t) := (hcond1 t).mpr h0
    have hc2 : ¬cond2 (grid0.coords t) := fun h => by have := (hcond2 t).mp h; omega
    rw [leaves0_3_idle m c t (by omega), PhiS_castSucc m c t, PhiS_zero m c _ _ h0, PhiA0_eq, scAt_first m c t h0]
    iintro ⟨⟨⟨⟨%a, HA⟩, ⟨%s, HS⟩⟩, Hg⟩, Ho, ⟨%d0, H0⟩, ⟨%d1, H1⟩, ⟨%d2, H2⟩, ⟨%d3, H3⟩⟩
    iapply (RunA.run c (grid0.coords t) _ _ _ _ _ _ _ _ _ _ _ _ hc1 hc2 (stg0 m c t d0) (stg1 m c t d1) (stg2 m c t d2) _ a s Set.univ _)
    isplitl [H0]; · iexact H0
    isplitl [H1]; · iexact H1
    isplitl [H2]; · iexact H2
    isplitl [H3]; · iexact H3
    isplitl [HA]; · iexact HA
    isplitl [HS]; · iexact HS
    iintro ⟨H0, H1, H2, H3, HA, HS⟩
    rw [← step_eq m c t d0 d1 d2]
    isplitl [HA HS Hg]
    · isplitl [HA HS]
      · isplitl [HA]; · iexact HA
        iexact HS
      iexact Hg
    isplitl [Ho]; · iexact Ho
    isplitl [H0]; · iexists d0; iexact H0
    isplitl [H1]; · iexists d1; iexact H1
    isplitl [H2]; · iexists d2; iexact H2
    iexists d3; iexact H3
  · by_cases h9 : t.val = 9
    · have hc1 : ¬cond1 (grid0.coords t) := fun h => h0 ((hcond1 t).mp h)
      have hc2 : cond2 (grid0.coords t) := (hcond2 t).mpr h9
      rw [leaves0_3_last m c t h9, outBlk_at m c t h9, PhiS_castSucc m c t, PhiS_pos m c _ _ h0, scAt_next m c t h0]
      iintro ⟨⟨⟨HA, HS⟩, Hg⟩, Ho, ⟨%d0, H0⟩, ⟨%d1, H1⟩, ⟨%d2, H2⟩, ⟨%d3, H3⟩⟩
      iapply (RunC.run c (grid0.coords t) _ _ _ _ _ _ _ _ _ _ _ _ hc1 hc2 (stg0 m c t d0) (stg1 m c t d1) (stg2 m c t d2) _ _ _ Set.univ _)
      isplitl [H0]; · iexact H0
      isplitl [H1]; · iexact H1
      isplitl [H2]; · iexact H2
      isplitl [H3]; · iexact H3
      isplitl [HA]; · iexact HA
      isplitl [HS]; · iexact HS
      iintro ⟨H0, H1, H2, H3, HA, HS⟩
      rw [← step_eq m c t d0 d1 d2]
      isplitl [HA HS Hg]
      · isplitl [HA HS]
        · isplitl [HA]; · iexact HA
          iexact HS
        iexact Hg
      isplitl [Ho]; · iexact Ho
      isplitl [H0]; · iexists d0; iexact H0
      isplitl [H1]; · iexists d1; iexact H1
      isplitl [H2]; · iexists d2; iexact H2
      iexact H3
    · have hc1 : ¬cond1 (grid0.coords t) := fun h => h0 ((hcond1 t).mp h)
      have hc2 : ¬cond2 (grid0.coords t) := fun h => h9 ((hcond2 t).mp h)
      rw [leaves0_3_idle m c t h9, PhiS_castSucc m c t, PhiS_pos m c _ _ h0, scAt_next m c t h0]
      iintro ⟨⟨⟨HA, HS⟩, Hg⟩, Ho, ⟨%d0, H0⟩, ⟨%d1, H1⟩, ⟨%d2, H2⟩, ⟨%d3, H3⟩⟩
      iapply (RunB.run c (grid0.coords t) _ _ _ _ _ _ _ _ _ _ _ _ hc1 hc2 (stg0 m c t d0) (stg1 m c t d1) (stg2 m c t d2) _ _ _ Set.univ _)
      isplitl [H0]; · iexact H0
      isplitl [H1]; · iexact H1
      isplitl [H2]; · iexact H2
      isplitl [H3]; · iexact H3
      isplitl [HA]; · iexact HA
      isplitl [HS]; · iexact HS
      iintro ⟨H0, H1, H2, H3, HA, HS⟩
      rw [← step_eq m c t d0 d1 d2]
      isplitl [HA HS Hg]
      · isplitl [HA HS]
        · isplitl [HA]; · iexact HA
          iexact HS
        iexact Hg
      isplitl [Ho]; · iexact Ho
      isplitl [H0]; · iexists d0; iexact H0
      isplitl [H1]; · iexists d1; iexact H1
      isplitl [H2]; · iexists d2; iexact H2
      iexists d3; iexact H3

/-- The library's body obligation, at every point. -/
theorem body_obligation (c : Dev nD) : BodyObligationLoose (dats (F := F) m 0 c) (defs₀ (F := F)) Variants.none () Set.univ := fun t => by
  rw [bigSep_W0, bigSep_W0]
  exact sound_body m c t

/-! ## In and out of the region -/

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem hout (c : Dev nD) : (dats m 0 c).Φ (Fin.last cfg0.N) ⊢ Pipeline.ΦA spec0 c := by
  rw [show (dats m 0 c).Φ (Fin.last cfg0.N) = PhiS m c (Fin.last cfg0.N).val (Nat.le_of_lt_succ (Fin.last cfg0.N).isLt) from rfl,
    PhiS_pos m c _ _ (by rw [Fin.val_last]; have : cfg0.N = 10 := N_0; omega), PhiA0_eq]
  iintro ⟨⟨HA, HS⟩, Hg⟩
  isplitl [HA HS]
  · isplitl [HA]
    · iexists _; iexact HA
    iexists _; iexact HS
  iexact Hg

/-! ## The run and the frame -/

set_option backward.isDefEq.respectTransparency.types false in
/-- Every weakly fair execution of @main terminates, and every final state has every array of the pipeline at what the
    library computes from the proof data and every other unscoped buffer as the lines after the region leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => body_obligation m c) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- The frame: the program runs to the end, faults nowhere, and leaves its three inputs unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

end Cert.Kernel.Body

end
-- ==== Proof.KernelIdeal.Acc.lean ====
import proofs.«142297_g66838281060554_cont_sun_c4_581_18_alg».proof.Proof.Gen.KernelIdeal.Frame
import proofs.«142297_g66838281060554_cont_sun_c4_581_18_alg».proof.Proof.Gen.KernelIdeal.Skeleton

/-!
# What the two accumulators hold after each grid point

The kernel walks the 20000 genes in ten chunks of 2048 (the last one holds 1568 genes; the rest of its staging
buffers is past the arrays' end). It keeps two accumulators between grid points: `acc` (pathway × sample) and
`cnt` (pathway × 8 equal columns). Point 0 starts both from zero; every point adds its chunk's masked product;
the last point turns them into the one number it stores.

Here the contents of the two accumulators after point `n` are defined by recursion on `n`, from the three input
blocks of the points up to `n`, each block taken with ZERO past the array's end. (The body masks everything past
the array's end before using it, so what a staging buffer really holds there does not matter.)
-/

noncomputable section

namespace Cert.KernelIdeal.Acc

open Cert.KernelIdeal Cert.KernelIdeal.Gen
open Idealize.ShloMosaic Idealize.ShloMosaic.TcCoe Idealize.SL.Sem

variable {F : FTy → Type} [FloatOps F]
variable (m : (ℓ : Loc nD τ sig) → Buf (Elt F) ℓ)

/-! ## The body's two branches

The body resets the accumulators when the grid coordinate is 0 and finishes when it is 9. -/

/-- The reset branch's condition, as the body computes it from the grid coordinate. -/
abbrev cond1 (i : grid0.Coords) : Prop :=
  (Scalar.cmpi .ne (Scalar.extui (Scalar.cmpi .eq (BitVec.ofNat 32 (i 0).val) 0#32)) 0#32) = 1#1
/-- The finishing branch's. -/
abbrev cond2 (i : grid0.Coords) : Prop := k0_cond2 i = 1#1

/-- The reset branch is taken at point 0 only (decided over the ten points). -/
theorem hcond1 : ∀ t : Fin cfg0.N, cond1 (grid0.coords t) ↔ t.val = 0 :=
  (by decide +kernel : ∀ t : Fin grid0.N, cond1 (grid0.coords t) ↔ t.val = 0)
/-- The finishing branch at point 9 only. -/
theorem hcond2 : ∀ t : Fin cfg0.N, cond2 (grid0.coords t) ↔ t.val = 9 :=
  (by decide +kernel : ∀ t : Fin grid0.N, cond2 (grid0.coords t) ↔ t.val = 9)

/-! ## The accumulators -/

/-- The zero word everywhere: the filler past an array's end. -/
def pad (S : Shape) : S.Idx → Elt F .f32 := fun _ => Scalar.ofBits .f32 0x00000000#32

/-- The expression window's staging buffer at point `t`: its block of the (gene, sample) array on the rows inside
    the array, `d` on the rows past its end. -/
def stg0 (c : Dev nD) (t : Fin cfg0.N) (d : S2048x256.Idx → Elt F .f32) : Vec F S2048x256 .f32 :=
  win0_0.fill (grid0.coords t) d (iblk m c 0 t)
/-- The predicted window's likewise. -/
def stg1 (c : Dev nD) (t : Fin cfg0.N) (d : S2048x256.Idx → Elt F .f32) : Vec F S2048x256 .f32 :=
  win0_1.fill (grid0.coords t) d (iblk m c 1 t)
/-- The membership window's: its block of the (pathway, gene) array on the columns inside the array. -/
def stg2 (c : Dev nD) (t : Fin cfg0.N) (d : S500x2048.Idx → Elt F .f32) : Vec F S500x2048 .f32 :=
  win0_2.fill (grid0.coords t) d (iblk m c 2 t)

/-- What one point adds: the new `acc` and the new `cnt` from the old ones and the point's three blocks. -/
def step (c : Dev nD) (t : Fin cfg0.N) (a : Vec F S500x256 .f32) (s : Vec F S500x8 .f32) : Vec F S500x256 .f32 × Vec F S500x8 .f32 :=
  (k0_pay5 (grid0.coords t) (stg1 m c t (pad S2048x256)) (stg0 m c t (pad S2048x256)) (stg2 m c t (pad S500x2048)) a,
   k0_pay6 (grid0.coords t) (stg2 m c t (pad S500x2048)) s)

/-- THE ACCUMULATION: `acc` and `cnt` after the body at point `n`. Point 0 steps from the zero fills, every later point
    from what the point before left. -/
def scAt (c : Dev nD) : (n : ℕ) → n < cfg0.N → Vec F S500x256 .f32 × Vec F S500x8 .f32
  | 0, hn => step m c ⟨0, hn⟩ (k0_pay2 (F := F)) (k0_pay3 (F := F))
  | n + 1, hn => step m c ⟨n + 1, hn⟩ (scAt c n (Nat.lt_of_succ_lt hn)).1 (scAt c n (Nat.lt_of_succ_lt hn)).2

theorem scAt_zero (c : Dev nD) (hn : 0 < cfg0.N) :
    scAt m c 0 hn = step m c ⟨0, hn⟩ (k0_pay2 (F := F)) (k0_pay3 (F := F)) := rfl

theorem scAt_succ (c : Dev nD) (n : ℕ) (hn : n + 1 < cfg0.N) :
    scAt m c (n + 1) hn = step m c ⟨n + 1, hn⟩ (scAt m c n (Nat.lt_of_succ_lt hn)).1 (scAt m c n (Nat.lt_of_succ_lt hn)).2 := rfl

/-- The first column of `cnt`, as the last point's load of it reads it. -/
def col0 (s : Vec F S500x8 .f32) : Vec F S500x1 .f32 :=
  View.ld s (Rect.unit (s := S500x8) ![0, 0] S500x1.size Facts₀.inb_S500x8_S500x1_0_0)

/-- The one number the last point stores, as a block of the (1, 1) result: from the accumulators after the last point. -/
def outBlk (c : Dev nD) : Vec F S1x1 .f32 :=
  k0_pay1 (col0 (scAt m c 9 (by decide)).2) (scAt m c 9 (by decide)).1

end Cert.KernelIdeal.Acc

end
-- ==== Proof.KernelIdeal.Masks.lean ====
import proofs.«142297_g66838281060554_cont_sun_c4_581_18_alg».proof.Proof.Gen.KernelIdeal.Frame
import proofs.«142297_g66838281060554_cont_sun_c4_581_18_alg».proof.Proof.Gen.KernelIdeal.Skeleton

/-!
# The body's masks cut exactly at the arrays' end

At grid point `t` the body compares a position `j` of its 2048-gene chunk with the word `20000 - 2048 t` (signed,
32 bits) and replaces by zero every entry of the two difference blocks and of the membership block whose position is
not below it. Over the ten grid points that word is between 1568 and 20000, so the comparison holds exactly when gene
`2048 t + j` exists: exactly on the part of each block that lies inside its array. Hence what a staging buffer holds
past the array's end never reaches the accumulators: the body's three payloads take the same value whatever fills
that part.
-/

noncomputable section

namespace Cert.KernelIdeal.Masks

open Cert.KernelIdeal Cert.KernelIdeal.Gen
open Idealize.ShloMosaic Idealize.ShloMosaic.TcCoe Idealize.SL.Sem

variable {F : FTy → Type} [FloatOps F]

/-- The word the body compares positions with at grid coordinates `i`: 20000 minus 2048 times the coordinate. -/
def limit (i : grid0.Coords) : BitVec 32 :=
  Scalar.subi 20000#32 (Scalar.muli (BitVec.ofNat 32 (i 0).val) 2048#32)

/-- Over the ten grid points the limit word, read as a signed integer, is `20000 - 2048 t`: between 1568 and 20000,
    so neither the product nor the difference wraps. -/
theorem limit_toInt : ∀ t : Fin grid0.N, (limit (grid0.coords t)).toInt = 20000 - 2048 * (t.val : Int) := by
  decide +kernel

/-- A truth value written as one bit is the bit 1 exactly when it is true. -/
theorem ofBool_eq_one (b : Bool) : BitVec.ofBool b = 1#1 ↔ b = true := by
  cases b <;> decide

/-- A position of the chunk is below the limit word exactly when its gene exists. -/
theorem mask_iff (t : Fin cfg0.N) (j : ℕ) (hj : j < 2048) :
    IntOp.cmpi .slt (BitVec.ofNat 32 j) (limit (grid0.coords t)) = 1#1 ↔ 2048 * t.val + j < 20000 := by
  have hL : (limit (grid0.coords t)).toInt = 20000 - 2048 * (t.val : Int) := limit_toInt t
  -- a position below 2048 is its own signed reading
  have hJ : (BitVec.ofNat 32 j).toInt = (j : Int) := by
    rw [BitVec.toInt_eq_toNat_cond, BitVec.toNat_ofNat]
    have : j % 2 ^ 32 = j := Nat.mod_eq_of_lt (by omega)
    rw [this]; split <;> omega
  -- the signed comparison is the comparison of the two signed readings: `j < 20000 - 2048 t`
  show BitVec.ofBool ((BitVec.ofNat 32 j).slt (limit (grid0.coords t))) = 1#1 ↔ _
  rw [ofBool_eq_one, BitVec.slt, decide_eq_true_iff, hL, hJ]
  omega

/-! ## What each fetch moves

A block of 2048 genes at block index `t` is cut at gene 20000: the fetch moves its first `min 2048 (20000 - 2048 t)`
positions on the gene axis and all of the other axis. -/

theorem xsize0 : ∀ t : Fin grid0.N,
    win0_0.xsize (grid0.coords t) 0 = min 2048 (20000 - 2048 * t.val) ∧ win0_0.xsize (grid0.coords t) 1 = 256 := by
  decide +kernel
theorem xsize1 : ∀ t : Fin grid0.N,
    win0_1.xsize (grid0.coords t) 0 = min 2048 (20000 - 2048 * t.val) ∧ win0_1.xsize (grid0.coords t) 1 = 256 := by
  decide +kernel
theorem xsize2 : ∀ t : Fin grid0.N,
    win0_2.xsize (grid0.coords t) 0 = 500 ∧ win0_2.xsize (grid0.coords t) 1 = min 2048 (20000 - 2048 * t.val) := by
  decide +kernel

/-- The expression window's fetch at point `t` moves exactly the rows whose gene exists. -/
theorem moved0_iff (t : Fin cfg0.N) (j : S2048x256.Idx) :
    win0_0.moved (grid0.coords t) j = true ↔ 2048 * t.val + (j 0).val < 20000 := by
  have h0 : (j 0).val < 2048 := (j 0).isLt
  have h1 : (j 1).val < 256 := (j 1).isLt
  obtain ⟨e0, e1⟩ := xsize0 t
  rw [win0_0.moved_iff]
  constructor
  · intro h; have := h 0; rw [e0] at this; omega
  · intro h
    exact Fin.forall_fin_two.2 ⟨Nat.lt_of_lt_of_eq (by omega : (j 0).val < min 2048 (20000 - 2048 * t.val)) e0.symm,
      Nat.lt_of_lt_of_eq h1 e1.symm⟩
/-- The predicted window's likewise. -/
theorem moved1_iff (t : Fin cfg0.N) (j : S2048x256.Idx) :
    win0_1.moved (grid0.coords t) j = true ↔ 2048 * t.val + (j 0).val < 20000 := by
  have h0 : (j 0).val < 2048 := (j 0).isLt
  have h1 : (j 1).val < 256 := (j 1).isLt
  obtain ⟨e0, e1⟩ := xsize1 t
  rw [win0_1.moved_iff]
  constructor
  · intro h; have := h 0; rw [e0] at this; omega
  · intro h
    exact Fin.forall_fin_two.2 ⟨Nat.lt_of_lt_of_eq (by omega : (j 0).val < min 2048 (20000 - 2048 * t.val)) e0.symm,
      Nat.lt_of_lt_of_eq h1 e1.symm⟩
/-- The membership window's fetch moves exactly the columns whose gene exists. -/
theorem moved2_iff (t : Fin cfg0.N) (j : S500x2048.Idx) :
    win0_2.moved (grid0.coords t) j = true ↔ 2048 * t.val + (j 1).val < 20000 := by
  have h0 : (j 0).val < 500 := (j 0).isLt
  have h1 : (j 1).val < 2048 := (j 1).isLt
  obtain ⟨e0, e1⟩ := xsize2 t
  rw [win0_2.moved_iff]
  constructor
  · intro h; have := h 1; rw [e1] at this; omega
  · intro h
    exact Fin.forall_fin_two.2 ⟨Nat.lt_of_lt_of_eq h0 e0.symm,
      Nat.lt_of_lt_of_eq (by omega : (j 1).val < min 2048 (20000 - 2048 * t.val)) e1.symm⟩

/-- Two fillings of a block with the same fetched part agree wherever the fetch moves. -/
theorem fill_congr_moved {G : Pipeline.Grid} (w : Pipeline.Window sig G) {α : Type} (i : G.Coords) (d d' : w.block.Idx → α)
    (g : (w.xblock i).Idx → α) (j : w.block.Idx) (h : w.moved i j = true) : w.fill i d g j = w.fill i d' g j := by
  unfold Pipeline.Window.fill
  rw [dif_pos h, dif_pos h]

/-! ## The masked membership block -/

/-- Entry `j` of the masked membership block: the block's entry where column `j 1` is below the limit word, zero elsewhere. -/
theorem pay4_apply (i : grid0.Coords) (w : Vec F S500x2048 .f32) (j : S500x2048.Idx) :
    k0_pay4 i w j = if IntOp.cmpi .slt (BitVec.ofNat 32 (j 1).val) (limit i) = 1#1 then w j else Scalar.ofBits .f32 0x00000000#32 := by
  unfold k0_pay4
  simp only [select, Scalar.select, cmpi, iota, broadcast, List.foldl, limit, Nat.zero_mul, Nat.zero_add]
  rfl

/-- Blocks that agree on the columns below the limit word have the same masked block. -/
theorem pay4_congr (i : grid0.Coords) (v v' : Vec F S500x2048 .f32)
    (h : ∀ j : S500x2048.Idx, IntOp.cmpi .slt (BitVec.ofNat 32 (j 1).val) (limit i) = 1#1 → v j = v' j) :
    k0_pay4 i v = k0_pay4 i v' := by
  funext j
  rw [pay4_apply, pay4_apply]
  split
  · next hm => exact h j hm
  · rfl

/-- The masked membership block does not depend on what fills the block past the array's end. -/
theorem pay4_fill (t : Fin cfg0.N) (d d' : S500x2048.Idx → Elt F .f32) (b : (win0_2.xblock (grid0.coords t)).Idx → Elt F .f32) :
    k0_pay4 (grid0.coords t) (win0_2.fill (grid0.coords t) d b) = k0_pay4 (grid0.coords t) (win0_2.fill (grid0.coords t) d' b) :=
  -- a column below the limit word is a gene that exists, hence a column the fetch moves: there both fillings are the fetched entry
  pay4_congr (grid0.coords t) _ _ fun j hm =>
    fill_congr_moved win0_2 (grid0.coords t) d d' b j ((moved2_iff t j).2 ((mask_iff t (j 1).val (j 1).isLt).1 hm))

/-- The count accumulator's update reads the membership block through its masked block only. -/
theorem pay6_congr (i : grid0.Coords) (v v' : Vec F S500x2048 .f32) (s : Vec F S500x8 .f32)
    (h : k0_pay4 i v = k0_pay4 i v') : k0_pay6 i v s = k0_pay6 i v' s := by
  unfold k0_pay6
  rw [h]

/-- The count accumulator's update does not depend on it either. -/
theorem pay6_fill (t : Fin cfg0.N) (d d' : S500x2048.Idx → Elt F .f32) (b : (win0_2.xblock (grid0.coords t)).Idx → Elt F .f32)
    (s : Vec F S500x8 .f32) :
    k0_pay6 (grid0.coords t) (win0_2.fill (grid0.coords t) d b) s = k0_pay6 (grid0.coords t) (win0_2.fill (grid0.coords t) d' b) s :=
  pay6_congr (grid0.coords t) _ _ s (pay4_fill t d d' b)

/-! ## The masked difference block -/

/-- The difference of two blocks of 2048 genes with every row not below the limit word replaced by zero. -/
def maskedDiff (i : grid0.Coords) (v9 v11 : Vec F S2048x256 .f32) : FVec F S2048x256 .f32 :=
  select (cmpi .slt (iota .tc S2048x256 32 [0] iota_S2048x256_d0_w32) (broadcast S2048x256 (limit i)))
    (subf (shapeCast S2048x256 v9 shapeCasts_S2048x256_S2048x256) (shapeCast S2048x256 v11 shapeCasts_S2048x256_S2048x256))
    (broadcast S2048x256 (Scalar.ofBits .f32 0x00000000#32))

/-- The difference accumulator's update is the accumulator plus the product of the masked membership block with the masked
    difference block: it reads its three blocks through those two only. -/
theorem pay5_eq (i : grid0.Coords) (v9 v11 : Vec F S2048x256 .f32) (v18 : Vec F S500x2048 .f32) (a : Vec F S500x256 .f32) :
    k0_pay5 i v9 v11 v18 a = shapeCast S500x256 (addf a (matmul dot_S500x2048_S2048x256_S500x256_1_0_0_1_n_n none (k0_pay4 i v18)
      (maskedDiff i v9 v11) (constant S500x256 .f32 0x00000000#32))) shapeCasts_S500x256_S500x256 := rfl

/-- Reshaping a vector to its own shape changes nothing. -/
theorem shapeCast_same {s : Shape} {α : Type} (v : s.Idx → α) (h : s.ShapeCasts s) : shapeCast s v h = v :=
  funext fun i => congrArg v (Shape.reshapeEquiv_self _ i)

/-- Entry `j` of the masked difference block: the difference of the two entries where row `j 0` is below the limit word,
    zero elsewhere. -/
theorem maskedDiff_apply (i : grid0.Coords) (v9 v11 : Vec F S2048x256 .f32) (j : S2048x256.Idx) :
    maskedDiff i v9 v11 j
      = if IntOp.cmpi .slt (BitVec.ofNat 32 (j 0).val) (limit i) = 1#1 then FloatOps.subf (v9 j) (v11 j) else Scalar.ofBits .f32 0x00000000#32 := by
  unfold maskedDiff
  rw [shapeCast_same, shapeCast_same]
  simp only [select, Scalar.select, cmpi, iota, broadcast, List.foldl, subf, Nat.zero_mul, Nat.zero_add]
  rfl

/-- Pairs of blocks that agree on the rows below the limit word have the same masked difference. -/
theorem maskedDiff_congr (i : grid0.Coords) (v9 v9' v11 v11' : Vec F S2048x256 .f32)
    (h : ∀ j : S2048x256.Idx, IntOp.cmpi .slt (BitVec.ofNat 32 (j 0).val) (limit i) = 1#1 → v9 j = v9' j ∧ v11 j = v11' j) :
    maskedDiff i v9 v11 = maskedDiff i v9' v11' := by
  funext j
  rw [maskedDiff_apply, maskedDiff_apply]
  split
  · next hm => rw [(h j hm).1, (h j hm).2]
  · rfl

/-- Equal masked membership blocks and equal masked differences give equal updates of the difference accumulator. -/
theorem pay5_congr (i : grid0.Coords) (v9 v9' v11 v11' : Vec F S2048x256 .f32) (v18 v18' : Vec F S500x2048 .f32) (a : Vec F S500x256 .f32)
    (h4 : k0_pay4 i v18 = k0_pay4 i v18') (hd : maskedDiff i v9 v11 = maskedDiff i v9' v11') :
    k0_pay5 i v9 v11 v18 a = k0_pay5 i v9' v11' v18' a := by
  rw [pay5_eq, pay5_eq, h4, hd]

/-- Nor does the difference accumulator's, in any of its three blocks. -/
theorem pay5_fill (t : Fin cfg0.N) (d0 d0' d1 d1' : S2048x256.Idx → Elt F .f32) (d2 d2' : S500x2048.Idx → Elt F .f32)
    (b0 : (win0_0.xblock (grid0.coords t)).Idx → Elt F .f32) (b1 : (win0_1.xblock (grid0.coords t)).Idx → Elt F .f32)
    (b2 : (win0_2.xblock (grid0.coords t)).Idx → Elt F .f32) (a : Vec F S500x256 .f32) :
    k0_pay5 (grid0.coords t) (win0_1.fill (grid0.coords t) d1 b1) (win0_0.fill (grid0.coords t) d0 b0) (win0_2.fill (grid0.coords t) d2 b2) a
      = k0_pay5 (grid0.coords t) (win0_1.fill (grid0.coords t) d1' b1) (win0_0.fill (grid0.coords t) d0' b0) (win0_2.fill (grid0.coords t) d2' b2) a :=
  -- a row below the limit word is a gene that exists, hence a row both fetches move: there each filling is the fetched entry
  pay5_congr (grid0.coords t) _ _ _ _ _ _ a (pay4_fill t d2 d2' b2)
    (maskedDiff_congr (grid0.coords t) _ _ _ _ fun j hm =>
      have hg : 2048 * t.val + (j 0).val < 20000 := (mask_iff t (j 0).val (j 0).isLt).1 hm
      ⟨fill_congr_moved win0_1 (grid0.coords t) d1 d1' b1 j ((moved1_iff t j).2 hg),
       fill_congr_moved win0_0 (grid0.coords t) d0 d0' b0 j ((moved0_iff t j).2 hg)⟩)

end Cert.KernelIdeal.Masks

end
-- ==== Proof.KernelIdeal.RunA.lean ====
import proofs.«142297_g66838281060554_cont_sun_c4_581_18_alg».proof.Proof.KernelIdeal.Acc
import Idealize.ShloMosaic.Lib.Pipeline.FrameBody
import Idealize.ShloMosaic.Lib.Pipeline.Value
import Idealize.ShloMosaic.Lib.Tactic

/-!
# The body at the first grid point

The reset branch is taken: both accumulators are first filled with zero, then the body goes on as at any point, so
what it stores is one step from the zero fills, whatever the accumulators held before.
-/

set_option maxRecDepth 16384

noncomputable section

namespace Cert.KernelIdeal.RunA

open Cert.KernelIdeal Cert.KernelIdeal.Gen Cert.KernelIdeal.Acc
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ (UR sig nD τ) ℕ

/-- The zero offsets of a whole-buffer access, however spelt. -/
theorem hz : (![0, 0] : Fin 2 → Nat) = fun _ => 0 := funext fun a => by fin_cases a <;> rfl

set_option maxHeartbeats 4000000 in
/-- At the point that resets, on whole memrefs holding `x0 x1 x2 o a s`: the body runs, and leaves the accumulators at
    one step from the zero fills; the result block as it was. -/
theorem run (c : Dev nD) (i : grid0.Coords)
    (arg1 : Memref sig .tc .vmem S2048x256 .f32) (harg1 : arg1.IsWhole) (arg2 : Memref sig .tc .vmem S2048x256 .f32) (harg2 : arg2.IsWhole)
    (arg3 : Memref sig .tc .vmem S500x2048 .f32) (harg3 : arg3.IsWhole) (arg4 : Memref sig .tc .vmem S1x1 .f32) (harg4 : arg4.IsWhole)
    (arg5 : Memref sig .tc .vmem S500x256 .f32) (harg5 : arg5.IsWhole) (arg6 : Memref sig .tc .vmem S500x8 .f32) (harg6 : arg6.IsWhole)
    (hc1 : cond1 i) (hc2 : ¬cond2 i)
    (x0 x1 : Vec F S2048x256 .f32) (x2 : Vec F S500x2048 .f32) (o : Vec F S1x1 .f32) (a : Vec F S500x256 .f32) (s : Vec F S500x8 .f32)
    (E : Set ℕ) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare o ∗ owns (c : Thread nD τ) arg5 fullShare a ∗ owns (c : Thread nD τ) arg6 fullShare s
        ∗ (iprop(owns (c : Thread nD τ) arg1 fullShare x0 ∗ owns (c : Thread nD τ) arg2 fullShare x1 ∗ owns (c : Thread nD τ) arg3 fullShare x2
            ∗ owns (c : Thread nD τ) arg4 fullShare o ∗ owns (c : Thread nD τ) arg5 fullShare (k0_pay5 i x1 x0 x2 (k0_pay2 (F := F)))
            ∗ owns (c : Thread nD τ) arg6 fullShare (k0_pay6 i x2 (k0_pay3 (F := F)))) -∗ K ⟨⟩))
      ⊢ wp frame (wpE (defs₀ (F := F)) Variants.none c none) E
          (cc0__pcl_body i arg1 harg1 arg2 harg2 arg3 harg3 arg4 harg4 arg5 harg5 arg6 harg6) K := by
  simp only [cc0__pcl_body_eq_skeleton]; unfold cc0__pcl_body_skel
  simp only [k0_part1_eq_skeleton]; unfold k0_part1_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, Hk⟩
  obtain rfl := harg1.eq_unread hf1; obtain rfl := harg2.eq_unread hf2; obtain rfl := harg3.eq_unread hf3
  obtain rfl := harg4.eq_unread hf4; obtain rfl := harg5.eq_unread hf5; obtain rfl := harg6.eq_unread hf6
  sl_exec (disch := first | exact hc1 | exact hc2)
  sl_step
  sl_unfold_run_names
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr
    swap; · iexact H5
    ipureintro
    rw [View.read_writes_eq_canon _ _ _ (fun y => ⟨_, List.mem_cons_self, View.mem_set_unit_zero hz Facts₀.inb_S500x256_S500x256_0_0 y⟩),
      View.canon_cons_unit_zero hz]
    simp only [View.readAt_eq_ld, harg1.read_unread, harg2.read_unread, harg3.read_unread, harg5.read_unread, harg6.read_unread,
      View.ld_unit_zero (S := S2048x256) hz, View.ld_unit_zero (S := S500x2048) hz, View.ld_unit_zero (S := S500x256) hz,
      View.ld_unit_zero (S := S500x8) hz,
      View.readCov_unit_zero (S := S500x256) _ hz, View.readCov_unit_zero (S := S500x8) _ hz]
  · iexists _; isplitr
    swap; · iexact H6
    ipureintro
    rw [View.read_writes_eq_canon _ _ _ (fun y => ⟨_, List.mem_cons_self, View.mem_set_unit_zero hz Facts₀.inb_S500x8_S500x8_0_0 y⟩),
      View.canon_cons_unit_zero hz]
    simp only [View.readAt_eq_ld, harg1.read_unread, harg2.read_unread, harg3.read_unread, harg5.read_unread, harg6.read_unread,
      View.ld_unit_zero (S := S2048x256) hz, View.ld_unit_zero (S := S500x2048) hz, View.ld_unit_zero (S := S500x256) hz,
      View.ld_unit_zero (S := S500x8) hz,
      View.readCov_unit_zero (S := S500x256) _ hz, View.readCov_unit_zero (S := S500x8) _ hz]

end Cert.KernelIdeal.RunA

end
-- ==== Proof.KernelIdeal.RunB.lean ====
import proofs.«142297_g66838281060554_cont_sun_c4_581_18_alg».proof.Proof.KernelIdeal.Acc
import Idealize.ShloMosaic.Lib.Pipeline.FrameBody
import Idealize.ShloMosaic.Lib.Pipeline.Value
import Idealize.ShloMosaic.Lib.Tactic

/-!
# The body at a middle grid point

Neither branch is taken: the body loads its three input blocks and both accumulators, adds the chunk's masked
products, and stores both accumulators back. The result block is not touched.
-/

set_option maxRecDepth 16384

noncomputable section

namespace Cert.KernelIdeal.RunB

open Cert.KernelIdeal Cert.KernelIdeal.Gen Cert.KernelIdeal.Acc
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ (UR sig nD τ) ℕ

/-- The zero offsets of a whole-buffer access, however spelt. -/
theorem hz : (![0, 0] : Fin 2 → Nat) = fun _ => 0 := funext fun a => by fin_cases a <;> rfl

set_option maxHeartbeats 4000000 in
/-- At a point that neither resets nor finishes, on whole memrefs holding `x0 x1 x2 o a s`: the body runs, and leaves
    the accumulators at one step from `a` and `s`, everything else as it was. -/
theorem run (c : Dev nD) (i : grid0.Coords)
    (arg1 : Memref sig .tc .vmem S2048x256 .f32) (harg1 : arg1.IsWhole) (arg2 : Memref sig .tc .vmem S2048x256 .f32) (harg2 : arg2.IsWhole)
    (arg3 : Memref sig .tc .vmem S500x2048 .f32) (harg3 : arg3.IsWhole) (arg4 : Memref sig .tc .vmem S1x1 .f32) (harg4 : arg4.IsWhole)
    (arg5 : Memref sig .tc .vmem S500x256 .f32) (harg5 : arg5.IsWhole) (arg6 : Memref sig .tc .vmem S500x8 .f32) (harg6 : arg6.IsWhole)
    (hc1 : ¬cond1 i) (hc2 : ¬cond2 i)
    (x0 x1 : Vec F S2048x256 .f32) (x2 : Vec F S500x2048 .f32) (o : Vec F S1x1 .f32) (a : Vec F S500x256 .f32) (s : Vec F S500x8 .f32)
    (E : Set ℕ) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare o ∗ owns (c : Thread nD τ) arg5 fullShare a ∗ owns (c : Thread nD τ) arg6 fullShare s
        ∗ (iprop(owns (c : Thread nD τ) arg1 fullShare x0 ∗ owns (c : Thread nD τ) arg2 fullShare x1 ∗ owns (c : Thread nD τ) arg3 fullShare x2
            ∗ owns (c : Thread nD τ) arg4 fullShare o ∗ owns (c : Thread nD τ) arg5 fullShare (k0_pay5 i x1 x0 x2 a)
            ∗ owns (c : Thread nD τ) arg6 fullShare (k0_pay6 i x2 s)) -∗ K ⟨⟩))
      ⊢ wp frame (wpE (defs₀ (F := F)) Variants.none c none) E
          (cc0__pcl_body i arg1 harg1 arg2 harg2 arg3 harg3 arg4 harg4 arg5 harg5 arg6 harg6) K := by
  simp only [cc0__pcl_body_eq_skeleton]; unfold cc0__pcl_body_skel
  simp only [k0_part1_eq_skeleton]; unfold k0_part1_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, Hk⟩
  obtain rfl := harg1.eq_unread hf1; obtain rfl := harg2.eq_unread hf2; obtain rfl := harg3.eq_unread hf3
  obtain rfl := harg4.eq_unread hf4; obtain rfl := harg5.eq_unread hf5; obtain rfl := harg6.eq_unread hf6
  sl_exec (disch := first | exact hc1 | exact hc2)
  sl_step
  sl_unfold_run_names
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr
    swap; · iexact H5
    ipureintro
    rw [View.read_writes_eq_canon _ _ _ (fun y => ⟨_, List.mem_singleton_self _, View.mem_set_unit_zero hz Facts₀.inb_S500x256_S500x256_0_0 y⟩),
      View.canon_unit_zero hz]
    simp only [View.readAt_eq_ld, harg1.read_unread, harg2.read_unread, harg3.read_unread, harg5.read_unread, harg6.read_unread,
      View.ld_unit_zero (S := S2048x256) hz, View.ld_unit_zero (S := S500x2048) hz, View.ld_unit_zero (S := S500x256) hz,
      View.ld_unit_zero (S := S500x8) hz]
  · iexists _; isplitr
    swap; · iexact H6
    ipureintro
    rw [View.read_writes_eq_canon _ _ _ (fun y => ⟨_, List.mem_singleton_self _, View.mem_set_unit_zero hz Facts₀.inb_S500x8_S500x8_0_0 y⟩),
      View.canon_unit_zero hz]
    simp only [View.readAt_eq_ld, harg1.read_unread, harg2.read_unread, harg3.read_unread, harg5.read_unread, harg6.read_unread,
      View.ld_unit_zero (S := S2048x256) hz, View.ld_unit_zero (S := S500x2048) hz, View.ld_unit_zero (S := S500x256) hz,
      View.ld_unit_zero (S := S500x8) hz]

end Cert.KernelIdeal.RunB

end
-- ==== Proof.KernelIdeal.RunC.lean ====
import proofs.«142297_g66838281060554_cont_sun_c4_581_18_alg».proof.Proof.KernelIdeal.Acc
import Idealize.ShloMosaic.Lib.Pipeline.FrameBody
import Idealize.ShloMosaic.Lib.Pipeline.Value
import Idealize.ShloMosaic.Lib.Tactic

/-!
# The body at the last grid point

The finishing branch is taken: after the step the body loads the first column of the count accumulator and the whole
difference accumulator back, computes the loss from them, and stores it into the (1, 1) result block.
-/

set_option maxRecDepth 16384

noncomputable section

namespace Cert.KernelIdeal.RunC

open Cert.KernelIdeal Cert.KernelIdeal.Gen Cert.KernelIdeal.Acc
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ (UR sig nD τ) ℕ

/-- The zero offsets of a whole-buffer access, however spelt. -/
theorem hz : (![0, 0] : Fin 2 → Nat) = fun _ => 0 := funext fun a => by fin_cases a <;> rfl

set_option maxHeartbeats 4000000 in
/-- At the point that finishes, on whole memrefs holding `x0 x1 x2 o a s`: the body runs, and leaves the accumulators
    at one step from `a` and `s` and the result block at the loss computed from them. -/
theorem run (c : Dev nD) (i : grid0.Coords)
    (arg1 : Memref sig .tc .vmem S2048x256 .f32) (harg1 : arg1.IsWhole) (arg2 : Memref sig .tc .vmem S2048x256 .f32) (harg2 : arg2.IsWhole)
    (arg3 : Memref sig .tc .vmem S500x2048 .f32) (harg3 : arg3.IsWhole) (arg4 : Memref sig .tc .vmem S1x1 .f32) (harg4 : arg4.IsWhole)
    (arg5 : Memref sig .tc .vmem S500x256 .f32) (harg5 : arg5.IsWhole) (arg6 : Memref sig .tc .vmem S500x8 .f32) (harg6 : arg6.IsWhole)
    (hc1 : ¬cond1 i) (hc2 : cond2 i)
    (x0 x1 : Vec F S2048x256 .f32) (x2 : Vec F S500x2048 .f32) (o : Vec F S1x1 .f32) (a : Vec F S500x256 .f32) (s : Vec F S500x8 .f32)
    (E : Set ℕ) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare o ∗ owns (c : Thread nD τ) arg5 fullShare a ∗ owns (c : Thread nD τ) arg6 fullShare s
        ∗ (iprop(owns (c : Thread nD τ) arg1 fullShare x0 ∗ owns (c : Thread nD τ) arg2 fullShare x1 ∗ owns (c : Thread nD τ) arg3 fullShare x2
            ∗ owns (c : Thread nD τ) arg4 fullShare (k0_pay1 (col0 (k0_pay6 i x2 s)) (k0_pay5 i x1 x0 x2 a)) ∗ owns (c : Thread nD τ) arg5 fullShare (k0_pay5 i x1 x0 x2 a)
            ∗ owns (c : Thread nD τ) arg6 fullShare (k0_pay6 i x2 s)) -∗ K ⟨⟩))
      ⊢ wp frame (wpE (defs₀ (F := F)) Variants.none c none) E
          (cc0__pcl_body i arg1 harg1 arg2 harg2 arg3 harg3 arg4 harg4 arg5 harg5 arg6 harg6) K := by
  simp only [cc0__pcl_body_eq_skeleton]; unfold cc0__pcl_body_skel
  simp only [k0_part1_eq_skeleton]; unfold k0_part1_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, Hk⟩
  obtain rfl := harg1.eq_unread hf1; obtain rfl := harg2.eq_unread hf2; obtain rfl := harg3.eq_unread hf3
  obtain rfl := harg4.eq_unread hf4; obtain rfl := harg5.eq_unread hf5; obtain rfl := harg6.eq_unread hf6
  sl_exec (disch := first | exact hc1 | exact hc2)
  sl_step
  sl_unfold_run_names
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr
    swap; · iexact H4
    ipureintro
    rw [View.read_writes_eq_canon _ _ _ (fun y => ⟨_, List.mem_singleton_self _, View.mem_set_unit_zero hz Facts₀.inb_S1x1_S1x1_0_0 y⟩),
      View.canon_unit_zero hz]
    simp only [View.readCov_unit_zero (S := S500x256) _ hz]
    rw [View.readCov_eq_canon_ld _ _ _ (fun y => ⟨_, List.mem_singleton_self _, View.mem_set_unit_zero hz Facts₀.inb_S500x8_S500x8_0_0 y⟩),
      View.canon_unit_zero hz]
    simp only [View.readAt_eq_ld, harg1.read_unread, harg2.read_unread, harg3.read_unread, harg5.read_unread, harg6.read_unread,
      View.ld_unit_zero (S := S2048x256) hz, View.ld_unit_zero (S := S500x2048) hz, View.ld_unit_zero (S := S500x256) hz,
      View.ld_unit_zero (S := S500x8) hz]
    rfl
  isplitl [H5]
  · iexists _; isplitr
    swap; · iexact H5
    ipureintro
    rw [View.read_writes_eq_canon _ _ _ (fun y => ⟨_, List.mem_singleton_self _, View.mem_set_unit_zero hz Facts₀.inb_S500x256_S500x256_0_0 y⟩),
      View.canon_unit_zero hz]
    simp only [View.readAt_eq_ld, harg1.read_unread, harg2.read_unread, harg3.read_unread, harg5.read_unread, harg6.read_unread,
      View.ld_unit_zero (S := S2048x256) hz, View.ld_unit_zero (S := S500x2048) hz, View.ld_unit_zero (S := S500x256) hz,
      View.ld_unit_zero (S := S500x8) hz]
  · iexists _; isplitr
    swap; · iexact H6
    ipureintro
    rw [View.read_writes_eq_canon _ _ _ (fun y => ⟨_, List.mem_singleton_self _, View.mem_set_unit_zero hz Facts₀.inb_S500x8_S500x8_0_0 y⟩),
      View.canon_unit_zero hz]
    simp only [View.readAt_eq_ld, harg1.read_unread, harg2.read_unread, harg3.read_unread, harg5.read_unread, harg6.read_unread,
      View.ld_unit_zero (S := S2048x256) hz, View.ld_unit_zero (S := S500x2048) hz, View.ld_unit_zero (S := S500x256) hz,
      View.ld_unit_zero (S := S500x8) hz]

end Cert.KernelIdeal.RunC

end
-- ==== Proof.KernelIdeal.Body.lean ====
import proofs.«142297_g66838281060554_cont_sun_c4_581_18_alg».proof.Proof.KernelIdeal.Acc
import proofs.«142297_g66838281060554_cont_sun_c4_581_18_alg».proof.Proof.KernelIdeal.Masks
import proofs.«142297_g66838281060554_cont_sun_c4_581_18_alg».proof.Proof.KernelIdeal.RunA
import proofs.«142297_g66838281060554_cont_sun_c4_581_18_alg».proof.Proof.KernelIdeal.RunB
import proofs.«142297_g66838281060554_cont_sun_c4_581_18_alg».proof.Proof.KernelIdeal.RunC
import Idealize.ShloMosaic.Lib.Pipeline.FrameBody
import Idealize.ShloMosaic.Lib.Pipeline.FrameSuffix
import Idealize.ShloMosaic.Lib.Tactic

/-!
# The kernel runs: the pipeline's proof data and the body's obligation

The pipeline fetches, at each of the ten grid points, one block of each of the three input windows; the last block of
each overhangs its array, and what the staging buffer holds past the array's end is not named. The body is handed the
two accumulators at what the point before left (at anything, at the first point), leaves them one step further, and at
the last point stores the one number of the result block, which the pipeline then writes back.

The proof data: after the body an input's staging buffer holds its block (zero past the array's end: only the part inside
the array is stated), the result's holds the loss block; the invariant between points is the two accumulators at
`Acc.scAt`. The obligation at a point is the body's run in the case the point is in (first, middle, last), the steps
made independent of what lies past the arrays' end by the masks.
-/

set_option maxRecDepth 16384

noncomputable section

namespace Cert.KernelIdeal.Body

open Cert.KernelIdeal Cert.KernelIdeal.Gen Cert.KernelIdeal.Acc
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The accumulators as memrefs, and the invariant between points -/

/-- The difference accumulator and the count accumulator: whole scratch buffers of the kernel's own. -/
abbrev scA : Memref sig .tc .vmem S500x256 .f32 := Memref.whole cc0_scratch0
abbrev scC : Memref sig .tc .vmem S500x8 .f32 := Memref.whole cc0_scratch1

/-- What the region hands the body before the first point: both accumulators at some contents, and the generator
    register at some state. -/
theorem PhiA0_eq (c : Dev nD) :
    (Pipeline.ΦA spec0 c : sProp 𝕄)
      = iprop(iprop((∃ d, owns (c : Thread nD τ) scA fullShare d) ∗ (∃ d, owns (c : Thread nD τ) scC fullShare d)) ∗ (∃ r, prngReg c r)) := by
  unfold Pipeline.ΦA; rw [scopedRest0_eq]; simp only [scA, scC, owns_whole]; try rfl

/-- The invariant before position `n`: before the first point the region's own; afterwards both accumulators at what the
    point before left. -/
def PhiS (c : Dev nD) : (n : ℕ) → n ≤ cfg0.N → sProp 𝕄
  | 0, _ => Pipeline.ΦA spec0 c
  | n + 1, hn => iprop(iprop(owns (c : Thread nD τ) scA fullShare ((scAt m c n hn).1) ∗ owns (c : Thread nD τ) scC fullShare ((scAt m c n hn).2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scA fullShare ((scAt m c n hn).1) ∗ owns (c : Thread nD τ) scC fullShare ((scAt m c n hn).2)) ∗ (∃ r, prngReg c r)) := rfl

theorem PhiS_pos (c : Dev nD) (n : ℕ) (h : n ≤ cfg0.N) (hz : n ≠ 0) :
    PhiS m c n h = iprop(iprop(owns (c : Thread nD τ) scA fullShare ((scAt m c (n - 1) (by omega)).1) ∗ owns (c : Thread nD τ) scC fullShare ((scAt m c (n - 1) (by omega)).2)) ∗ (∃ r, prngReg c r)) := by
  cases n with
  | zero => exact absurd rfl hz
  | succ n => rfl

/-! ## The proof data -/

/-- The proof data of the one pipeline on core `c`: the arrays as the region finds them; after the body each input's
    buffer at its block with zero past the array's end, the result's at the loss block; between points the accumulators at
    `scAt`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => stg0 m c t (pad S2048x256)
    | ⟨1, _⟩ => stg1 m c t (pad S2048x256)
    | ⟨2, _⟩ => stg2 m c t (pad S500x2048)
    | ⟨3, _⟩ => outBlk m c
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = stg0 m c t (pad S2048x256) := by dsimp only [dats]
theorem after0_1 (c : Dev nD) (t : Fin cfg0.N) : (dats m 0 c).after 1 t = stg1 m c t (pad S2048x256) := by dsimp only [dats]
theorem after0_2 (c : Dev nD) (t : Fin cfg0.N) : (dats m 0 c).after 2 t = stg2 m c t (pad S500x2048) := by dsimp only [dats]
theorem after0_3 (c : Dev nD) (t : Fin cfg0.N) : (dats m 0 c).after 3 t = outBlk m c := by dsimp only [dats]

/-- An input window is fetched at every point: its buffer holds the block, and `d` past the array's end. -/
theorem before0_0 (c : Dev nD) (t : Fin cfg0.N) (d) : (dats m 0 c).before 0 t d = stg0 m c t d := by
  unfold Dat.before; rw [if_pos (fetch0_0 t)]; rfl
theorem before0_1 (c : Dev nD) (t : Fin cfg0.N) (d) : (dats m 0 c).before 1 t d = stg1 m c t d := by
  unfold Dat.before; rw [if_pos (fetch0_1 t)]; rfl
theorem before0_2 (c : Dev nD) (t : Fin cfg0.N) (d) : (dats m 0 c).before 2 t d = stg2 m c t d := by
  unfold Dat.before; rw [if_pos (fetch0_2 t)]; rfl

/-! ## Where the result's window is idle -/

theorem idle0_3 : ∀ t : Fin cfg0.N, t.val ≠ 9 → cfg0.idle 3 (grid0.coords t) = true := by decide +kernel
theorem live0_3 : ∀ t : Fin cfg0.N, t.val = 9 → cfg0.idle 3 (grid0.coords t) = false := by decide +kernel
theorem noFlush0_3 : ∀ t : Fin cfg0.N, t.val ≠ 9 → (cfg0.win 3).flush t = false := by decide +kernel

/-! ## The steps do not depend on what lies past the arrays' end -/

theorem step_eq (c : Dev nD) (t : Fin cfg0.N) (d0 d1 : S2048x256.Idx → Elt F .f32) (d2 : S500x2048.Idx → Elt F .f32)
    (a : Vec F S500x256 .f32) (s : Vec F S500x8 .f32) :
    (k0_pay5 (grid0.coords t) (stg1 m c t d1) (stg0 m c t d0) (stg2 m c t d2) a, k0_pay6 (grid0.coords t) (stg2 m c t d2) s)
      = step m c t a s := by
  unfold step stg0 stg1 stg2
  rw [Masks.pay5_fill t d0 (pad S2048x256) d1 (pad S2048x256) d2 (pad S500x2048), Masks.pay6_fill t d2 (pad S500x2048)]

theorem scAt_first (c : Dev nD) (t : Fin cfg0.N) (h0 : t.val = 0) :
    scAt m c t.val t.isLt = step m c t (k0_pay2 (F := F)) (k0_pay3 (F := F)) := by
  obtain ⟨n, hn⟩ := t
  cases n with
  | zero => rfl
  | succ n => exact absurd h0 (Nat.succ_ne_zero n)

theorem scAt_next (c : Dev nD) (t : Fin cfg0.N) (h0 : t.val ≠ 0) :
    scAt m c t.val t.isLt = step m c t (scAt m c (t.val - 1) (by omega)).1 (scAt m c (t.val - 1) (by omega)).2 := by
  obtain ⟨n, hn⟩ := t
  cases n with
  | zero => exact absurd rfl h0
  | succ n => rfl

/-- The loss block, stated at the last point's own position. -/
theorem outBlk_at (c : Dev nD) (t : Fin cfg0.N) (h9 : t.val = 9) :
    outBlk m c = k0_pay1 (col0 (scAt m c t.val t.isLt).2) (scAt m c t.val t.isLt).1 := by
  obtain ⟨n, hn⟩ := t
  simp only at h9
  subst h9
  rfl

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ (dats m 0 c).leaves 0 t
    ∗ (dats m 0 c).leaves 1 t
    ∗ (dats m 0 c).leaves 2 t
    ∗ (dats m 0 c).leaves 3 t)

/-- An input window's post: its buffer at the block on the part inside the array, anything past it. -/
theorem leaves0_0 (c : Dev nD) (t : Fin cfg0.N) :
    (dats m 0 c).leaves 0 t = iprop(∃ d, owns (c : Thread nD τ) (st0_0 t) fullShare (stg0 m c t d)) := by
  show iprop(∃ d, owns (c : Thread nD τ) (st0_0 t) fullShare (win0_0.fill (grid0.coords t) d (win0_0.cut (grid0.coords t) ((dats m 0 c).after 0 t)))) = _
  rw [after0_0]; unfold stg0; simp only [Window.cut_fill]; rfl
theorem leaves0_1 (c : Dev nD) (t : Fin cfg0.N) :
    (dats m 0 c).leaves 1 t = iprop(∃ d, owns (c : Thread nD τ) (st0_1 t) fullShare (stg1 m c t d)) := by
  show iprop(∃ d, owns (c : Thread nD τ) (st0_1 t) fullShare (win0_1.fill (grid0.coords t) d (win0_1.cut (grid0.coords t) ((dats m 0 c).after 1 t)))) = _
  rw [after0_1]; unfold stg1; simp only [Window.cut_fill]; rfl
theorem leaves0_2 (c : Dev nD) (t : Fin cfg0.N) :
    (dats m 0 c).leaves 2 t = iprop(∃ d, owns (c : Thread nD τ) (st0_2 t) fullShare (stg2 m c t d)) := by
  show iprop(∃ d, owns (c : Thread nD τ) (st0_2 t) fullShare (win0_2.fill (grid0.coords t) d (win0_2.cut (grid0.coords t) ((dats m 0 c).after 2 t)))) = _
  rw [after0_2]; unfold stg2; simp only [Window.cut_fill]; rfl

/-- The result window's post at a point that does not finish: its buffer as it was found. -/
theorem leaves0_3_idle (c : Dev nD) (t : Fin cfg0.N) (h : t.val ≠ 9) :
    (dats m 0 c).leaves 3 t = iprop(∃ d, owns (c : Thread nD τ) (st0_3 t) fullShare ((dats m 0 c).before 3 t d)) :=
  Dat.leaves_idle (dats m 0 c) 3 t (idle0_3 t h) (noFlush0_3 t h)

/-- At the point that finishes: its buffer at the loss block. -/
theorem leaves0_3_last (c : Dev nD) (t : Fin cfg0.N) (h : t.val = 9) :
    (dats m 0 c).leaves 3 t = owns (c : Thread nD τ) (st0_3 t) fullShare (outBlk m c) := by
  unfold Dat.leaves; rw [live0_3 t h, after0_3]

set_option maxHeartbeats 4000000 in
/-- The body at any point, by the case the point is in. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [leaves0_0, leaves0_1, leaves0_2]
  rw [show (dats m 0 c).owesAt () t.succ = (dats m 0 c).owesAt () t.castSucc from rfl]
  rw [show (dats m 0 c).Φ t.succ = PhiS m c (t.val + 1) t.isLt from rfl, PhiS_succ]
  have hN : t.val < 10 := lt_of_lt_of_eq t.isLt (show cfg0.N = 10 from N_0)
  by_cases h0 : t.val = 0
  · have hc1 : cond1 (grid0.coords t) := (hcond1 t).mpr h0
    have hc2 : ¬cond2 (grid0.coords t) := fun h => by have := (hcond2 t).mp h; omega
    rw [leaves0_3_idle m c t (by omega), PhiS_castSucc m c t, PhiS_zero m c _ _ h0, PhiA0_eq, scAt_first m c t h0]
    iintro ⟨⟨⟨⟨%a, HA⟩, ⟨%s, HS⟩⟩, Hg⟩, Ho, ⟨%d0, H0⟩, ⟨%d1, H1⟩, ⟨%d2, H2⟩, ⟨%d3, H3⟩⟩
    iapply (RunA.run c (grid0.coords t) _ _ _ _ _ _ _ _ _ _ _ _ hc1 hc2 (stg0 m c t d0) (stg1 m c t d1) (stg2 m c t d2) _ a s Set.univ _)
    isplitl [H0]; · iexact H0
    isplitl [H1]; · iexact H1
    isplitl [H2]; · iexact H2
    isplitl [H3]; · iexact H3
    isplitl [HA]; · iexact HA
    isplitl [HS]; · iexact HS
    iintro ⟨H0, H1, H2, H3, HA, HS⟩
    rw [← step_eq m c t d0 d1 d2]
    isplitl [HA HS Hg]
    · isplitl [HA HS]
      · isplitl [HA]; · iexact HA
        iexact HS
      iexact Hg
    isplitl [Ho]; · iexact Ho
    isplitl [H0]; · iexists d0; iexact H0
    isplitl [H1]; · iexists d1; iexact H1
    isplitl [H2]; · iexists d2; iexact H2
    iexists d3; iexact H3
  · by_cases h9 : t.val = 9
    · have hc1 : ¬cond1 (grid0.coords t) := fun h => h0 ((hcond1 t).mp h)
      have hc2 : cond2 (grid0.coords t) := (hcond2 t).mpr h9
      rw [leaves0_3_last m c t h9, outBlk_at m c t h9, PhiS_castSucc m c t, PhiS_pos m c _ _ h0, scAt_next m c t h0]
      iintro ⟨⟨⟨HA, HS⟩, Hg⟩, Ho, ⟨%d0, H0⟩, ⟨%d1, H1⟩, ⟨%d2, H2⟩, ⟨%d3, H3⟩⟩
      iapply (RunC.run c (grid0.coords t) _ _ _ _ _ _ _ _ _ _ _ _ hc1 hc2 (stg0 m c t d0) (stg1 m c t d1) (stg2 m c t d2) _ _ _ Set.univ _)
      isplitl [H0]; · iexact H0
      isplitl [H1]; · iexact H1
      isplitl [H2]; · iexact H2
      isplitl [H3]; · iexact H3
      isplitl [HA]; · iexact HA
      isplitl [HS]; · iexact HS
      iintro ⟨H0, H1, H2, H3, HA, HS⟩
      rw [← step_eq m c t d0 d1 d2]
      isplitl [HA HS Hg]
      · isplitl [HA HS]
        · isplitl [HA]; · iexact HA
          iexact HS
        iexact Hg
      isplitl [Ho]; · iexact Ho
      isplitl [H0]; · iexists d0; iexact H0
      isplitl [H1]; · iexists d1; iexact H1
      isplitl [H2]; · iexists d2; iexact H2
      iexact H3
    · have hc1 : ¬cond1 (grid0.coords t) := fun h => h0 ((hcond1 t).mp h)
      have hc2 : ¬cond2 (grid0.coords t) := fun h => h9 ((hcond2 t).mp h)
      rw [leaves0_3_idle m c t h9, PhiS_castSucc m c t, PhiS_pos m c _ _ h0, scAt_next m c t h0]
      iintro ⟨⟨⟨HA, HS⟩, Hg⟩, Ho, ⟨%d0, H0⟩, ⟨%d1, H1⟩, ⟨%d2, H2⟩, ⟨%d3, H3⟩⟩
      iapply (RunB.run c (grid0.coords t) _ _ _ _ _ _ _ _ _ _ _ _ hc1 hc2 (stg0 m c t d0) (stg1 m c t d1) (stg2 m c t d2) _ _ _ Set.univ _)
      isplitl [H0]; · iexact H0
      isplitl [H1]; · iexact H1
      isplitl [H2]; · iexact H2
      isplitl [H3]; · iexact H3
      isplitl [HA]; · iexact HA
      isplitl [HS]; · iexact HS
      iintro ⟨H0, H1, H2, H3, HA, HS⟩
      rw [← step_eq m c t d0 d1 d2]
      isplitl [HA HS Hg]
      · isplitl [HA HS]
        · isplitl [HA]; · iexact HA
          iexact HS
        iexact Hg
      isplitl [Ho]; · iexact Ho
      isplitl [H0]; · iexists d0; iexact H0
      isplitl [H1]; · iexists d1; iexact H1
      isplitl [H2]; · iexists d2; iexact H2
      iexists d3; iexact H3

/-- The library's body obligation, at every point. -/
theorem body_obligation (c : Dev nD) : BodyObligationLoose (dats (F := F) m 0 c) (defs₀ (F := F)) Variants.none () Set.univ := fun t => by
  rw [bigSep_W0, bigSep_W0]
  exact sound_body m c t

/-! ## In and out of the region -/

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem hout (c : Dev nD) : (dats m 0 c).Φ (Fin.last cfg0.N) ⊢ Pipeline.ΦA spec0 c := by
  rw [show (dats m 0 c).Φ (Fin.last cfg0.N) = PhiS m c (Fin.last cfg0.N).val (Nat.le_of_lt_succ (Fin.last cfg0.N).isLt) from rfl,
    PhiS_pos m c _ _ (by rw [Fin.val_last]; have : cfg0.N = 10 := N_0; omega), PhiA0_eq]
  iintro ⟨⟨HA, HS⟩, Hg⟩
  isplitl [HA HS]
  · isplitl [HA]
    · iexists _; iexact HA
    iexists _; iexact HS
  iexact Hg

/-! ## The run and the frame -/

set_option backward.isDefEq.respectTransparency.types false in
/-- Every weakly fair execution of @main terminates, and every final state has every array of the pipeline at what the
    library computes from the proof data and every other unscoped buffer as the lines after the region leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => body_obligation m c) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- The frame: the program runs to the end, faults nowhere, and leaves its three inputs unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

end Cert.KernelIdeal.Body

end
-- ==== Proof.Spec.lean ====
import Idealize.ShloMosaic.PureOps.Ideal
import Idealize.ShloMosaic.PureOps.Ideal.Laws
import Idealize.ShloMosaic.Lib.ValueIdx

/-!
# The pathway-coherence loss as a function of the three input arrays

Inputs: an expression array `x0` and a predicted array `x1`, both indexed (sample, gene) with 256 samples and
20000 genes, and a membership array `x2` indexed (pathway, gene) with 500 pathways. Everything is an extended
real.

Two expressions for the same loss are stated here and proved equal on finite inputs:

* `lossK`: per pathway `p` and sample `b` the membership-weighted sum of the DIFFERENCE
  `∑ g, x2 (p, g) * (x1 (b, g) - x0 (b, g))`, divided by the clamped member count; squared, averaged over the
  samples, weighted by the 0/1 validity of the pathway, summed, divided by the clamped number of valid pathways.
* `lossR`: the two membership-weighted sums `∑ g, x1 (b, g) * x2 (p, g)` and `∑ g, x0 (b, g) * x2 (p, g)` each
  divided by the clamped member count, then subtracted; the rest alike, the validity applied by a choice between the
  pathway's mean square and zero.

They agree because a sum of finite reals is linear and division by a nonzero finite real distributes over a
difference; on the extended reals both laws need every entry finite.
-/

noncomputable section

namespace Cert.Spec

open Idealize.ShloMosaic Idealize.ShloMosaic.ValueIdx

/-- (sample, gene) arrays. -/
abbrev SE : Shape := ⟨2, ![256, 20000]⟩
/-- The (pathway, gene) membership array. -/
abbrev SM : Shape := ⟨2, ![500, 20000]⟩

/-- The float words 1.0, 5.0 and 256.0 as extended reals. -/
def one : EReal := Ideal.ofBits .f32 0x3F800000#32
def five : EReal := Ideal.ofBits .f32 0x40A00000#32
def c256 : EReal := Ideal.ofBits .f32 0x43800000#32

section
variable (x0 x1 : SE.Idx → EReal) (x2 : SM.Idx → EReal)

/-- The member count of pathway `p`: the sum of its membership row. -/
def count (p : Fin 500) : EReal := ∑ g : Fin 20000, x2 (ix2 p g)

/-- The member count clamped below at one: what the weighted sums are divided by. -/
def denom (p : Fin 500) : EReal := max (count x2 p) one

/-- Whether pathway `p` has at least five members, as a bit. -/
def validBit (p : Fin 500) : BitVec 1 := Ideal.cmp .oge (count x2 p) five

/-! ## The first expression: one weighted sum of the difference -/

/-- The membership-weighted sum over the genes of predicted minus expression, for pathway `p` and sample `b`. -/
def accK (p : Fin 500) (b : Fin 256) : EReal :=
  ∑ g : Fin 20000, x2 (ix2 p g) * (x1 (ix2 b g) - x0 (ix2 b g))

/-- The pathway's mean over the samples of the squared mean difference. -/
def mseK (p : Fin 500) : EReal :=
  Ideal.div (∑ b : Fin 256, Ideal.div (accK x0 x1 x2 p b) (denom x2 p) * Ideal.div (accK x0 x1 x2 p b) (denom x2 p)) c256

/-- The validity bit widened to a 32-bit word and read as a signed integer: 0 or 1. -/
def validK (p : Fin 500) : EReal := ((((validBit x2 p).setWidth 32).toInt : ℝ) : EReal)

def lossK : EReal :=
  if Ideal.cmp .ogt (∑ p : Fin 500, validK x2 p) 0 = 1 then
    Ideal.div (∑ p : Fin 500, mseK x0 x1 x2 p * validK x2 p) (max (∑ p : Fin 500, validK x2 p) one)
  else 0

/-! ## The second expression: two weighted sums, divided, then subtracted -/

/-- The membership-weighted sum of array `x` for sample `b` and pathway `p`, divided by the clamped count. -/
def quotR (x : SE.Idx → EReal) (b : Fin 256) (p : Fin 500) : EReal :=
  Ideal.div (∑ g : Fin 20000, x (ix2 b g) * x2 (ix2 p g)) (denom x2 p)

def mseR (p : Fin 500) : EReal :=
  Ideal.div (∑ b : Fin 256, (quotR x2 x1 b p - quotR x2 x0 b p) * (quotR x2 x1 b p - quotR x2 x0 b p)) c256

/-- The validity bit read as an unsigned integer: 0 or 1. -/
def validR (p : Fin 500) : EReal := (((validBit x2 p).toNat : ℝ) : EReal)

def lossR : EReal :=
  if Ideal.cmp .ogt (∑ p : Fin 500, validR x2 p) 0 = 1 then
    Ideal.div (∑ p : Fin 500, if validBit x2 p = 1 then mseR x0 x1 x2 p else 0) (max (∑ p : Fin 500, validR x2 p) one)
  else 0

/-! ## Finite entries: the constants, sums and quotients as real numbers -/

/-- The float word `0x3F800000` is the real number one. -/
theorem one_eq : one = ((1 : ℝ) : EReal) := by
  unfold one
  simp [Ideal.ofBits, Ideal.ieee, -EReal.coe_mul]
  norm_num

/-- A finite sum of real numbers, read in the extended reals, is the extended real of the real sum. -/
theorem sum_coe {ι : Type} (s : Finset ι) (f : ι → ℝ) :
    (∑ i ∈ s, ((f i : ℝ) : EReal)) = ((∑ i ∈ s, f i : ℝ) : EReal) := by
  classical
  induction s using Finset.induction_on with
  | empty => simp
  | insert a s ha ih => rw [Finset.sum_insert ha, Finset.sum_insert ha, ih, EReal.coe_add]

/-- A one-bit word widened and read signed, or read unsigned, is the same 0 or 1. -/
theorem validK_eq_validR (p : Fin 500) : validK x2 p = validR x2 p := by
  unfold validK validR
  rcases BitVec.eq_zero_or_eq_one (validBit x2 p) with h | h
  · rw [h]
    have a : ((0#1).setWidth 32).toInt = 0 := by decide
    have b : (0#1).toNat = 0 := by decide
    rw [a, b]; simp
  · rw [h]
    have a : ((1#1).setWidth 32).toInt = 1 := by decide
    have b : (1#1).toNat = 1 := by decide
    rw [a, b]; simp

/-- Choosing between a value and zero by the validity bit is multiplying by the bit's value. -/
theorem choice_eq_mul (p : Fin 500) (m : EReal) :
    (if validBit x2 p = 1 then m else 0) = m * validR x2 p := by
  unfold validR
  rcases BitVec.eq_zero_or_eq_one (validBit x2 p) with h | h
  · rw [h]
    have b : (0#1).toNat = 0 := by decide
    have c : ¬ ((0#1 : BitVec 1) = 1) := by decide
    rw [if_neg c, b]; simp
  · rw [h]
    have b : (1#1).toNat = 1 := by decide
    have c : ((1#1 : BitVec 1) = 1) := by decide
    rw [if_pos c, b]; simp

/-- With finite entries the clamped count is a nonzero real, sums are linear and the division distributes over the
    difference: the quotient of the weighted sum of differences is the difference of the two quotients. -/
theorem div_acc_eq (h0 : ∀ i, ∃ r : ℝ, x0 i = (r : EReal)) (h1 : ∀ i, ∃ r : ℝ, x1 i = (r : EReal))
    (h2 : ∀ i, ∃ r : ℝ, x2 i = (r : EReal)) (p : Fin 500) (b : Fin 256) :
    Ideal.div (accK x0 x1 x2 p b) (denom x2 p) = quotR x2 x1 b p - quotR x2 x0 b p := by
  choose e0 he0 using h0
  choose e1 he1 using h1
  choose e2 he2 using h2
  -- the clamped count is a real number d, at least one
  obtain ⟨d, hd⟩ : ∃ d : ℝ, d = max (∑ g : Fin 20000, e2 (ix2 p g)) 1 := ⟨_, rfl⟩
  have hden : denom x2 p = ((d : ℝ) : EReal) := by
    unfold denom count
    simp only [he2]
    rw [sum_coe, one_eq, hd]
    exact (EReal.coe_strictMono.monotone.map_max).symm
  have hne : d ≠ 0 := by
    have h1d : (1 : ℝ) ≤ d := hd ▸ le_max_right _ _
    intro h; rw [h] at h1d; norm_num at h1d
  -- linearity of the real sums and distributivity of the product with 1 / d
  have hreal : (∑ g : Fin 20000, e2 (ix2 p g) * (e1 (ix2 b g) - e0 (ix2 b g))) * (1 / d)
      = (∑ g : Fin 20000, e1 (ix2 b g) * e2 (ix2 p g)) * (1 / d)
        - (∑ g : Fin 20000, e0 (ix2 b g) * e2 (ix2 p g)) * (1 / d) := by
    rw [← sub_mul, ← Finset.sum_sub_distrib]
    refine congrArg (fun t : ℝ => t * (1 / d)) (Finset.sum_congr rfl ?_)
    intro g _
    ring
  unfold quotR accK
  rw [hden, Ideal.div_coe hne, Ideal.div_coe hne, Ideal.div_coe hne]
  simp only [he0, he1, he2, ← EReal.coe_sub, ← EReal.coe_mul]
  rw [sum_coe, sum_coe, sum_coe]
  simp only [← EReal.coe_sub, ← EReal.coe_mul]
  rw [hreal]

/-- On finite inputs the two expressions are one number. -/
theorem loss_eq (h0 : ∀ i, ∃ r : ℝ, x0 i = (r : EReal)) (h1 : ∀ i, ∃ r : ℝ, x1 i = (r : EReal))
    (h2 : ∀ i, ∃ r : ℝ, x2 i = (r : EReal)) : lossK x0 x1 x2 = lossR x0 x1 x2 := by
  have hm : ∀ p, mseK x0 x1 x2 p = mseR x0 x1 x2 p := by
    intro p
    unfold mseK mseR
    simp only [div_acc_eq x0 x1 x2 h0 h1 h2]
  unfold lossK lossR
  simp only [validK_eq_validR, hm, choice_eq_mul]

end

end Cert.Spec

end
-- ==== Proof.KAcc.lean ====
import proofs.«142297_g66838281060554_cont_sun_c4_581_18_alg».proof.Proof.KernelIdeal.Acc
import proofs.«142297_g66838281060554_cont_sun_c4_581_18_alg».proof.Proof.KernelIdeal.Masks
import proofs.«142297_g66838281060554_cont_sun_c4_581_18_alg».proof.Proof.Spec
import Idealize.ShloMosaic.PureOps.Ideal.Laws
import Idealize.ShloMosaic.Lib.ValueIdx
import Idealize.ShloMosaic.Lib.ValueLayout
import Idealize.ShloMosaic.Lib.Pipeline.Value
import Idealize.ShloMosaic.Lib.StableHlo.Run

/-!
# The accumulators after the last grid point are the sums over all 20000 genes

Point `t` adds to the difference accumulator, at (pathway `p`, sample `b`), the sum over the 2048 positions `j` of its chunk
of membership (p, 2048 t + j) times (predicted - expression) (b, 2048 t + j), each factor replaced by zero when
`2048 t + j` is not below 20000; and to every column of the count accumulator the sum of the same masked membership
entries. Ten chunks of 2048 cover the 20000 genes once (the last chunk's positions from 1568 on are masked), so after
point 9 the accumulators hold the full sums: `Cert.Spec.accK` and `Cert.Spec.count`.
-/

noncomputable section

namespace Cert.KernelIdeal.KAcc

open Cert.KernelIdeal Cert.KernelIdeal.Gen Cert.KernelIdeal.Acc
open Idealize.ShloMosaic Idealize.ShloMosaic.TcCoe Idealize.SL.Sem Idealize.ShloMosaic.ValueIdx

variable (m : (ℓ : Loc nD τ sig) → Buf (Elt Ideal) ℓ)

/-! ## A sum whose tail vanishes -/

/-- A summand that vanishes from `N` on adds nothing past `N`. -/
theorem sum_tail_zero {M : Type*} [AddCommMonoid M] (f : ℕ → M) (N K : ℕ) (h : ∀ k, N ≤ k → f k = 0) :
    ∑ k ∈ Finset.range (N + K), f k = ∑ k ∈ Finset.range N, f k := by
  rw [Finset.sum_range_add, Finset.sum_eq_zero (fun x _ => h (N + x) (Nat.le_add_right _ _)), add_zero]

/-! ## The arrays as the region finds them -/

/-- The expression array the region reads is the launched one transposed. -/
theorem V_v0 (c : Dev nD) :
    (V (F := Ideal) m c main_v0 : S20000x256.Idx → EReal)
      = transpose S20000x256 [1, 0] (m ((c.tc : Thread nD τ).loc main_arg0)) transposes_S256x20000_S20000x256_1_0 := by
  dsimp only [Gen.V, Gen.V0]
  simp only [Gen.hostOps0, List.flatten_cons, List.flatten_nil, List.append_nil, List.cons_append, List.nil_append]
  after_results

/-- The predicted array likewise. -/
theorem V_v1 (c : Dev nD) :
    (V (F := Ideal) m c main_v1 : S20000x256.Idx → EReal)
      = transpose S20000x256 [1, 0] (m ((c.tc : Thread nD τ).loc main_arg1)) transposes_S256x20000_S20000x256_1_0 := by
  dsimp only [Gen.V, Gen.V0]
  simp only [Gen.hostOps0, List.flatten_cons, List.flatten_nil, List.append_nil, List.cons_append, List.nil_append]
  after_results

/-- Entry (gene, sample) of the transposed expression array is entry (sample, gene) of the launched one. -/
theorem V_v0_apply (c : Dev nD) (g : Fin 20000) (b : Fin 256) :
    (V (F := Ideal) m c main_v0 : S20000x256.Idx → EReal) (ix2 g b) = m ((c.tc : Thread nD τ).loc main_arg0) (ix2 b g) := by
  rw [V_v0]
  exact transpose_apply [1, 0] _ transposes_S256x20000_S20000x256_1_0 (ix2 g b) (ix2 b g) (fun a => match a with
    | ⟨0, _⟩ => rfl
    | ⟨1, _⟩ => rfl)

theorem V_v1_apply (c : Dev nD) (g : Fin 20000) (b : Fin 256) :
    (V (F := Ideal) m c main_v1 : S20000x256.Idx → EReal) (ix2 g b) = m ((c.tc : Thread nD τ).loc main_arg1) (ix2 b g) := by
  rw [V_v1]
  exact transpose_apply [1, 0] _ transposes_S256x20000_S20000x256_1_0 (ix2 g b) (ix2 b g) (fun a => match a with
    | ⟨0, _⟩ => rfl
    | ⟨1, _⟩ => rfl)

/-! ## Where a block's element sits -/

/-- The gene windows' block index at point `t` is `t` along the genes and zero along the samples. -/
theorem index0 : ∀ t : Fin cfg0.N, win0_0.index t 0 = t.val ∧ win0_0.index t 1 = 0 :=
  (by decide +kernel : ∀ t : Fin grid0.N, win0_0.index t 0 = t.val ∧ win0_0.index t 1 = 0)
theorem index1 : ∀ t : Fin cfg0.N, win0_1.index t 0 = t.val ∧ win0_1.index t 1 = 0 :=
  (by decide +kernel : ∀ t : Fin grid0.N, win0_1.index t 0 = t.val ∧ win0_1.index t 1 = 0)
/-- The membership window's is zero along the pathways and `t` along the genes. -/
theorem index2 : ∀ t : Fin cfg0.N, win0_2.index t 0 = 0 ∧ win0_2.index t 1 = t.val :=
  (by decide +kernel : ∀ t : Fin grid0.N, win0_2.index t 0 = 0 ∧ win0_2.index t 1 = t.val)

/-- The membership window's block at point `t`, read at a block index, is the membership array at the element's place. -/
theorem iblk2_apply (c : Dev nD) (t : Fin cfg0.N) (y : (win0_2.xblock (grid0.coords t)).Idx) :
    iblk (F := Ideal) m c 2 t y = m ((c.tc : Thread nD τ).loc main_arg2) ((win0_2.rect t).emb y) := by
  unfold iblk
  rw [View.read_apply, ← V_main_arg2 (F := Ideal) m c]
  rfl

/-- The expression window's block likewise, off the transposed array. -/
theorem iblk0_apply (c : Dev nD) (t : Fin cfg0.N) (y : (win0_0.xblock (grid0.coords t)).Idx) :
    iblk (F := Ideal) m c 0 t y = (V (F := Ideal) m c main_v0 : S20000x256.Idx → EReal) ((win0_0.rect t).emb y) := by
  unfold iblk
  rw [View.read_apply]
  rfl

theorem iblk1_apply (c : Dev nD) (t : Fin cfg0.N) (y : (win0_1.xblock (grid0.coords t)).Idx) :
    iblk (F := Ideal) m c 1 t y = (V (F := Ideal) m c main_v1 : S20000x256.Idx → EReal) ((win0_1.rect t).emb y) := by
  unfold iblk
  rw [View.read_apply]
  rfl

/-! ## The staging blocks at an index, on the part inside the arrays -/

/-- The membership block at (pathway `p`, position `j`) is the membership array at (`p`, gene `2048 t + j`), when that gene exists. -/
theorem stg2_apply (c : Dev nD) (t : Fin cfg0.N) (d : S500x2048.Idx → Elt Ideal .f32) (p : Fin 500) (j : Fin 2048)
    (h : 2048 * t.val + j.val < 20000) :
    stg2 (F := Ideal) m c t d (ix2 p j) = m ((c.tc : Thread nD τ).loc main_arg2) (ix2 p ⟨2048 * t.val + j.val, h⟩) := by
  have hm : win0_2.moved (grid0.coords t) (ix2 p j) = true := (Masks.moved2_iff t (ix2 p j)).mpr h
  unfold stg2 Pipeline.Window.fill
  rw [dif_pos hm, iblk2_apply]
  refine congrArg _ (Shape.idx_ext₂ ?_ ?_)
  · rw [Pipeline.Window.rect_emb_val, (index2 t).1]
    show 0 * 500 + p.val = p.val
    omega
  · rw [Pipeline.Window.rect_emb_val, (index2 t).2]
    show t.val * 2048 + j.val = 2048 * t.val + j.val
    omega

/-- The expression block at (position `j`, sample `b`) is the launched expression array at (`b`, gene `2048 t + j`). -/
theorem stg0_apply (c : Dev nD) (t : Fin cfg0.N) (d : S2048x256.Idx → Elt Ideal .f32) (j : Fin 2048) (b : Fin 256)
    (h : 2048 * t.val + j.val < 20000) :
    stg0 (F := Ideal) m c t d (ix2 j b) = m ((c.tc : Thread nD τ).loc main_arg0) (ix2 b ⟨2048 * t.val + j.val, h⟩) := by
  have hm : win0_0.moved (grid0.coords t) (ix2 j b) = true := (Masks.moved0_iff t (ix2 j b)).mpr h
  unfold stg0 Pipeline.Window.fill
  rw [dif_pos hm, iblk0_apply, ← V_v0_apply m c ⟨2048 * t.val + j.val, h⟩ b]
  refine congrArg _ (Shape.idx_ext₂ ?_ ?_)
  · rw [Pipeline.Window.rect_emb_val, (index0 t).1]
    show t.val * 2048 + j.val = 2048 * t.val + j.val
    omega
  · rw [Pipeline.Window.rect_emb_val, (index0 t).2]
    show 0 * 256 + b.val = b.val
    omega

/-- The predicted block likewise. -/
theorem stg1_apply (c : Dev nD) (t : Fin cfg0.N) (d : S2048x256.Idx → Elt Ideal .f32) (j : Fin 2048) (b : Fin 256)
    (h : 2048 * t.val + j.val < 20000) :
    stg1 (F := Ideal) m c t d (ix2 j b) = m ((c.tc : Thread nD τ).loc main_arg1) (ix2 b ⟨2048 * t.val + j.val, h⟩) := by
  have hm : win0_1.moved (grid0.coords t) (ix2 j b) = true := (Masks.moved1_iff t (ix2 j b)).mpr h
  unfold stg1 Pipeline.Window.fill
  rw [dif_pos hm, iblk1_apply, ← V_v1_apply m c ⟨2048 * t.val + j.val, h⟩ b]
  refine congrArg _ (Shape.idx_ext₂ ?_ ?_)
  · rw [Pipeline.Window.rect_emb_val, (index1 t).1]
    show t.val * 2048 + j.val = 2048 * t.val + j.val
    omega
  · rw [Pipeline.Window.rect_emb_val, (index1 t).2]
    show 0 * 256 + b.val = b.val
    omega

/-! ## The two products' operand indices -/

theorem lhs5_0 (i : S500x256.Idx) (q : dot_S500x2048_S2048x256_S500x256_1_0_0_1_n_n.contr.Idx) :
    (dot_S500x2048_S2048x256_S500x256_1_0_0_1_n_n.lhsIdx i q 0).val = (i 0).val := by
  unfold DotDims.lhsIdx
  rw [dif_neg (show ¬(0 : Fin S500x2048.rank) ∈ dot_S500x2048_S2048x256_S500x256_1_0_0_1_n_n.lhsBatch by decide), dif_pos (show (0 : Fin S500x2048.rank) ∈ dot_S500x2048_S2048x256_S500x256_1_0_0_1_n_n.lhsNonContracting by decide)]
  rfl
theorem lhs5_1 (i : S500x256.Idx) (q : dot_S500x2048_S2048x256_S500x256_1_0_0_1_n_n.contr.Idx) :
    (dot_S500x2048_S2048x256_S500x256_1_0_0_1_n_n.lhsIdx i q 1).val = (q ⟨0, by decide⟩).val :=
  dot_S500x2048_S2048x256_S500x256_1_0_0_1_n_n.lhsIdx_val_of_single rfl i q
theorem rhs5_0 (i : S500x256.Idx) (q : dot_S500x2048_S2048x256_S500x256_1_0_0_1_n_n.contr.Idx) :
    (dot_S500x2048_S2048x256_S500x256_1_0_0_1_n_n.rhsIdx i q 0).val = (q ⟨0, by decide⟩).val :=
  dot_S500x2048_S2048x256_S500x256_1_0_0_1_n_n.rhsIdx_val_of_single rfl i q
theorem rhs5_1 (i : S500x256.Idx) (q : dot_S500x2048_S2048x256_S500x256_1_0_0_1_n_n.contr.Idx) :
    (dot_S500x2048_S2048x256_S500x256_1_0_0_1_n_n.rhsIdx i q 1).val = (i 1).val := by
  unfold DotDims.rhsIdx
  rw [dif_neg (show ¬(1 : Fin S2048x256.rank) ∈ dot_S500x2048_S2048x256_S500x256_1_0_0_1_n_n.rhsBatch by decide), dif_pos (show (1 : Fin S2048x256.rank) ∈ dot_S500x2048_S2048x256_S500x256_1_0_0_1_n_n.rhsNonContracting by decide)]
  rfl

theorem lhs6_0 (i : S500x8.Idx) (q : dot_S500x2048_S2048x8_S500x8_1_0_0_1_n_n.contr.Idx) :
    (dot_S500x2048_S2048x8_S500x8_1_0_0_1_n_n.lhsIdx i q 0).val = (i 0).val := by
  unfold DotDims.lhsIdx
  rw [dif_neg (show ¬(0 : Fin S500x2048.rank) ∈ dot_S500x2048_S2048x8_S500x8_1_0_0_1_n_n.lhsBatch by decide), dif_pos (show (0 : Fin S500x2048.rank) ∈ dot_S500x2048_S2048x8_S500x8_1_0_0_1_n_n.lhsNonContracting by decide)]
  rfl
theorem lhs6_1 (i : S500x8.Idx) (q : dot_S500x2048_S2048x8_S500x8_1_0_0_1_n_n.contr.Idx) :
    (dot_S500x2048_S2048x8_S500x8_1_0_0_1_n_n.lhsIdx i q 1).val = (q ⟨0, by decide⟩).val :=
  dot_S500x2048_S2048x8_S500x8_1_0_0_1_n_n.lhsIdx_val_of_single rfl i q

/-! ## The masked membership block at an index -/

/-- The masked membership block at (pathway `p`, position `j`): the block's entry when gene `2048 t + j` exists, else zero. -/
theorem pay4_apply (t : Fin cfg0.N) (v18 : Vec Ideal S500x2048 .f32) (p : Fin 500) (j : Fin 2048) :
    k0_pay4 (grid0.coords t) v18 (ix2 p j) = if 2048 * t.val + j.val < 20000 then v18 (ix2 p j) else 0 := by
  unfold k0_pay4
  show Scalar.select (IntOp.cmpi .slt (iota .tc S500x2048 32 [1] iota_S500x2048_d1_w32 (ix2 p j)) (Masks.limit (grid0.coords t)))
    (v18 (ix2 p j)) (Ideal.ofBits .f32 0x00000000#32) = _
  rw [iota_single_apply]
  show Scalar.select (IntOp.cmpi .slt (BitVec.ofNat 32 j.val) (Masks.limit (grid0.coords t))) (v18 (ix2 p j)) (Ideal.ofBits .f32 0x00000000#32) = _
  by_cases h : 2048 * t.val + j.val < 20000
  · rw [if_pos h, (Masks.mask_iff t j.val j.isLt).mpr h, select_one]
  · rw [if_neg h, eq_zero_of_ne_one (mt (Masks.mask_iff t j.val j.isLt).mp h), select_zero, Ideal.ofBits_zero_f32]

/-! ## What one point adds -/

/-- The difference accumulator's update at (pathway `p`, sample `b`): the old entry plus the sum over the chunk's positions of the
    masked membership entry times the masked difference of the predicted and the expression blocks. -/
theorem pay5_apply (t : Fin cfg0.N) (v9 v11 : Vec Ideal S2048x256 .f32) (v18 : Vec Ideal S500x2048 .f32) (a : Vec Ideal S500x256 .f32)
    (p : Fin 500) (b : Fin 256) :
    k0_pay5 (grid0.coords t) v9 v11 v18 a (ix2 p b)
      = a (ix2 p b) + ∑ j : Fin 2048, k0_pay4 (grid0.coords t) v18 (ix2 p j)
          * (if 2048 * t.val + j.val < 20000 then v9 (ix2 j b) - v11 (ix2 j b) else 0) := by
  unfold k0_pay5
  simp only [shapeCast_self]
  rw [addf_apply]
  simp only [matmul]
  rw [Ideal.matmul_constant_zero_apply, ← Equiv.sum_comp (ValueIdx.contrEquiv1 dot_S500x2048_S2048x256_S500x256_1_0_0_1_n_n 2048 rfl rfl).symm]
  refine congrArg (a (ix2 p b) + ·) (Finset.sum_congr rfl fun j _ => ?_)
  have hk := ValueIdx.contrEquiv1_symm_val dot_S500x2048_S2048x256_S500x256_1_0_0_1_n_n 2048 rfl rfl j
  have el : dot_S500x2048_S2048x256_S500x256_1_0_0_1_n_n.lhsIdx (ix2 p b) ((ValueIdx.contrEquiv1 dot_S500x2048_S2048x256_S500x256_1_0_0_1_n_n 2048 rfl rfl).symm j) = ix2 p j :=
    Shape.idx_ext₂ (lhs5_0 _ _) ((lhs5_1 _ _).trans hk)
  have er : dot_S500x2048_S2048x256_S500x256_1_0_0_1_n_n.rhsIdx (ix2 p b) ((ValueIdx.contrEquiv1 dot_S500x2048_S2048x256_S500x256_1_0_0_1_n_n 2048 rfl rfl).symm j) = ix2 j b :=
    Shape.idx_ext₂ ((rhs5_0 _ _).trans hk) (rhs5_1 _ _)
  rw [el, er]
  refine congrArg (k0_pay4 (grid0.coords t) v18 (ix2 p j) * ·) ?_
  show Scalar.select (IntOp.cmpi .slt (iota .tc S2048x256 32 [0] iota_S2048x256_d0_w32 (ix2 j b)) (Masks.limit (grid0.coords t)))
    (v9 (ix2 j b) - v11 (ix2 j b)) (Ideal.ofBits .f32 0x00000000#32) = _
  rw [iota_single_apply]
  show Scalar.select (IntOp.cmpi .slt (BitVec.ofNat 32 j.val) (Masks.limit (grid0.coords t))) (v9 (ix2 j b) - v11 (ix2 j b)) (Ideal.ofBits .f32 0x00000000#32) = _
  by_cases h : 2048 * t.val + j.val < 20000
  · rw [if_pos h, (Masks.mask_iff t j.val j.isLt).mpr h, select_one]
  · rw [if_neg h, eq_zero_of_ne_one (mt (Masks.mask_iff t j.val j.isLt).mp h), select_zero, Ideal.ofBits_zero_f32]

/-- The count accumulator's update at (pathway `p`, column `q`): the old entry plus the sum of the masked membership entries
    (each times the float word one). -/
theorem pay6_apply (t : Fin cfg0.N) (v18 : Vec Ideal S500x2048 .f32) (s : Vec Ideal S500x8 .f32) (p : Fin 500) (q : Fin 8) :
    k0_pay6 (grid0.coords t) v18 s (ix2 p q) = s (ix2 p q) + ∑ j : Fin 2048, k0_pay4 (grid0.coords t) v18 (ix2 p j) := by
  unfold k0_pay6
  simp only [shapeCast_self]
  rw [addf_apply]
  simp only [matmul]
  rw [Ideal.matmul_constant_zero_apply, ← Equiv.sum_comp (ValueIdx.contrEquiv1 dot_S500x2048_S2048x8_S500x8_1_0_0_1_n_n 2048 rfl rfl).symm]
  refine congrArg (s (ix2 p q) + ·) (Finset.sum_congr rfl fun j _ => ?_)
  have hk := ValueIdx.contrEquiv1_symm_val dot_S500x2048_S2048x8_S500x8_1_0_0_1_n_n 2048 rfl rfl j
  have el : dot_S500x2048_S2048x8_S500x8_1_0_0_1_n_n.lhsIdx (ix2 p q) ((ValueIdx.contrEquiv1 dot_S500x2048_S2048x8_S500x8_1_0_0_1_n_n 2048 rfl rfl).symm j) = ix2 p j :=
    Shape.idx_ext₂ (lhs6_0 _ _) ((lhs6_1 _ _).trans hk)
  rw [el]
  show k0_pay4 (grid0.coords t) v18 (ix2 p j) * Cert.Spec.one = _
  rw [Cert.Spec.one_eq, EReal.coe_one, mul_one]

/-! ## One point's step, over the genes as naturals -/

/-- The launched expression and predicted arrays (sample, gene), as functions into the extended reals. -/
abbrev Ex (c : Dev nD) : Cert.Spec.SE.Idx → EReal := m ((c.tc : Thread nD τ).loc main_arg0)
abbrev Px (c : Dev nD) : Cert.Spec.SE.Idx → EReal := m ((c.tc : Thread nD τ).loc main_arg1)

/-- Entry (`p`, `g`) of the membership array; zero when gene `g` does not exist. -/
def Mn (c : Dev nD) (p : Fin 500) (g : ℕ) : EReal :=
  if h : g < 20000 then m ((c.tc : Thread nD τ).loc main_arg2) (ix2 p ⟨g, h⟩) else 0

/-- Predicted minus expression at (`b`, `g`); zero when gene `g` does not exist. -/
def Dn (c : Dev nD) (b : Fin 256) (g : ℕ) : EReal :=
  if h : g < 20000 then Px m c (ix2 b ⟨g, h⟩) - Ex m c (ix2 b ⟨g, h⟩) else 0

/-- Point `t` adds to the difference accumulator the chunk's 2048 products. -/
theorem step_fst (c : Dev nD) (t : Fin cfg0.N) (a : Vec Ideal S500x256 .f32) (s : Vec Ideal S500x8 .f32) (p : Fin 500) (b : Fin 256) :
    (step (F := Ideal) m c t a s).1 (ix2 p b)
      = a (ix2 p b) + ∑ j ∈ Finset.range 2048, Mn m c p (2048 * t.val + j) * Dn m c b (2048 * t.val + j) := by
  show k0_pay5 (grid0.coords t) (stg1 m c t (pad S2048x256)) (stg0 m c t (pad S2048x256)) (stg2 m c t (pad S500x2048)) a (ix2 p b) = _
  rw [pay5_apply, ← Fin.sum_univ_eq_sum_range (fun j => Mn m c p (2048 * t.val + j) * Dn m c b (2048 * t.val + j)) 2048]
  refine congrArg (a (ix2 p b) + ·) (Finset.sum_congr rfl fun j _ => ?_)
  rw [pay4_apply]
  by_cases h : 2048 * t.val + j.val < 20000
  · rw [if_pos h, if_pos h, stg2_apply m c t _ p j h, stg1_apply m c t _ j b h, stg0_apply m c t _ j b h]
    unfold Mn Dn
    rw [dif_pos h, dif_pos h]
  · rw [if_neg h, if_neg h]
    unfold Mn Dn
    rw [dif_neg h, dif_neg h]

/-- And to every column of the count accumulator the chunk's 2048 membership entries. -/
theorem step_snd (c : Dev nD) (t : Fin cfg0.N) (a : Vec Ideal S500x256 .f32) (s : Vec Ideal S500x8 .f32) (p : Fin 500) (q : Fin 8) :
    (step (F := Ideal) m c t a s).2 (ix2 p q)
      = s (ix2 p q) + ∑ j ∈ Finset.range 2048, Mn m c p (2048 * t.val + j) := by
  show k0_pay6 (grid0.coords t) (stg2 m c t (pad S500x2048)) s (ix2 p q) = _
  rw [pay6_apply, ← Fin.sum_univ_eq_sum_range (fun j => Mn m c p (2048 * t.val + j)) 2048]
  refine congrArg (s (ix2 p q) + ·) (Finset.sum_congr rfl fun j _ => ?_)
  rw [pay4_apply]
  by_cases h : 2048 * t.val + j.val < 20000
  · rw [if_pos h, stg2_apply m c t _ p j h]
    unfold Mn
    rw [dif_pos h]
  · rw [if_neg h]
    unfold Mn
    rw [dif_neg h]

/-! ## After point `n`: the first `2048 (n + 1)` genes -/

theorem acc_at (c : Dev nD) (p : Fin 500) (b : Fin 256) : ∀ (n : ℕ) (hn : n < cfg0.N),
    (scAt (F := Ideal) m c n hn).1 (ix2 p b) = ∑ k ∈ Finset.range (2048 * (n + 1)), Mn m c p k * Dn m c b k
  | 0, hn => by
    rw [scAt_zero, step_fst]
    show Ideal.ofBits .f32 0x00000000#32 + _ = _
    rw [Ideal.ofBits_zero_f32, zero_add]
    simp only [Nat.mul_zero, Nat.zero_add, Nat.mul_one]
  | n + 1, hn => by
    rw [scAt_succ, step_fst, acc_at c p b n (Nat.lt_of_succ_lt hn), Nat.mul_succ 2048 (n + 1), Finset.sum_range_add]

theorem cnt_at (c : Dev nD) (p : Fin 500) (q : Fin 8) : ∀ (n : ℕ) (hn : n < cfg0.N),
    (scAt (F := Ideal) m c n hn).2 (ix2 p q) = ∑ k ∈ Finset.range (2048 * (n + 1)), Mn m c p k
  | 0, hn => by
    rw [scAt_zero, step_snd]
    show Ideal.ofBits .f32 0x00000000#32 + _ = _
    rw [Ideal.ofBits_zero_f32, zero_add]
    simp only [Nat.mul_zero, Nat.zero_add, Nat.mul_one]
  | n + 1, hn => by
    rw [scAt_succ, step_snd, cnt_at c p q n (Nat.lt_of_succ_lt hn), Nat.mul_succ 2048 (n + 1), Finset.sum_range_add]

/-! ## After the last point -/

/-- After the last point the difference accumulator holds, at (p, b), the membership-weighted sum over all genes of
    predicted minus expression. -/
theorem acc_last (c : Dev nD) (p : Fin 500) (b : Fin 256) :
    (scAt (F := Ideal) m c 9 (by decide)).1 (ix2 p b)
      = Cert.Spec.accK (m ((c.tc : Thread nD τ).loc main_arg0)) (m ((c.tc : Thread nD τ).loc main_arg1)) (m ((c.tc : Thread nD τ).loc main_arg2)) p b := by
  rw [acc_at m c p b 9 (by decide), (by norm_num : 2048 * (9 + 1) = 20000 + 480),
    sum_tail_zero _ 20000 480 (fun k hk => by unfold Mn; rw [dif_neg (by omega), zero_mul]), Finset.sum_range]
  unfold Cert.Spec.accK
  refine Finset.sum_congr rfl fun g _ => ?_
  unfold Mn Dn
  rw [dif_pos g.isLt, dif_pos g.isLt]

/-- After the last point every column of the count accumulator holds the member count of its pathway. -/
theorem cnt_last (c : Dev nD) (p : Fin 500) (j : Fin 8) :
    (scAt (F := Ideal) m c 9 (by decide)).2 (ix2 p j)
      = Cert.Spec.count (m ((c.tc : Thread nD τ).loc main_arg2)) p := by
  rw [cnt_at m c p j 9 (by decide), (by norm_num : 2048 * (9 + 1) = 20000 + 480),
    sum_tail_zero _ 20000 480 (fun k hk => by unfold Mn; rw [dif_neg (by omega)]), Finset.sum_range]
  unfold Cert.Spec.count
  refine Finset.sum_congr rfl fun g _ => ?_
  unfold Mn
  rw [dif_pos g.isLt]

end Cert.KernelIdeal.KAcc

end
-- ==== Proof.KFinal.lean ====
import proofs.«142297_g66838281060554_cont_sun_c4_581_18_alg».proof.Proof.Gen.KernelIdeal.Skeleton
import proofs.«142297_g66838281060554_cont_sun_c4_581_18_alg».proof.Proof.Spec
import Idealize.ShloMosaic.PureOps.Ideal.Laws
import Idealize.ShloMosaic.Lib.ValueIdx
import Idealize.ShloMosaic.Lib.ValueLayout
import Idealize.ShloMosaic.Lib.Pipeline.Value

/-!
# The finishing step computes the first expression of the loss

At the last grid point the body turns its two accumulators into one number: the first column of the count accumulator
clamped below at one divides the difference accumulator; the quotient is squared, summed over the samples and divided by
256; a pathway is valid when its count is at least five; the valid pathways' mean squares are summed and divided by the
clamped number of valid pathways (zero if there is none). When the count column holds the member counts and the
difference accumulator the membership-weighted sums of predicted minus expression, that number is `Cert.Spec.lossK`.
-/

noncomputable section

namespace Cert.KernelIdeal.KFinal

open Cert.KernelIdeal Cert.KernelIdeal.Gen
open Idealize.ShloMosaic Idealize.ShloMosaic.ValueIdx

/-! ## Layout operations of a column read at coordinates -/

section Layout
variable {α : Type}

/-- An `[a]` array cast to the column `[a, 1]` reads, at `(i, u)`, the operand at `i`. -/
theorem shapeCast_a_a1_apply {a : ℕ} (x : (⟨1, ![a]⟩ : Shape).Idx → α)
    (h : (⟨1, ![a]⟩ : Shape).ShapeCasts ⟨2, ![a, 1]⟩) (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the operand's row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Layout

/-! ## The two kinds of sum the finishing step takes -/

/-- The sum over the lanes of a (500, 256) array, stored as a column, is at row `p` the sum over the 256 samples. -/
theorem rowsum_apply (X : FVec Ideal S500x256 .f32) (p : Fin 500) (u : Fin 1) :
    shapeCast S500x1
        (multiReduction (F := Ideal) .add ([1] : List (Fin 2)) S500 X 0x00000000#32 reduces_S500x256_S500 (.inl rfl) rfl)
        shapeCasts_S500_S500x1 (ix2 p u)
      = ∑ b : Fin 256, X (ix2 p b) := by
  rw [shapeCast_a_a1_apply]
  refine (Ideal.multiReduction_add_single _ _ _ _ _ _).trans ?_
  refine Finset.sum_congr rfl fun b _ => congrArg X ?_
  funext c
  match c with
  | ⟨0, _⟩ => exact Fin.ext rfl
  | ⟨1, _⟩ => exact Fin.ext rfl

/-- The indices of a (1, 500, 1) array are the 500 rows. -/
def rowEquiv : Fin 500 ≃ S1x500x1.Idx where
  toFun p := ix3 (0 : Fin 1) p (0 : Fin 1)
  invFun j := j 1
  left_inv _ := rfl
  right_inv j := by
    funext c
    match c with
    | ⟨0, _⟩ => exact Fin.ext (by have h : (j 0).val < 1 := (j 0).isLt; show 0 = (j 0).val; omega)
    | ⟨1, _⟩ => rfl
    | ⟨2, _⟩ => exact Fin.ext (by have h : (j 2).val < 1 := (j 2).isLt; show 0 = (j 2).val; omega)

/-- The sum of a column over all its entries, taken through a (1, 500, 1) view and read back as a scalar, is the sum
    over the 500 rows. -/
theorem total_apply (Y : FVec Ideal S500x1 .f32) :
    extractAt ![0, 0, 0]
      (shapeCast S1x1x1
        (multiReduction (F := Ideal) .add ([1, 2] : List (Fin 3)) S1 (shapeCast S1x500x1 Y shapeCasts_S500x1_S1x500x1)
          0x00000000#32 reduces_S1x500x1_S1 (.inl rfl) rfl)
        shapeCasts_S1_S1x1x1) inpos_S1x1x1_p0_0_0
      = ∑ p : Fin 500, Y (ix2 p (0 : Fin 1)) := by
  unfold extractAt shapeCast
  refine (Ideal.multiReduction_add_total _ _ _ (fun b => by match b with | ⟨0, _⟩ => rfl) _ _ _).trans ?_
  refine (Equiv.sum_comp rowEquiv _).symm.trans ?_
  refine Finset.sum_congr rfl fun p _ => ?_
  exact shapeCast_ab_1ab_apply Y shapeCasts_S500x1_S1x500x1 (0 : Fin 1) p (0 : Fin 1)

/-! ## The payload -/

/-- A word read as a signed integer, as an ideal float, is that integer among the extended reals. -/
theorem sitofp_ideal {w : Nat} (b : BitVec w) : FloatOps.sitofp (F := Ideal) .f32 b = (((b.toInt : ℝ)) : EReal) := rfl

/-- A float word, as an ideal scalar, is the extended real it denotes. -/
theorem scalar_ofBits_ideal (b : BitVec 32) : Scalar.ofBits (F := Ideal) .f32 b = Ideal.ofBits .f32 b := rfl

/-- The finishing payload on a count column `v37` that holds the member counts and a difference accumulator `v40` that
    holds the weighted sums is the constant (1, 1) block at `lossK`: the two total sums are sums over the 500 pathways,
    the lane sum is the sum over the 256 samples, every other operation acts entry by entry, and with the two
    accumulators read as the counts and the weighted sums the resulting expression is `lossK` term for term (the float
    word zero being the extended real zero). -/
theorem pay1_eq (x0 x1 : Cert.Spec.SE.Idx → EReal) (x2 : Cert.Spec.SM.Idx → EReal)
    (v37 : Vec Ideal S500x1 .f32) (v40 : Vec Ideal S500x256 .f32)
    (hcnt : ∀ p : Fin 500, v37 (ix2 p (0 : Fin 1)) = Cert.Spec.count x2 p)
    (hacc : ∀ (p : Fin 500) (b : Fin 256), v40 (ix2 p b) = Cert.Spec.accK x0 x1 x2 p b) :
    k0_pay1 (F := Ideal) v37 v40 = fun _ => Cert.Spec.lossK x0 x1 x2 := by
  funext j
  unfold k0_pay1
  simp only [select_apply, cmpf_apply, broadcast_apply, divf_apply, maximumf_apply, mulf_apply, total_apply,
    sitofp_apply, extui_apply, rowsum_apply, broadcastTo_a1_ab_apply, hcnt, hacc, Ideal.cmpf_def, sitofp_ideal,
    scalar_ofBits_ideal]
  unfold Cert.Spec.lossK Cert.Spec.mseK Cert.Spec.validK Cert.Spec.validBit Cert.Spec.denom Cert.Spec.one Cert.Spec.five
    Cert.Spec.c256 Scalar.select
  rw [Ideal.ofBits_zero_f32]

end Cert.KernelIdeal.KFinal

end
-- ==== Proof.KRun.lean ====
import proofs.«142297_g66838281060554_cont_sun_c4_581_18_alg».proof.Proof.KernelIdeal.Body
import proofs.«142297_g66838281060554_cont_sun_c4_581_18_alg».proof.Proof.KAcc
import proofs.«142297_g66838281060554_cont_sun_c4_581_18_alg».proof.Proof.KFinal

/-!
# The idealized kernel's result is the first expression of the loss

From the run of the program: the result array (1, 1) is written back once, after the last grid point, with the block the
finishing step stored; the line after the region reshapes it to the rank-0 result. At extended reals the finishing step's
number, computed from the accumulators after the last point (the sums over all genes), is `Cert.Spec.lossK` of the three
inputs.
-/

set_option maxRecDepth 16384

noncomputable section

namespace Cert.KernelIdeal.KRun

open Cert.KernelIdeal Cert.KernelIdeal.Gen Cert.KernelIdeal.Acc Cert.KernelIdeal.Body
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-- The loss of the three inputs as core `c` holds them. -/
abbrev lossOf (c : Dev nD) : EReal :=
  Cert.Spec.lossK (m ((c.tc : Thread nD τ).loc main_arg0)) (m ((c.tc : Thread nD τ).loc main_arg1)) (m ((c.tc : Thread nD τ).loc main_arg2))

/-- The first column of the count accumulator, read at pathway `p`, is the accumulator's entry (p, 0). -/
theorem col0_apply (s : Vec Ideal S500x8 .f32) (p : Fin 500) : col0 s (ix2 p (0 : Fin 1)) = s (ix2 p (0 : Fin 8)) := by
  unfold col0 View.ld
  refine congrArg s (funext fun a => Fin.ext ?_)
  match a with
  | ⟨0, _⟩ => show 0 + 1 * p.val = p.val; omega
  | ⟨1, _⟩ => show 0 + 1 * 0 = 0; rfl

/-- The block the last point stores is the loss, at its one index. -/
theorem outBlk_eq (c : Dev nD) : outBlk (F := Ideal) m c = fun _ => lossOf m c := by
  unfold outBlk
  exact Cert.KernelIdeal.KFinal.pay1_eq _ _ _ _ _
    (fun p => (col0_apply _ p).trans (Cert.KernelIdeal.KAcc.cnt_last m c p 0))
    (fun p b => Cert.KernelIdeal.KAcc.acc_last m c p b)

/-- A (1, 1) array has one index. -/
instance : Subsingleton S1x1.Idx := ⟨fun x y => funext fun a => by
  match a with
  | ⟨0, _⟩ => exact Subsingleton.elim (α := Fin 1) _ _
  | ⟨1, _⟩ => exact Subsingleton.elim (α := Fin 1) _ _⟩

/-- What a write-back of the result window writes is the loss block read through the window's block. -/
theorem flushed3 (c : Dev nD) (t : Fin cfg0.N) :
    (dats m 0 c).flushed 3 t = ((cfg0.win 3).blk t).view.read (Elt Ideal) (fun _ => lossOf m c) := by
  funext j
  show (dats m 0 c).after 3 t _ = _
  rw [after0_3, outBlk_eq]
  rfl

/-- The last point's block covers the (1, 1) array. -/
theorem cover3 (c : Dev nD) (i : ((cfg0.win 3).arr.view.loc (c.tc : Thread nD τ)).2.ty.Idx) :
    ∃ t : Fin cfg0.N, (cfg0.win 3).flush t = true ∧ i ∈ ((cfg0.win 3).blk t).view.set := by
  refine ⟨t0_9, (flush0_3 t0_9).mpr (by decide), ?_⟩
  show i ∈ ((View.whole main_v2).slice (win0_3.rect t0_9)).set
  rw [View.set_slice_whole, Rect.mem_set_unit]
  have e : ∀ a, win0_3.index t0_9 a * win0_3.size a = 0 ∧ win0_3.xsize (grid0.coords t0_9) a = 1 := by decide +kernel
  intro a
  have hi : (i a : Nat) < 1 := by
    match a with
    | ⟨0, h⟩ => exact (i ⟨0, h⟩).isLt
    | ⟨1, h⟩ => exact (i ⟨1, h⟩).isLt
  change win0_3.index t0_9 a * win0_3.size a ≤ (i a : Nat) ∧ (i a : Nat) < win0_3.index t0_9 a * win0_3.size a + win0_3.xsize (grid0.coords t0_9) a
  rw [(e a).1, (e a).2]; omega

/-- After the run the result array holds the loss. -/
theorem final3 (c : Dev nD) : (dats m 0 c).arrAt 3 cfg0.N = fun _ => lossOf m c :=
  (dats m 0 c).arrAt_eq_of_cover 3 (fun _ => lossOf m c) (fun t _ => flushed3 m c t) (cover3 c)

/-- The line after the region reshapes the (1, 1) result to rank 0: it holds the loss. -/
theorem tail_v3 (c : Dev nD) :
    Pipeline.afterTail₀ cfgs (dats m) 0 (V0 m) [hostOps1] c main_v3 = fun _ => lossOf m c := by
  unfold Pipeline.afterTail₀
  show StableHlo.after hostOps1 _ (Proc.devRef .tc main_v3) = _
  after_results
  have e : Pipeline.withArrays (cfgs 0).spec c (V0 m c) (fun w => (dats m 0 c).arrAt w (cfgs 0).N) (Proc.devRef .tc main_v2)
      = fun _ => lossOf m c :=
    (Pipeline.withArrays_arr spec0 launch0.win.arr_inj c _ _ 3).trans (final3 m c)
  funext i
  rw [e]
  rfl

/-- The run with the result named: every weakly fair execution terminates, the rank-0 result holds the loss and the three
    inputs what they held. -/
theorem run_value : θ_run defs (onTc (τ := τ) (main (F := Ideal))) ⟨m, fun _ => 0, ρ⟩ (fun r => ∀ c : Dev nD,
      r.2.mem ((c.tc : Thread nD τ).loc main_v3) = (fun _ => lossOf m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).2 main_v3 (Pipeline.mem_restRefs_of main_v3 (by decide) (by decide))).trans (tail_v3 m c),
     ((h c).2 main_arg0 (Pipeline.mem_restRefs_of main_arg0 (by decide) (by decide))).trans (W_main_arg0 m (dats m) c),
     ((h c).2 main_arg1 (Pipeline.mem_restRefs_of main_arg1 (by decide) (by decide))).trans (W_main_arg1 m (dats m) c),
     ((h c).1 2).trans (((dats m 0 c).arrAt_in 2 rfl _).trans ((A_eq m c 2).trans (V_main_arg2 m c)))⟩)
    (run_main m ρ)

end Cert.KernelIdeal.KRun

end
-- ==== Proof.RefValue.lean ====
import proofs.«142297_g66838281060554_cont_sun_c4_581_18_alg».proof.Proof.RefRead
import proofs.«142297_g66838281060554_cont_sun_c4_581_18_alg».proof.Proof.Spec

/-!
# The reference's result is the second expression of the loss

The reference program is forty-one host operations on the three input arrays. Read one operation at a time, at an index,
its one result (a rank-0 array) is the number `Cert.Spec.lossR` of the inputs: the member counts are the row sums of the
membership array; the two matrix products are the membership-weighted sums over the genes; each is divided by the clamped
count, the two subtracted, squared, summed over the samples and divided by 256; a pathway counts when its member count
is at least five; the total over the valid pathways is divided by their clamped number.

Each stage is read at an index built from explicit coordinates (a pathway `p`, a sample `b`), so that the composed
index maps of the layout operations (transposes, broadcasts) reduce to the coordinates themselves; every sum's initial
value is the float word zero, which is the number zero and drops out.
-/

noncomputable section

namespace Cert.ReferenceIdeal.RefValue

open Cert.ReferenceIdeal Cert.ReferenceIdeal.Gen Cert.ReferenceIdeal.ReadP
open Idealize.ShloMosaic Idealize.ShloMosaic.TcCoe Idealize.SL.Sem
open Idealize.ShloMosaic.ValueIdx

/-- A rank-1 index set is its one coordinate range … -/
def idxEquiv1 {n : Nat} : (⟨1, ![n]⟩ : Shape).Idx ≃ Fin n where
  toFun i := i 0
  invFun a := ix1 a
  left_inv i := (eq_ix1 i).symm
  right_inv _ := rfl

/-- … so a sum over it is the sum over the coordinate. -/
theorem sum_idx1 {M : Type*} [AddCommMonoid M] {n : Nat} (f : (⟨1, ![n]⟩ : Shape).Idx → M) :
    ∑ i, f i = ∑ a : Fin n, f (ix1 a) :=
  (Equiv.sum_comp (idxEquiv1 (n := n)).symm f).symm

section
variable (x0 x1 : (⟨S256x20000, .f32⟩ : BufTy).Contents (Elt Ideal)) (x2 : (⟨S500x20000, .f32⟩ : BufTy).Contents (Elt Ideal))

/-- The row sums of the membership array are the member counts. -/
theorem v0_eq (p : Fin 500) : val_main_v0 (F := Ideal) x2 (ix1 p) = Cert.Spec.count x2 p := by
  rw [val_main_v0_apply, val_main_cst_apply]
  simp only [Ideal.ofBits_def, Ideal.ofBits_zero_f32, zero_add]
  unfold Cert.Spec.count
  refine Finset.sum_congr rfl fun g _ => congrArg x2 ?_
  exact funext fun a => Fin.ext (by match a with | ⟨0, _⟩ => rfl | ⟨1, _⟩ => rfl)

/-- The broadcast float word 5.0, at every pathway. -/
theorem v1_eq (i : S500.Idx) : val_main_v1 (F := Ideal) i = Cert.Spec.five := by
  rw [val_main_v1_apply, val_main_cst_0_apply]; rfl

/-- The broadcast float word 1.0, at every pathway. -/
theorem v3_eq (i : S500.Idx) : val_main_v3 (F := Ideal) i = Cert.Spec.one := by
  rw [val_main_v3_apply, val_main_cst_1_apply]; rfl

/-- The broadcast float word 256.0, at every pathway. -/
theorem v18_eq (i : S500.Idx) : val_main_v18 (F := Ideal) i = Cert.Spec.c256 := by
  rw [val_main_v18_apply, val_main_cst_3_apply]; rfl

/-- The comparison of the member count with five is the validity bit. -/
theorem v2_eq (p : Fin 500) : val_main_v2 (F := Ideal) x2 (ix1 p) = Cert.Spec.validBit x2 p := by
  rw [val_main_v2_apply, v0_eq, v1_eq]; rfl

/-- The maximum of the member count and one is the clamped count. -/
theorem v4_eq (p : Fin 500) : val_main_v4 (F := Ideal) x2 (ix1 p) = Cert.Spec.denom x2 p := by
  rw [val_main_v4_apply, v0_eq, v3_eq]; rfl

/-- The clamped count broadcast over the samples (the first divisor) reads the pathway's clamped count. -/
theorem v8_eq (b : Fin 256) (p : Fin 500) : val_main_v8 (F := Ideal) x2 (ix2 b p) = Cert.Spec.denom x2 p := by
  rw [val_main_v8_apply, val_main_v7_apply]
  have e : idx_main_v7 (idx_main_v8 (ix2 b p)) = ix1 p :=
    funext fun a => Fin.ext (by match a with | ⟨0, _⟩ => rfl)
  rw [e, v4_eq]

/-- The clamped count broadcast over the samples (the second divisor) reads the pathway's clamped count. -/
theorem v13_eq (b : Fin 256) (p : Fin 500) : val_main_v13 (F := Ideal) x2 (ix2 b p) = Cert.Spec.denom x2 p := by
  rw [val_main_v13_apply, val_main_v12_apply]
  have e : idx_main_v12 (idx_main_v13 (ix2 b p)) = ix1 p :=
    funext fun a => Fin.ext (by match a with | ⟨0, _⟩ => rfl)
  rw [e, v4_eq]

/-- The product of the expression array with the transposed membership array is the membership-weighted sum over the genes. -/
theorem v6_eq (b : Fin 256) (p : Fin 500) :
    val_main_v6 (F := Ideal) x0 x2 (ix2 b p) = ∑ g : Fin 20000, x0 (ix2 b g) * x2 (ix2 p g) := by
  rw [val_main_v6_apply]
  refine Finset.sum_congr rfl fun g _ => ?_
  rw [val_main_v5_apply]
  have el : lidx_main_v6 (ix2 b p) g = ix2 b g :=
    funext fun a => Fin.ext (by match a with | ⟨0, _⟩ => rfl | ⟨1, _⟩ => rfl)
  have er : idx_main_v5 (ridx_main_v6 (ix2 b p) g) = ix2 p g :=
    funext fun a => Fin.ext (by match a with | ⟨0, _⟩ => rfl | ⟨1, _⟩ => rfl)
  rw [el, er]

/-- The product of the predicted array with the transposed membership array is the membership-weighted sum over the genes. -/
theorem v11_eq (b : Fin 256) (p : Fin 500) :
    val_main_v11 (F := Ideal) x1 x2 (ix2 b p) = ∑ g : Fin 20000, x1 (ix2 b g) * x2 (ix2 p g) := by
  rw [val_main_v11_apply]
  refine Finset.sum_congr rfl fun g _ => ?_
  rw [val_main_v10_apply]
  have el : lidx_main_v11 (ix2 b p) g = ix2 b g :=
    funext fun a => Fin.ext (by match a with | ⟨0, _⟩ => rfl | ⟨1, _⟩ => rfl)
  have er : idx_main_v10 (ridx_main_v11 (ix2 b p) g) = ix2 p g :=
    funext fun a => Fin.ext (by match a with | ⟨0, _⟩ => rfl | ⟨1, _⟩ => rfl)
  rw [el, er]

/-- The expression array's weighted sum divided by the clamped count. -/
theorem v9_eq (b : Fin 256) (p : Fin 500) :
    val_main_v9 (F := Ideal) x0 x2 (ix2 b p) = Cert.Spec.quotR x2 x0 b p := by
  rw [val_main_v9_apply, v6_eq, v8_eq]; rfl

/-- The predicted array's weighted sum divided by the clamped count. -/
theorem v14_eq (b : Fin 256) (p : Fin 500) :
    val_main_v14 (F := Ideal) x1 x2 (ix2 b p) = Cert.Spec.quotR x2 x1 b p := by
  rw [val_main_v14_apply, v11_eq, v13_eq]; rfl

/-- The difference of the two quotients, squared. -/
theorem v16_eq (b : Fin 256) (p : Fin 500) :
    val_main_v16 (F := Ideal) x0 x1 x2 (ix2 b p)
      = (Cert.Spec.quotR x2 x1 b p - Cert.Spec.quotR x2 x0 b p) * (Cert.Spec.quotR x2 x1 b p - Cert.Spec.quotR x2 x0 b p) := by
  rw [val_main_v16_apply, val_main_v15_apply, v14_eq, v9_eq]; rfl

/-- The squared differences summed over the samples. -/
theorem v17_eq (p : Fin 500) :
    val_main_v17 (F := Ideal) x0 x1 x2 (ix1 p)
      = ∑ b : Fin 256, (Cert.Spec.quotR x2 x1 b p - Cert.Spec.quotR x2 x0 b p) * (Cert.Spec.quotR x2 x1 b p - Cert.Spec.quotR x2 x0 b p) := by
  rw [val_main_v17_apply, val_main_cst_2_apply]
  simp only [Ideal.ofBits_def, Ideal.ofBits_zero_f32, zero_add]
  refine Finset.sum_congr rfl fun b _ => ?_
  have e : idx_main_v17 (ix1 p) b = ix2 b p :=
    funext fun a => Fin.ext (by match a with | ⟨0, _⟩ => rfl | ⟨1, _⟩ => rfl)
  rw [e, v16_eq]

/-- That sum divided by 256 is the pathway's mean square. -/
theorem v19_eq (p : Fin 500) : val_main_v19 (F := Ideal) x0 x1 x2 (ix1 p) = Cert.Spec.mseR x0 x1 x2 p := by
  rw [val_main_v19_apply, v17_eq, v18_eq]; rfl

/-- The validity bit converted to a float, read unsigned: 0 or 1. -/
theorem v20_eq (p : Fin 500) : val_main_v20 (F := Ideal) x2 (ix1 p) = Cert.Spec.validR x2 p := by
  rw [val_main_v20_apply, v2_eq]; rfl

/-- The number of valid pathways: the sum of the converted bits over the pathways. -/
theorem v21_eq (i : S_.Idx) : val_main_v21 (F := Ideal) x2 i = ∑ p : Fin 500, Cert.Spec.validR x2 p := by
  rw [val_main_v21_apply, val_main_cst_4_apply]
  simp only [Ideal.ofBits_def, Ideal.ofBits_zero_f32, zero_add]
  rw [sum_idx1]
  exact Finset.sum_congr rfl fun p _ => v20_eq x2 p

/-- The choice between the pathway's mean square and zero by its validity bit. -/
theorem v22_eq (p : Fin 500) :
    val_main_v22 (F := Ideal) x0 x1 x2 (ix1 p) = if Cert.Spec.validBit x2 p = 1 then Cert.Spec.mseR x0 x1 x2 p else 0 := by
  rw [val_main_v22_apply, v2_eq, v19_eq, val_main_call0_v1_apply, val_main_call0_v0_apply, val_main_cst_5_apply]
  simp only [Scalar.select, Ideal.ofBits_def, Ideal.ofBits_zero_f32]

/-- The total of the chosen values over the pathways. -/
theorem v23_eq (i : S_.Idx) :
    val_main_v23 (F := Ideal) x0 x1 x2 i
      = ∑ p : Fin 500, if Cert.Spec.validBit x2 p = 1 then Cert.Spec.mseR x0 x1 x2 p else 0 := by
  rw [val_main_v23_apply, val_main_cst_6_apply]
  simp only [Ideal.ofBits_def, Ideal.ofBits_zero_f32, zero_add]
  rw [sum_idx1]
  exact Finset.sum_congr rfl fun p _ => v22_eq x0 x1 x2 p

/-- Whether any pathway is valid: the comparison of their number with zero. -/
theorem v24_eq (i : S_.Idx) :
    val_main_v24 (F := Ideal) x2 i = Ideal.cmp .ogt (∑ p : Fin 500, Cert.Spec.validR x2 p) 0 := by
  rw [val_main_v24_apply, v21_eq, val_main_cst_7_apply]
  simp only [Ideal.ofBits_def, Ideal.ofBits_zero_f32, Ideal.cmpf_def]

/-- The number of valid pathways clamped below at one. -/
theorem v25_eq (i : S_.Idx) :
    val_main_v25 (F := Ideal) x2 i = max (∑ p : Fin 500, Cert.Spec.validR x2 p) Cert.Spec.one := by
  rw [val_main_v25_apply, v21_eq, val_main_cst_8_apply]; rfl

/-- The total divided by the clamped number of valid pathways. -/
theorem v26_eq (i : S_.Idx) :
    val_main_v26 (F := Ideal) x0 x1 x2 i
      = Ideal.div (∑ p : Fin 500, if Cert.Spec.validBit x2 p = 1 then Cert.Spec.mseR x0 x1 x2 p else 0)
          (max (∑ p : Fin 500, Cert.Spec.validR x2 p) Cert.Spec.one) := by
  rw [val_main_v26_apply, v23_eq, v25_eq]; rfl

end

/-- The reference's last stage, at extended reals, is the constant array at `lossR` of the three inputs. -/
theorem ref_eq (x0 x1 : (⟨S256x20000, .f32⟩ : BufTy).Contents (Elt Ideal)) (x2 : (⟨S500x20000, .f32⟩ : BufTy).Contents (Elt Ideal)) :
    val_main_v27 (F := Ideal) x0 x1 x2 = fun _ => Cert.Spec.lossR x0 x1 x2 := by
  funext i
  -- the last choice: the quotient when some pathway is valid, else zero
  rw [val_main_v27_apply, v24_eq, v26_eq, val_main_cst_9_apply]
  unfold Cert.Spec.lossR
  simp only [Scalar.select, Ideal.ofBits_def, Ideal.ofBits_zero_f32]

end Cert.ReferenceIdeal.RefValue

end
-- ==== Proof.Finite.lean ====
import proofs.«142297_g66838281060554_cont_sun_c4_581_18_alg».proof.Pre_finite_inputs
import proofs.«142297_g66838281060554_cont_sun_c4_581_18_alg».proof.Proof.Gen.Pre_finite_inputs
import Idealize.ShloMosaic.PureOps.Ideal
import Idealize.ShloMosaic.PureOps.Ideal.Laws
import Idealize.ShloMosaic.Lib.ReduceAll
import Idealize.ShloMosaic.Lib.ValueIdx
import Idealize.ShloMosaic.Lib.IdealHost

/-!
# Every entry of a finite input is a real number

The precondition says, of each of the three input arrays, that the absolute value of every entry is below plus
infinity, the three facts joined by `and`. On the extended reals an entry whose absolute value is below plus infinity
is neither infinity, hence the image of a real number.
-/

noncomputable section

namespace Cert.Finite

open Idealize.ShloMosaic Idealize.ShloMosaic.ValueIdx

/-- The rank-0 shape has exactly one index. -/
instance : Subsingleton Cert.Pre_finite_inputs.S_.Idx := ⟨fun a b => funext fun d => d.elim0⟩

/-- The word `0x7F800000` (sign 0, exponent all ones, significand 0) denotes plus infinity. -/
theorem inf_word : Ideal.ofBits .f32 0x7F800000#32 = (⊤ : EReal) := by
  simp [Ideal.ofBits, Ideal.ieee]

/-- An extended real whose absolute value `max x (-x)` is strictly below plus infinity is a real number:
    at `⊥` the maximum is `-⊥ = ⊤`, at `⊤` it is `⊤`, and `⊤ < ⊤` is false. -/
theorem real_of_abs_lt_top (x : EReal) (h : Ideal.cmp .olt (max x (-x)) (⊤ : EReal) = 1#1) :
    ∃ r : ℝ, x = (r : EReal) := by
  induction x using EReal.rec with
  | bot => simp [Ideal.cmp] at h
  | coe r => exact ⟨r, rfl⟩
  | top => simp [Ideal.cmp] at h

/-- One array: if the reduction by `and`, over all axes, of the comparisons `|x i| < +inf` is 1, every entry is real. -/
theorem all_real {s : Shape} {axes : List (Fin s.rank)} (x : FVec Ideal s .f32)
    (hb : Cert.Pre_finite_inputs.S_.BroadcastsInDim s (![] : Fin 0 → Fin s.rank))
    (hr : s.ReducesTo axes Cert.Pre_finite_inputs.S_) (hu : 0 < Cert.Pre_finite_inputs.S_.numel)
    (e : Host.reduce IntOp.andi
          (cmpf .olt (Host.absf x)
            (broadcastInDim s ![] hb (constant (F := Ideal) Cert.Pre_finite_inputs.S_ .f32 0x7F800000#32)))
          (constantI Cert.Pre_finite_inputs.S_ 1 1#1) hr hu ix0 = 1#1) :
    ∀ i, ∃ r : ℝ, x i = (r : EReal) := by
  intro i
  have hi := Host.reduce_andi_all _ _ hr hu ix0 e i
  rw [cmpf_apply, broadcastInDim_scalar_apply, constant_apply, inf_word] at hi
  exact real_of_abs_lt_top (x i) hi

/-- If the printed precondition answers "true" on three arrays of extended reals, every entry of each is a real. -/
theorem real_of_pre [Cert.Pre_finite_inputs.Facts]
    (a0 a1 : FVec Ideal Cert.Pre_finite_inputs.S256x20000 .f32) (a2 : FVec Ideal Cert.Pre_finite_inputs.S500x20000 .f32)
    (h : Cert.Pre_finite_inputs.fn (F := Ideal) a0 a1 a2 = fun _ => 1#1) :
    (∀ i, ∃ r : ℝ, a0 i = (r : EReal)) ∧ (∀ i, ∃ r : ℝ, a1 i = (r : EReal)) ∧ (∀ i, ∃ r : ℝ, a2 i = (r : EReal)) := by
  have h0 := congrFun h ix0
  dsimp only [Cert.Pre_finite_inputs.fn] at h0
  change IntOp.andi (IntOp.andi _ _) _ = 1#1 at h0
  obtain ⟨h01, h2⟩ := IntOp.andi_eq_one.1 h0
  obtain ⟨h0', h1⟩ := IntOp.andi_eq_one.1 h01
  exact ⟨all_real a0 _ _ _ h0', all_real a1 _ _ _ h1, all_real a2 _ _ _ h2⟩

end Cert.Finite

end
-- ==== Proof.lean ====
/-
  The certificate of the pathway-coherence loss kernel against its reference.

  The kernel forms the difference predicted - expression once, walks the 20000 genes in ten chunks of 2048 (the last
  one masked past gene 19999), and accumulates per chunk the product of the masked membership block with the masked
  difference block, and the membership block's row sums; at the last chunk it divides by the clamped member counts,
  squares, averages over the 256 samples, and averages the valid pathways' values. The reference multiplies expression
  and predicted by the membership matrix separately, divides each by the clamped counts and subtracts.

  * The three frames: each program runs to the end without a fault and leaves its inputs unchanged. For the kernel (at
    both instances) this is the pipeline's launch over the body's obligation (Proof/Kernel/Body.lean,
    Proof/KernelIdeal/Body.lean); for the reference its run with the result dropped.
  * `preserves`: the idealization rewrote nothing.
  * `algebraic`: at extended reals the kernel's result is `Cert.Spec.lossK` of the inputs (Proof/KRun.lean) and the
    reference's is `Cert.Spec.lossR` (Proof/RefValue.lean); on finite inputs (Proof/Finite.lean, from the precondition)
    the two are one number (Proof/Spec.lean: a finite sum is linear, and division by a nonzero real distributes over a
    difference).
-/
import proofs.«142297_g66838281060554_cont_sun_c4_581_18_alg».proof.Defs
import proofs.«142297_g66838281060554_cont_sun_c4_581_18_alg».proof.Proof.Gen.Kernel
import proofs.«142297_g66838281060554_cont_sun_c4_581_18_alg».proof.Proof.Gen.KernelIdeal
import proofs.«142297_g66838281060554_cont_sun_c4_581_18_alg».proof.Proof.Gen.ReferenceIdeal
import proofs.«142297_g66838281060554_cont_sun_c4_581_18_alg».proof.Proof.Gen.Pre_finite_inputs
import proofs.«142297_g66838281060554_cont_sun_c4_581_18_alg».proof.Proof.Kernel.Body
import proofs.«142297_g66838281060554_cont_sun_c4_581_18_alg».proof.Proof.KernelIdeal.Body
import proofs.«142297_g66838281060554_cont_sun_c4_581_18_alg».proof.Proof.KRun
import proofs.«142297_g66838281060554_cont_sun_c4_581_18_alg».proof.Proof.RefValue
import proofs.«142297_g66838281060554_cont_sun_c4_581_18_alg».proof.Proof.Finite
import proofs.«142297_g66838281060554_cont_sun_c4_581_18_alg».proof.Proof.Spec
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Body.frame m ρ

theorem frame_ki : Cert.frame_KernelIdeal := fun m ρ _ => Cert.KernelIdeal.Body.frame m ρ

theorem frame_ri : Cert.frame_ReferenceIdeal := fun m ρ _ =>
  (θ_run Cert.ReferenceIdeal.defs _ _).mono (fun _ h c => (h c).2) (Cert.ReferenceIdeal.ValueP.run (F := Ideal) m ρ)

theorem preserves : Cert.preserves_Kernel_KernelIdeal := trivial

/-- Both idealized programs end with the same number: the kernel's is `lossK` of its inputs, the reference's `lossR` of
    the same inputs, and the inputs are finite. -/
theorem algebraic : Cert.algebraic_KernelIdeal_ReferenceIdeal := by
  intro m ρ m' ρ' hpre hagree
  refine ⟨fun c => fun _ => Cert.KernelIdeal.KRun.lossOf m c, Cert.KernelIdeal.KRun.run_value m ρ, ?_⟩
  refine (θ_run Cert.ReferenceIdeal.defs _ _).mono (fun _ h c => ⟨?_, (h c).2⟩)
    (Cert.ReferenceIdeal.ValueP.run (F := Ideal) m' ρ')
  obtain ⟨h0, h1, h2⟩ := Cert.Finite.real_of_pre _ _ _ (hpre c)
  rw [(h c).1, Cert.ReferenceIdeal.ReadP.val_main_v27_eq, Cert.ReferenceIdeal.RefValue.ref_eq,
    (hagree c).1, (hagree c).2.1, (hagree c).2.2]
  funext _
  exact (Cert.Spec.loss_eq _ _ _ h0 h1 h2).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
